-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S6291456 : Shape := ⟨1, ![6291456]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S6291456 : S_.BroadcastsInDim S6291456 (![] : Fin 0 → Fin S6291456.rank)
  reducesTo_S6291456_S_d0 : S6291456.ReducesTo [0] S_

variable [Facts]

def fn {F : FTy → Type} [FloatOps F] (main_arg0 : FVec F S2097152x3 .f32) (main_arg1 : FVec F S6291456 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S6291456 .f32 := Host.absf main_arg1
  let main_cst_0 : FVec F S_ .f32 := constant S_ .f32 0x7F800000#32
  let main_v5 : FVec F S6291456 .f32 := broadcastInDim S6291456 ![] bcast_S_S6291456 main_cst_0
  let main_v6 : IVec S6291456 1 := cmpf .olt main_v4 main_v5
  let main_c_1 : IVec S_ 1 := constantI S_ 1 1#1
  let main_v7 : IVec S_ 1 := (fun x v => Host.reduce IntOp.andi x v reducesTo_S6291456_S_d0 h_S_) main_v6 main_c_1
  let main_v8 : IVec S_ 1 := andi main_v3 main_v7
  main_v8
-- ==== Kernel.lean ====
abbrev S2097152x3 : Shape := ⟨2, ![2097152, 3]⟩
abbrev S6291456 : Shape := ⟨1, ![6291456]⟩
abbrev S4 : Shape := ⟨1, ![4]⟩
abbrev S3 : Shape := ⟨1, ![3]⟩
abbrev S2097152x1x3 : Shape := ⟨3, ![2097152, 1, 3]⟩
abbrev S1x4x1 : Shape := ⟨3, ![1, 4, 1]⟩
abbrev S_ : Shape := ⟨0, ![]⟩
abbrev S2097152x4x3 : Shape := ⟨3, ![2097152, 4, 3]⟩
abbrev S3x1 : Shape := ⟨2, ![3, 1]⟩
abbrev S3x1048576x2 : Shape := ⟨3, ![3, 1048576, 2]⟩
abbrev S1x1x3 : Shape := ⟨3, ![1, 1, 3]⟩
abbrev S2097152x4x3x1 : Shape := ⟨4, ![2097152, 4, 3, 1]⟩
abbrev S2097152x4x3x2 : Shape := ⟨4, ![2097152, 4, 3, 2]⟩
abbrev S2097152x4x4x2 : Shape := ⟨4, ![2097152, 4, 4, 2]⟩
abbrev S16384x4x3x2 : Shape := ⟨4, ![16384, 4, 3, 2]⟩
abbrev S16384x4x3 : Shape := ⟨3, ![16384, 4, 3]⟩
abbrev S16384x4x4x2 : Shape := ⟨4, ![16384, 4, 4, 2]⟩
abbrev S16384x4x3x1 : Shape := ⟨4, ![16384, 4, 3, 1]⟩
abbrev S16384x4x1x2 : Shape := ⟨4, ![16384, 4, 1, 2]⟩
abbrev S16384x4x2 : Shape := ⟨3, ![16384, 4, 2]⟩
abbrev S2097152x32 : Shape := ⟨2, ![2097152, 32]⟩

abbrev nBuf : Space → Nat
  | .hbm => 216
  | .vmem => 18
  | .smem => 0
  | _ => 0

abbrev hbmTy0_0 (i : Nat) : BufTy := match i % 128 with
  | 0 => ⟨S2097152x3, .f32⟩
  | 1 => ⟨S6291456, .f32⟩
  | 2 => ⟨S4, .f32⟩
  | 3 => ⟨S4, .i32⟩
  | 4 => ⟨S3, .i32⟩
  | 5 => ⟨S3, .i32⟩
  | 6 => ⟨S2097152x1x3, .f32⟩
  | 7 => ⟨S1x4x1, .f32⟩
  | 8 => ⟨S_, .f32⟩
  | 9 => ⟨S1x4x1, .f32⟩
  | 10 => ⟨S1x4x1, .f32⟩
  | 11 => ⟨S2097152x4x3, .f32⟩
  | 12 => ⟨S2097152x4x3, .f32⟩
  | 13 => ⟨S2097152x4x3, .f32⟩
  | 14 => ⟨S_, .f32⟩
  | 15 => ⟨S2097152x4x3, .f32⟩
  | 16 => ⟨S2097152x4x3, .f32⟩
  | 17 => ⟨S2097152x4x3, .f32⟩
  | 18 => ⟨S2097152x4x3, .i32⟩
  | 19 => ⟨S2097152x4x3, .f32⟩
  | 20 => ⟨S2097152x4x3, .f32⟩
  | 21 => ⟨S_, .i32⟩
  | 22 => ⟨S3, .i32⟩
  | 23 => ⟨S3, .i1⟩
  | 24 => ⟨S_, .i32⟩
  | 25 => ⟨S3, .i32⟩
  | 26 => ⟨S3, .i32⟩
  | 27 => ⟨S3, .i32⟩
  | 28 => ⟨S3x1, .i32⟩
  | 29 => ⟨S2097152x4x3, .f32⟩
  | 30 => ⟨S_, .i32⟩
  | 31 => ⟨S3, .i32⟩
  | 32 => ⟨S3, .i1⟩
  | 33 => ⟨S_, .i32⟩
  | 34 => ⟨S3, .i32⟩
  | 35 => ⟨S3, .i32⟩
  | 36 => ⟨S3, .i32⟩
  | 37 => ⟨S3x1, .i32⟩
  | 38 => ⟨S2097152x4x3, .f32⟩
  | 39 => ⟨S_, .i32⟩
  | 40 => ⟨S3, .i32⟩
  | 41 => ⟨S3, .i1⟩
  | 42 => ⟨S_, .i32⟩
  | 43 => ⟨S3, .i32⟩
  | 44 => ⟨S3, .i32⟩
  | 45 => ⟨S3, .i32⟩
  | 46 => ⟨S3x1, .i32⟩
  | 47 => ⟨S2097152x4x3, .i32⟩
  | 48 => ⟨S_, .i32⟩
  | 49 => ⟨S3, .i32⟩
  | 50 => ⟨S3, .i1⟩
  | 51 => ⟨S_, .i32⟩
  | 52 => ⟨S3, .i32⟩
  | 53 => ⟨S3, .i32⟩
  | 54 => ⟨S3, .i32⟩
  | 55 => ⟨S3x1, .i32⟩
  | 56 => ⟨S2097152x4x3, .i32⟩
  | 57 => ⟨S3x1048576x2, .f32⟩
  | 58 => ⟨S3, .i32⟩
  | 59 => ⟨S1x1x3, .i32⟩
  | 60 => ⟨S1x4x1, .i32⟩
  | 61 => ⟨S_, .f32⟩
  | 62 => ⟨S2097152x4x3, .f32⟩
  | 63 => ⟨S2097152x4x3, .f32⟩
  | 64 => ⟨S_, .i32⟩
  | 65 => ⟨S2097152x4x3, .i32⟩
  | 66 => ⟨S2097152x4x3, .i32⟩
  | 67 => ⟨S2097152x4x3, .i32⟩
  | 68 => ⟨S2097152x4x3, .i32⟩
  | 69 => ⟨S_, .i32⟩
  | 70 => ⟨S2097152x4x3, .i32⟩
  | 71 => ⟨S2097152x4x3, .i32⟩
  | 72 => ⟨S_, .f32⟩
  | 73 => ⟨S2097152x4x3, .f32⟩
  | 74 => ⟨S2097152x4x3, .f32⟩
  | 75 => ⟨S_, .i32⟩
  | 76 => ⟨S2097152x4x3, .i32⟩
  | 77 => ⟨S2097152x4x3, .i32⟩
  | 78 => ⟨S2097152x4x3, .i32⟩
  | 79 => ⟨S2097152x4x3, .i32⟩
  | 80 => ⟨S_, .i32⟩
  | 81 => ⟨S2097152x4x3, .i32⟩
  | 82 => ⟨S2097152x4x3, .i32⟩
  | 83 => ⟨S_, .i32⟩
  | 84 => ⟨S2097152x4x3, .i32⟩
  | 85 => ⟨S2097152x4x3, .i32⟩
  | 86 => ⟨S2097152x4x3, .i32⟩
  | 87 => ⟨S_, .i32⟩
  | 88 => ⟨S1x1x3, .i32⟩
  | 89 => ⟨S1x1x3, .i1⟩
  | 90 => ⟨S_, .i32⟩
  | 91 => ⟨S1x1x3, .i32⟩
  | 92 => ⟨S1x1x3, .i32⟩
  | 93 => ⟨S1x1x3, .i32⟩
  | 94 => ⟨S_, .i32⟩
  | 95 => ⟨S2097152x4x3, .i32⟩
  | 96 => ⟨S2097152x4x3, .i1⟩
  | 97 => ⟨S_, .i32⟩
  | 98 => ⟨S2097152x4x3, .i32⟩
  | 99 => ⟨S2097152x4x3, .i32⟩
  | 100 => ⟨S2097152x4x3, .i32⟩
  | 101 => ⟨S2097152x4x3, .i32⟩
  | 102 => ⟨S2097152x4x3x1, .i32⟩
  | 103 => ⟨S2097152x4x3x1, .i32⟩
  | 104 => ⟨S2097152x4x3x2, .i32⟩
  | 105 => ⟨S2097152x4x3x2, .f32⟩
  | 106 => ⟨S2097152x4x3, .f32⟩
  | 107 => ⟨S_, .i32⟩
  | 108 => ⟨S2097152x4x3, .i32⟩
  | 109 => ⟨S2097152x4x3, .i32⟩
  | 110 => ⟨S2097152x4x3, .i32⟩
  | 111 => ⟨S2097152x4x3, .i32⟩
  | 112 => ⟨S_, .i32⟩
  | 113 => ⟨S2097152x4x3, .i32⟩
  | 114 => ⟨S2097152x4x3, .i32⟩
  | 115 => ⟨S_, .i32⟩
  | 116 => ⟨S2097152x4x3, .i32⟩
  | 117 => ⟨S2097152x4x3, .i32⟩
  | 118 => ⟨S2097152x4x3, .i32⟩
  | 119 => ⟨S_, .i32⟩
  | 120 => ⟨S1x1x3, .i32⟩
  | 121 => ⟨S1x1x3, .i1⟩
  | 122 => ⟨S_, .i32⟩
  | 123 => ⟨S1x1x3, .i32⟩
  | 124 => ⟨S1x1x3, .i32⟩
  | 125 => ⟨S1x1x3, .i32⟩
  | 126 => ⟨S_, .i32⟩
  | 127 => ⟨S2097152x4x3, .i32⟩
  | _ => ⟨S2097152x3, .f32⟩

abbrev hbmTy0_1 (i : Nat) : BufTy := match i % 128 with
  | 0 => ⟨S2097152x4x3, .i1⟩
  | 1 => ⟨S_, .i32⟩
  | 2 => ⟨S2097152x4x3, .i32⟩
  | 3 => ⟨S2097152x4x3, .i32⟩
  | 4 => ⟨S2097152x4x3, .i32⟩
  | 5 => ⟨S2097152x4x3, .i32⟩
  | 6 => ⟨S2097152x4x3x1, .i32⟩
  | 7 => ⟨S2097152x4x3x1, .i32⟩
  | 8 => ⟨S2097152x4x3x2, .i32⟩
  | 9 => ⟨S2097152x4x3x2, .f32⟩
  | 10 => ⟨S2097152x4x3, .f32⟩
  | 11 => ⟨S_, .i32⟩
  | 12 => ⟨S2097152x4x3, .i32⟩
  | 13 => ⟨S2097152x4x3, .i32⟩
  | 14 => ⟨S2097152x4x3, .i32⟩
  | 15 => ⟨S2097152x4x3, .i32⟩
  | 16 => ⟨S_, .i32⟩
  | 17 => ⟨S2097152x4x3, .i32⟩
  | 18 => ⟨S2097152x4x3, .i32⟩
  | 19 => ⟨S_, .f32⟩
  | 20 => ⟨S2097152x4x3, .f32⟩
  | 21 => ⟨S2097152x4x3, .f32⟩
  | 22 => ⟨S_, .i32⟩
  | 23 => ⟨S2097152x4x3, .i32⟩
  | 24 => ⟨S2097152x4x3, .i32⟩
  | 25 => ⟨S2097152x4x3, .i32⟩
  | 26 => ⟨S2097152x4x3, .i32⟩
  | 27 => ⟨S_, .i32⟩
  | 28 => ⟨S2097152x4x3, .i32⟩
  | 29 => ⟨S2097152x4x3, .i32⟩
  | 30 => ⟨S_, .i32⟩
  | 31 => ⟨S2097152x4x3, .i32⟩
  | 32 => ⟨S2097152x4x3, .i32⟩
  | 33 => ⟨S2097152x4x3, .i32⟩
  | 34 => ⟨S_, .i32⟩
  | 35 => ⟨S1x1x3, .i32⟩
  | 36 => ⟨S1x1x3, .i1⟩
  | 37 => ⟨S_, .i32⟩
  | 38 => ⟨S1x1x3, .i32⟩
  | 39 => ⟨S1x1x3, .i32⟩
  | 40 => ⟨S1x1x3, .i32⟩
  | 41 => ⟨S_, .i32⟩
  | 42 => ⟨S2097152x4x3, .i32⟩
  | 43 => ⟨S2097152x4x3, .i1⟩
  | 44 => ⟨S_, .i32⟩
  | 45 => ⟨S2097152x4x3, .i32⟩
  | 46 => ⟨S2097152x4x3, .i32⟩
  | 47 => ⟨S2097152x4x3, .i32⟩
  | 48 => ⟨S2097152x4x3, .i32⟩
  | 49 => ⟨S2097152x4x3x1, .i32⟩
  | 50 => ⟨S2097152x4x3x1, .i32⟩
  | 51 => ⟨S2097152x4x3x2, .i32⟩
  | 52 => ⟨S2097152x4x3x2, .f32⟩
  | 53 => ⟨S2097152x4x3, .f32⟩
  | 54 => ⟨S_, .i32⟩
  | 55 => ⟨S2097152x4x3, .i32⟩
  | 56 => ⟨S2097152x4x3, .i32⟩
  | 57 => ⟨S2097152x4x3, .i32⟩
  | 58 => ⟨S2097152x4x3, .i32⟩
  | 59 => ⟨S_, .i32⟩
  | 60 => ⟨S2097152x4x3, .i32⟩
  | 61 => ⟨S2097152x4x3, .i32⟩
  | 62 => ⟨S_, .i32⟩
  | 63 => ⟨S2097152x4x3, .i32⟩
  | 64 => ⟨S2097152x4x3, .i32⟩
  | 65 => ⟨S2097152x4x3, .i32⟩
  | 66 => ⟨S_, .i32⟩
  | 67 => ⟨S1x1x3, .i32⟩
  | 68 => ⟨S1x1x3, .i1⟩
  | 69 => ⟨S_, .i32⟩
  | 70 => ⟨S1x1x3, .i32⟩
  | 71 => ⟨S1x1x3, .i32⟩
  | 72 => ⟨S1x1x3, .i32⟩
  | 73 => ⟨S_, .i32⟩
  | 74 => ⟨S2097152x4x3, .i32⟩
  | 75 => ⟨S2097152x4x3, .i1⟩
  | 76 => ⟨S_, .i32⟩
  | 77 => ⟨S2097152x4x3, .i32⟩
  | 78 => ⟨S2097152x4x3, .i32⟩
  | 79 => ⟨S2097152x4x3, .i32⟩
  | 80 => ⟨S2097152x4x3, .i32⟩
  | 81 => ⟨S2097152x4x3x1, .i32⟩
  | 82 => ⟨S2097152x4x3x1, .i32⟩
  | 83 => ⟨S2097152x4x3x2, .i32⟩
  | 84 => ⟨S2097152x4x3x2, .f32⟩
  | 85 => ⟨S2097152x4x3, .f32⟩
  | 86 => ⟨S2097152x4x4x2, .f32⟩
  | 87 => ⟨S2097152x32, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | .local _ .vmem, ⟨0, _⟩ => ⟨S16384x4x3x2, .f32⟩
  | .local _ .vmem, ⟨1, _⟩ => ⟨S16384x4x3x2, .f32⟩
  | .local _ .vmem, ⟨2, _⟩ => ⟨S16384x4x3x2, .f32⟩
  | .local _ .vmem, ⟨3, _⟩ => ⟨S16384x4x3x2, .f32⟩
  | .local _ .vmem, ⟨4, _⟩ => ⟨S16384x4x3x2, .f32⟩
  | .local _ .vmem, ⟨5, _⟩ => ⟨S16384x4x3x2, .f32⟩
  | .local _ .vmem, ⟨6, _⟩ => ⟨S16384x4x3x2, .f32⟩
  | .local _ .vmem, ⟨7, _⟩ => ⟨S16384x4x3x2, .f32⟩
  | .local _ .vmem, ⟨8, _⟩ => ⟨S16384x4x3, .f32⟩
  | .local _ .vmem, ⟨9, _⟩ => ⟨S16384x4x3, .f32⟩
  | .local _ .vmem, ⟨10, _⟩ => ⟨S16384x4x3, .f32⟩
  | .local _ .vmem, ⟨11, _⟩ => ⟨S16384x4x3, .f32⟩
  | .local _ .vmem, ⟨12, _⟩ => ⟨S16384x4x3, .f32⟩
  | .local _ .vmem, ⟨13, _⟩ => ⟨S16384x4x3, .f32⟩
  | .local _ .vmem, ⟨14, _⟩ => ⟨S16384x4x3, .f32⟩
  | .local _ .vmem, ⟨15, _⟩ => ⟨S16384x4x3, .f32⟩
  | .local _ .vmem, ⟨16, _⟩ => ⟨S16384x4x4x2, .f32⟩
  | .local _ .vmem, ⟨17, _⟩ => ⟨S16384x4x4x2, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_10 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_c_13 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_14 : Ref sig .tc := ⟨.hbm, 69, rfl⟩
abbrev main_v51 : Ref sig .tc := ⟨.hbm, 70, rfl⟩
abbrev main_v52 : Ref sig .tc := ⟨.hbm, 71, rfl⟩
abbrev main_cst_15 : Ref sig .tc := ⟨.hbm, 72, rfl⟩
abbrev main_v53 : Ref sig .tc := ⟨.hbm, 73, rfl⟩
abbrev main_v54 : Ref sig .tc := ⟨.hbm, 74, rfl⟩
abbrev main_c_16 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_17 : Ref sig .tc := ⟨.hbm, 80, rfl⟩
abbrev main_v59 : Ref sig .tc := ⟨.hbm, 81, rfl⟩
abbrev main_v60 : Ref sig .tc := ⟨.hbm, 82, rfl⟩
abbrev main_c_18 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_19 : Ref sig .tc := ⟨.hbm, 87, rfl⟩
abbrev main_v64 : Ref sig .tc := ⟨.hbm, 88, rfl⟩
abbrev main_v65 : Ref sig .tc := ⟨.hbm, 89, rfl⟩
abbrev main_c_20 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_21 : Ref sig .tc := ⟨.hbm, 94, rfl⟩
abbrev main_v69 : Ref sig .tc := ⟨.hbm, 95, rfl⟩
abbrev main_v70 : Ref sig .tc := ⟨.hbm, 96, rfl⟩
abbrev main_c_22 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_23 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_24 : Ref sig .tc := ⟨.hbm, 112, rfl⟩
abbrev main_v84 : Ref sig .tc := ⟨.hbm, 113, rfl⟩
abbrev main_v85 : Ref sig .tc := ⟨.hbm, 114, rfl⟩
abbrev main_c_25 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_26 : Ref sig .tc := ⟨.hbm, 119, rfl⟩
abbrev main_v89 : Ref sig .tc := ⟨.hbm, 120, rfl⟩
abbrev main_v90 : Ref sig .tc := ⟨.hbm, 121, rfl⟩
abbrev main_c_27 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_28 : Ref sig .tc := ⟨.hbm, 126, rfl⟩
abbrev main_v94 : Ref sig .tc := ⟨.hbm, 127, rfl⟩
abbrev main_v95 : Ref sig .tc := ⟨.hbm, 128, rfl⟩
abbrev main_c_29 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_30 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_31 : Ref sig .tc := ⟨.hbm, 144, rfl⟩
abbrev main_v109 : Ref sig .tc := ⟨.hbm, 145, rfl⟩
abbrev main_v110 : Ref sig .tc := ⟨.hbm, 146, rfl⟩
abbrev main_cst_32 : Ref sig .tc := ⟨.hbm, 147, rfl⟩
abbrev main_v111 : Ref sig .tc := ⟨.hbm, 148, rfl⟩
abbrev main_v112 : Ref sig .tc := ⟨.hbm, 149, rfl⟩
abbrev main_c_33 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_34 : Ref sig .tc := ⟨.hbm, 155, rfl⟩
abbrev main_v117 : Ref sig .tc := ⟨.hbm, 156, rfl⟩
abbrev main_v118 : Ref sig .tc := ⟨.hbm, 157, rfl⟩
abbrev main_c_35 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_c_36 : Ref sig .tc := ⟨.hbm, 162, rfl⟩
abbrev main_v122 : Ref sig .tc := ⟨.hbm, 163, rfl⟩
abbrev main_v123 : Ref sig .tc := ⟨.hbm, 164, rfl⟩
abbrev main_c_37 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_38 : Ref sig .tc := ⟨.hbm, 169, rfl⟩
abbrev main_v127 : Ref sig .tc := ⟨.hbm, 170, rfl⟩
abbrev main_v128 : Ref sig .tc := ⟨.hbm, 171, rfl⟩
abbrev main_c_39 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_40 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_c_41 : Ref sig .tc := ⟨.hbm, 187, rfl⟩
abbrev main_v142 : Ref sig .tc := ⟨.hbm, 188, rfl⟩
abbrev main_v143 : Ref sig .tc := ⟨.hbm, 189, rfl⟩
abbrev main_c_42 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_43 : Ref sig .tc := ⟨.hbm, 194, rfl⟩
abbrev main_v147 : Ref sig .tc := ⟨.hbm, 195, rfl⟩
abbrev main_v148 : Ref sig .tc := ⟨.hbm, 196, rfl⟩
abbrev main_c_44 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_c_45 : Ref sig .tc := ⟨.hbm, 201, rfl⟩
abbrev main_v152 : Ref sig .tc := ⟨.hbm, 202, rfl⟩
abbrev main_v153 : Ref sig .tc := ⟨.hbm, 203, rfl⟩
abbrev main_c_46 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16384x4x3x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x4x3x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x4x3x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384x4x3x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16384x4x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x4x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16384x4x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16384x4x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16384x4x4x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S2097152x3_S2097152x1x3_0_2 : S2097152x3.BroadcastsInDim S2097152x1x3 (![0, 2] : Fin 2 → Fin S2097152x1x3.rank)
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S2097152x1x3_S2097152x4x3_0_1_2 : S2097152x1x3.BroadcastsInDim S2097152x4x3 (![0, 1, 2] : Fin 3 → Fin S2097152x4x3.rank)
  bcast_S1x4x1_S2097152x4x3_0_1_2 : S1x4x1.BroadcastsInDim S2097152x4x3 (![0, 1, 2] : Fin 3 → Fin S2097152x4x3.rank)
  bcast_S_S2097152x4x3 : S_.BroadcastsInDim S2097152x4x3 (![] : Fin 0 → Fin S2097152x4x3.rank)
  bcast_S_S3 : S_.BroadcastsInDim S3 (![] : Fin 0 → Fin S3.rank)
  bcast_S3_S3x1_0 : S3.BroadcastsInDim S3x1 (![0] : Fin 1 → Fin S3x1.rank)
  shapeCasts_S6291456_S3x1048576x2 : S6291456.ShapeCasts S3x1048576x2
  bcast_S3_S1x1x3_2 : S3.BroadcastsInDim S1x1x3 (![2] : Fin 1 → Fin S1x1x3.rank)
  bcast_S_S1x1x3 : S_.BroadcastsInDim S1x1x3 (![] : Fin 0 → Fin S1x1x3.rank)
  bcast_S1x1x3_S2097152x4x3_0_1_2 : S1x1x3.BroadcastsInDim S2097152x4x3 (![0, 1, 2] : Fin 3 → Fin S2097152x4x3.rank)
  bcast_S2097152x4x3_S2097152x4x3x1_0_1_2 : S2097152x4x3.BroadcastsInDim S2097152x4x3x1 (![0, 1, 2] : Fin 3 → Fin S2097152x4x3x1.rank)
  concatenates_S2097152x4x3x1_S2097152x4x3x1_S2097152x4x3x2_d3 : Shape.Concatenates [S2097152x4x3x1, S2097152x4x3x1] S2097152x4x3x2 3
  inb_S16384x4x3x2_S16384x4x3x2_0_0_0_0 : ∀ a, (![0, 0, 0, 0] : Fin 4 → Nat) a + S16384x4x3x2.size a ≤ S16384x4x3x2.size a
  h_S16384x4x3x2 : 0 < S16384x4x3x2.numel
  shapeCasts_S16384x4x3x2_S16384x4x3x2 : S16384x4x3x2.ShapeCasts S16384x4x3x2
  inb_S16384x4x3_S16384x4x3_0_0_0 : ∀ a, (![0, 0, 0] : Fin 3 → Nat) a + S16384x4x3.size a ≤ S16384x4x3.size a
  h_S16384x4x3 : 0 < S16384x4x3.numel
  shapeCasts_S16384x4x3_S16384x4x3 : S16384x4x3.ShapeCasts S16384x4x3
  shapeCasts_S16384x4x3_S16384x4x3x1 : S16384x4x3.ShapeCasts S16384x4x3x1
  broadcasts_S16384x4x3x1_S16384x4x3x2 : S16384x4x3x1.Broadcasts S16384x4x3x2
  slices_S16384x4x3x2_o0_0_0_0_S16384x4x1x2 : S16384x4x3x2.Slices ![0, 0, 0, 0] S16384x4x1x2
  shapeCasts_S16384x4x1x2_S16384x4x2 : S16384x4x1x2.ShapeCasts S16384x4x2
  slices_S16384x4x3x2_o0_0_1_0_S16384x4x1x2 : S16384x4x3x2.Slices ![0, 0, 1, 0] S16384x4x1x2
  slices_S16384x4x3x2_o0_0_2_0_S16384x4x1x2 : S16384x4x3x2.Slices ![0, 0, 2, 0] S16384x4x1x2
  inb_S16384x4x4x2_S16384x4x1x2_0_0_0_0 : ∀ a, (![0, 0, 0, 0] : Fin 4 → Nat) a + S16384x4x1x2.size a ≤ S16384x4x4x2.size a
  h_S16384x4x1x2 : 0 < S16384x4x1x2.numel
  shapeCasts_S16384x4x2_S16384x4x1x2 : S16384x4x2.ShapeCasts S16384x4x1x2
  inb_S16384x4x4x2_S16384x4x1x2_0_0_1_0 : ∀ a, (![0, 0, 1, 0] : Fin 4 → Nat) a + S16384x4x1x2.size a ≤ S16384x4x4x2.size a
  inb_S16384x4x4x2_S16384x4x1x2_0_0_2_0 : ∀ a, (![0, 0, 2, 0] : Fin 4 → Nat) a + S16384x4x1x2.size a ≤ S16384x4x4x2.size a
  inb_S16384x4x4x2_S16384x4x1x2_0_0_3_0 : ∀ a, (![0, 0, 3, 0] : Fin 4 → Nat) a + S16384x4x1x2.size a ≤ S16384x4x4x2.size a
  shapeCasts_S2097152x4x4x2_S2097152x32 : S2097152x4x4x2.ShapeCasts S2097152x32
  gather_S2097152x4x3_S3x1_S2097152x4x3_01_2_n_n_2_1_209715241_wf : GatherDims.WF S2097152x4x3 S3x1 S2097152x4x3 [0, 1] [2] [] [2] [] 1 ![2097152, 4, 1]
  gather_S3x1048576x2_S2097152x4x3x2_S2097152x4x3x2_3_01_n_n_01_3_112_wf : GatherDims.WF S3x1048576x2 S2097152x4x3x2 S2097152x4x3x2 [3] [0, 1] [] [0, 1] [] 3 ![1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4x3x2.size a ≤ S2097152x4x3x2.size a
  hwx0_0 : ∀ i : grid0.Coords, EltTy.bits .f32 = 32 ∨ (Rect.block (s := S2097152x4x3x2) S16384x4x3x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x4x3x2.size a ≤ S2097152x4x3x2.size a
  hwx0_1 : ∀ i : grid0.Coords, EltTy.bits .f32 = 32 ∨ (Rect.block (s := S2097152x4x3x2) S16384x4x3x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x4x3x2.size a ≤ S2097152x4x3x2.size a
  hwx0_2 : ∀ i : grid0.Coords, EltTy.bits .f32 = 32 ∨ (Rect.block (s := S2097152x4x3x2) S16384x4x3x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x4x3x2.size a ≤ S2097152x4x3x2.size a
  hwx0_3 : ∀ i : grid0.Coords, EltTy.bits .f32 = 32 ∨ (Rect.block (s := S2097152x4x3x2) S16384x4x3x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16384x4x3.size a ≤ S2097152x4x3.size a
  hwx0_4 : ∀ i : grid0.Coords, EltTy.bits .f32 = 32 ∨ (Rect.block (s := S2097152x4x3) S16384x4x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x4x3.size a ≤ S2097152x4x3.size a
  hwx0_5 : ∀ i : grid0.Coords, EltTy.bits .f32 = 32 ∨ (Rect.block (s := S2097152x4x3) S16384x4x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16384x4x3.size a ≤ S2097152x4x3.size a
  hwx0_6 : ∀ i : grid0.Coords, EltTy.bits .f32 = 32 ∨ (Rect.block (s := S2097152x4x3) S16384x4x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16384x4x3.size a ≤ S2097152x4x3.size a
  hwx0_7 : ∀ i : grid0.Coords, EltTy.bits .f32 = 32 ∨ (Rect.block (s := S2097152x4x3) S16384x4x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16384x4x4x2.size a ≤ S2097152x4x4x2.size a
  hwx0_8 : ∀ i : grid0.Coords, EltTy.bits .f32 = 32 ∨ (Rect.block (s := S2097152x4x4x2) S16384x4x4x2.size (cc0_transform_8 i) (hinb0_8 i)).WholeWords (EltTy.packing .f32)

variable [Facts₀]

def gather_S2097152x4x3_S3x1_S2097152x4x3_01_2_n_n_2_1_209715241 : GatherDims S2097152x4x3 S3x1 S2097152x4x3 where
  offsetDims := [0, 1]
  collapsedSliceDims := [2]
  operandBatchingDims := []
  startIndicesBatchingDims := []
  startIndexMap := [2]
  indexVectorDim := 1
  sliceSizes := ![2097152, 4, 1]
  wf := gather_S2097152x4x3_S3x1_S2097152x4x3_01_2_n_n_2_1_209715241_wf
def gather_S3x1048576x2_S2097152x4x3x2_S2097152x4x3x2_3_01_n_n_01_3_112 : GatherDims S3x1048576x2 S2097152x4x3x2 S2097152x4x3x2 where
  offsetDims := [3]
  collapsedSliceDims := [0, 1]
  operandBatchingDims := []
  startIndicesBatchingDims := []
  startIndexMap := [0, 1]
  indexVectorDim := 3
  sliceSizes := ![1, 1, 2]
  wf := gather_S3x1048576x2_S2097152x4x3x2_S2097152x4x3x2_3_01_n_n_01_3_112_wf

abbrev win0_0 : Pipeline.Window sig grid0 :=
  Pipeline.Window.ofSpec (Memref.whole main_v78) S16384x4x3x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v103) S16384x4x3x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v136) S16384x4x3x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v161) S16384x4x3x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v79) S16384x4x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v104) S16384x4x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v137) S16384x4x3.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v162) S16384x4x3.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v163) S16384x4x4x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S6291456 : Shape := ⟨1, ![6291456]⟩
abbrev S4 : Shape := ⟨1, ![4]⟩
abbrev S3 : Shape := ⟨1, ![3]⟩
abbrev S2097152x1x3 : Shape := ⟨3, ![2097152, 1, 3]⟩
abbrev S1x4x1 : Shape := ⟨3, ![1, 4, 1]⟩
abbrev S_ : Shape := ⟨0, ![]⟩
abbrev S2097152x4x3 : Shape := ⟨3, ![2097152, 4, 3]⟩
abbrev S3x1 : Shape := ⟨2, ![3, 1]⟩
abbrev S3x1048576x2 : Shape := ⟨3, ![3, 1048576, 2]⟩
abbrev S1x1x3 : Shape := ⟨3, ![1, 1, 3]⟩
abbrev S2097152x4x3x2 : Shape := ⟨4, ![2097152, 4, 3, 2]⟩
abbrev S2097152x4x3x1 : Shape := ⟨4, ![2097152, 4, 3, 1]⟩
abbrev S2097152x4x1x2 : Shape := ⟨4, ![2097152, 4, 1, 2]⟩
abbrev S2097152x4x2 : Shape := ⟨3, ![2097152, 4, 2]⟩
abbrev S2097152x4x4x2 : Shape := ⟨4, ![2097152, 4, 4, 2]⟩
abbrev S2097152x32 : Shape := ⟨2, ![2097152, 32]⟩

abbrev nBuf : Space → Nat
  | .hbm => 243
  | .vmem => 0
  | .smem => 0
  | _ => 0

abbrev hbmTy0_0 (i : Nat) : BufTy := match i % 128 with
  | 0 => ⟨S2097152x3, .f32⟩
  | 1 => ⟨S6291456, .f32⟩
  | 2 => ⟨S4, .f32⟩
  | 3 => ⟨S4, .i32⟩
  | 4 => ⟨S3, .i32⟩
  | 5 => ⟨S3, .i32⟩
  | 6 => ⟨S2097152x1x3, .f32⟩
  | 7 => ⟨S1x4x1, .f32⟩
  | 8 => ⟨S_, .f32⟩
  | 9 => ⟨S1x4x1, .f32⟩
  | 10 => ⟨S1x4x1, .f32⟩
  | 11 => ⟨S2097152x4x3, .f32⟩
  | 12 => ⟨S2097152x4x3, .f32⟩
  | 13 => ⟨S2097152x4x3, .f32⟩
  | 14 => ⟨S_, .f32⟩
  | 15 => ⟨S2097152x4x3, .f32⟩
  | 16 => ⟨S2097152x4x3, .f32⟩
  | 17 => ⟨S2097152x4x3, .f32⟩
  | 18 => ⟨S2097152x4x3, .i32⟩
  | 19 => ⟨S2097152x4x3, .f32⟩
  | 20 => ⟨S2097152x4x3, .f32⟩
  | 21 => ⟨S_, .i32⟩
  | 22 => ⟨S3, .i32⟩
  | 23 => ⟨S3, .i1⟩
  | 24 => ⟨S_, .i32⟩
  | 25 => ⟨S3, .i32⟩
  | 26 => ⟨S3, .i32⟩
  | 27 => ⟨S3, .i32⟩
  | 28 => ⟨S3x1, .i32⟩
  | 29 => ⟨S2097152x4x3, .f32⟩
  | 30 => ⟨S_, .i32⟩
  | 31 => ⟨S3, .i32⟩
  | 32 => ⟨S3, .i1⟩
  | 33 => ⟨S_, .i32⟩
  | 34 => ⟨S3, .i32⟩
  | 35 => ⟨S3, .i32⟩
  | 36 => ⟨S3, .i32⟩
  | 37 => ⟨S3x1, .i32⟩
  | 38 => ⟨S2097152x4x3, .f32⟩
  | 39 => ⟨S_, .i32⟩
  | 40 => ⟨S3, .i32⟩
  | 41 => ⟨S3, .i1⟩
  | 42 => ⟨S_, .i32⟩
  | 43 => ⟨S3, .i32⟩
  | 44 => ⟨S3, .i32⟩
  | 45 => ⟨S3, .i32⟩
  | 46 => ⟨S3x1, .i32⟩
  | 47 => ⟨S2097152x4x3, .i32⟩
  | 48 => ⟨S_, .i32⟩
  | 49 => ⟨S3, .i32⟩
  | 50 => ⟨S3, .i1⟩
  | 51 => ⟨S_, .i32⟩
  | 52 => ⟨S3, .i32⟩
  | 53 => ⟨S3, .i32⟩
  | 54 => ⟨S3, .i32⟩
  | 55 => ⟨S3x1, .i32⟩
  | 56 => ⟨S2097152x4x3, .i32⟩
  | 57 => ⟨S3x1048576x2, .f32⟩
  | 58 => ⟨S3, .i32⟩
  | 59 => ⟨S1x1x3, .i32⟩
  | 60 => ⟨S1x4x1, .i32⟩
  | 61 => ⟨S_, .f32⟩
  | 62 => ⟨S2097152x4x3x2, .f32⟩
  | 63 => ⟨S_, .f32⟩
  | 64 => ⟨S2097152x4x3, .f32⟩
  | 65 => ⟨S2097152x4x3, .f32⟩
  | 66 => ⟨S_, .i32⟩
  | 67 => ⟨S2097152x4x3, .i32⟩
  | 68 => ⟨S2097152x4x3, .i32⟩
  | 69 => ⟨S2097152x4x3, .i32⟩
  | 70 => ⟨S2097152x4x3, .i32⟩
  | 71 => ⟨S_, .i32⟩
  | 72 => ⟨S2097152x4x3, .i32⟩
  | 73 => ⟨S2097152x4x3, .i32⟩
  | 74 => ⟨S_, .f32⟩
  | 75 => ⟨S2097152x4x3, .f32⟩
  | 76 => ⟨S2097152x4x3, .f32⟩
  | 77 => ⟨S_, .i32⟩
  | 78 => ⟨S2097152x4x3, .i32⟩
  | 79 => ⟨S2097152x4x3, .i32⟩
  | 80 => ⟨S2097152x4x3, .i32⟩
  | 81 => ⟨S2097152x4x3, .i32⟩
  | 82 => ⟨S_, .i32⟩
  | 83 => ⟨S2097152x4x3, .i32⟩
  | 84 => ⟨S2097152x4x3, .i32⟩
  | 85 => ⟨S_, .i32⟩
  | 86 => ⟨S2097152x4x3, .i32⟩
  | 87 => ⟨S2097152x4x3, .i32⟩
  | 88 => ⟨S2097152x4x3, .i32⟩
  | 89 => ⟨S_, .i32⟩
  | 90 => ⟨S1x1x3, .i32⟩
  | 91 => ⟨S1x1x3, .i1⟩
  | 92 => ⟨S_, .i32⟩
  | 93 => ⟨S1x1x3, .i32⟩
  | 94 => ⟨S1x1x3, .i32⟩
  | 95 => ⟨S1x1x3, .i32⟩
  | 96 => ⟨S_, .i32⟩
  | 97 => ⟨S2097152x4x3, .i32⟩
  | 98 => ⟨S2097152x4x3, .i1⟩
  | 99 => ⟨S_, .i32⟩
  | 100 => ⟨S2097152x4x3, .i32⟩
  | 101 => ⟨S2097152x4x3, .i32⟩
  | 102 => ⟨S2097152x4x3, .i32⟩
  | 103 => ⟨S2097152x4x3, .i32⟩
  | 104 => ⟨S2097152x4x3x1, .i32⟩
  | 105 => ⟨S2097152x4x3x1, .i32⟩
  | 106 => ⟨S2097152x4x3x2, .i32⟩
  | 107 => ⟨S2097152x4x3x2, .f32⟩
  | 108 => ⟨S2097152x4x3, .f32⟩
  | 109 => ⟨S2097152x4x3x1, .f32⟩
  | 110 => ⟨S2097152x4x3x2, .f32⟩
  | 111 => ⟨S2097152x4x3x2, .f32⟩
  | 112 => ⟨S2097152x4x3x2, .f32⟩
  | 113 => ⟨S_, .i32⟩
  | 114 => ⟨S2097152x4x3, .i32⟩
  | 115 => ⟨S2097152x4x3, .i32⟩
  | 116 => ⟨S2097152x4x3, .i32⟩
  | 117 => ⟨S2097152x4x3, .i32⟩
  | 118 => ⟨S_, .i32⟩
  | 119 => ⟨S2097152x4x3, .i32⟩
  | 120 => ⟨S2097152x4x3, .i32⟩
  | 121 => ⟨S_, .i32⟩
  | 122 => ⟨S2097152x4x3, .i32⟩
  | 123 => ⟨S2097152x4x3, .i32⟩
  | 124 => ⟨S2097152x4x3, .i32⟩
  | 125 => ⟨S_, .i32⟩
  | 126 => ⟨S1x1x3, .i32⟩
  | 127 => ⟨S1x1x3, .i1⟩
  | _ => ⟨S2097152x3, .f32⟩

abbrev hbmTy0_1 (i : Nat) : BufTy := match i % 128 with
  | 0 => ⟨S_, .i32⟩
  | 1 => ⟨S1x1x3, .i32⟩
  | 2 => ⟨S1x1x3, .i32⟩
  | 3 => ⟨S1x1x3, .i32⟩
  | 4 => ⟨S_, .i32⟩
  | 5 => ⟨S2097152x4x3, .i32⟩
  | 6 => ⟨S2097152x4x3, .i1⟩
  | 7 => ⟨S_, .i32⟩
  | 8 => ⟨S2097152x4x3, .i32⟩
  | 9 => ⟨S2097152x4x3, .i32⟩
  | 10 => ⟨S2097152x4x3, .i32⟩
  | 11 => ⟨S2097152x4x3, .i32⟩
  | 12 => ⟨S2097152x4x3x1, .i32⟩
  | 13 => ⟨S2097152x4x3x1, .i32⟩
  | 14 => ⟨S2097152x4x3x2, .i32⟩
  | 15 => ⟨S2097152x4x3x2, .f32⟩
  | 16 => ⟨S2097152x4x3, .f32⟩
  | 17 => ⟨S2097152x4x3x1, .f32⟩
  | 18 => ⟨S2097152x4x3x2, .f32⟩
  | 19 => ⟨S2097152x4x3x2, .f32⟩
  | 20 => ⟨S2097152x4x3x2, .f32⟩
  | 21 => ⟨S_, .i32⟩
  | 22 => ⟨S2097152x4x3, .i32⟩
  | 23 => ⟨S2097152x4x3, .i32⟩
  | 24 => ⟨S2097152x4x3, .i32⟩
  | 25 => ⟨S2097152x4x3, .i32⟩
  | 26 => ⟨S_, .i32⟩
  | 27 => ⟨S2097152x4x3, .i32⟩
  | 28 => ⟨S2097152x4x3, .i32⟩
  | 29 => ⟨S_, .f32⟩
  | 30 => ⟨S2097152x4x3, .f32⟩
  | 31 => ⟨S2097152x4x3, .f32⟩
  | 32 => ⟨S_, .i32⟩
  | 33 => ⟨S2097152x4x3, .i32⟩
  | 34 => ⟨S2097152x4x3, .i32⟩
  | 35 => ⟨S2097152x4x3, .i32⟩
  | 36 => ⟨S2097152x4x3, .i32⟩
  | 37 => ⟨S_, .i32⟩
  | 38 => ⟨S2097152x4x3, .i32⟩
  | 39 => ⟨S2097152x4x3, .i32⟩
  | 40 => ⟨S_, .i32⟩
  | 41 => ⟨S2097152x4x3, .i32⟩
  | 42 => ⟨S2097152x4x3, .i32⟩
  | 43 => ⟨S2097152x4x3, .i32⟩
  | 44 => ⟨S_, .i32⟩
  | 45 => ⟨S1x1x3, .i32⟩
  | 46 => ⟨S1x1x3, .i1⟩
  | 47 => ⟨S_, .i32⟩
  | 48 => ⟨S1x1x3, .i32⟩
  | 49 => ⟨S1x1x3, .i32⟩
  | 50 => ⟨S1x1x3, .i32⟩
  | 51 => ⟨S_, .i32⟩
  | 52 => ⟨S2097152x4x3, .i32⟩
  | 53 => ⟨S2097152x4x3, .i1⟩
  | 54 => ⟨S_, .i32⟩
  | 55 => ⟨S2097152x4x3, .i32⟩
  | 56 => ⟨S2097152x4x3, .i32⟩
  | 57 => ⟨S2097152x4x3, .i32⟩
  | 58 => ⟨S2097152x4x3, .i32⟩
  | 59 => ⟨S2097152x4x3x1, .i32⟩
  | 60 => ⟨S2097152x4x3x1, .i32⟩
  | 61 => ⟨S2097152x4x3x2, .i32⟩
  | 62 => ⟨S2097152x4x3x2, .f32⟩
  | 63 => ⟨S2097152x4x3, .f32⟩
  | 64 => ⟨S2097152x4x3x1, .f32⟩
  | 65 => ⟨S2097152x4x3x2, .f32⟩
  | 66 => ⟨S2097152x4x3x2, .f32⟩
  | 67 => ⟨S2097152x4x3x2, .f32⟩
  | 68 => ⟨S_, .i32⟩
  | 69 => ⟨S2097152x4x3, .i32⟩
  | 70 => ⟨S2097152x4x3, .i32⟩
  | 71 => ⟨S2097152x4x3, .i32⟩
  | 72 => ⟨S2097152x4x3, .i32⟩
  | 73 => ⟨S_, .i32⟩
  | 74 => ⟨S2097152x4x3, .i32⟩
  | 75 => ⟨S2097152x4x3, .i32⟩
  | 76 => ⟨S_, .i32⟩
  | 77 => ⟨S2097152x4x3, .i32⟩
  | 78 => ⟨S2097152x4x3, .i32⟩
  | 79 => ⟨S2097152x4x3, .i32⟩
  | 80 => ⟨S_, .i32⟩
  | 81 => ⟨S1x1x3, .i32⟩
  | 82 => ⟨S1x1x3, .i1⟩
  | 83 => ⟨S_, .i32⟩
  | 84 => ⟨S1x1x3, .i32⟩
  | 85 => ⟨S1x1x3, .i32⟩
  | 86 => ⟨S1x1x3, .i32⟩
  | 87 => ⟨S_, .i32⟩
  | 88 => ⟨S2097152x4x3, .i32⟩
  | 89 => ⟨S2097152x4x3, .i1⟩
  | 90 => ⟨S_, .i32⟩
  | 91 => ⟨S2097152x4x3, .i32⟩
  | 92 => ⟨S2097152x4x3, .i32⟩
  | 93 => ⟨S2097152x4x3, .i32⟩
  | 94 => ⟨S2097152x4x3, .i32⟩
  | 95 => ⟨S2097152x4x3x1, .i32⟩
  | 96 => ⟨S2097152x4x3x1, .i32⟩
  | 97 => ⟨S2097152x4x3x2, .i32⟩
  | 98 => ⟨S2097152x4x3x2, .f32⟩
  | 99 => ⟨S2097152x4x3, .f32⟩
  | 100 => ⟨S2097152x4x3x1, .f32⟩
  | 101 => ⟨S2097152x4x3x2, .f32⟩
  | 102 => ⟨S2097152x4x3x2, .f32⟩
  | 103 => ⟨S2097152x4x3x2, .f32⟩
  | 104 => ⟨S2097152x4x1x2, .f32⟩
  | 105 => ⟨S2097152x4x2, .f32⟩
  | 106 => ⟨S2097152x4x1x2, .f32⟩
  | 107 => ⟨S2097152x4x2, .f32⟩
  | 108 => ⟨S2097152x4x2, .f32⟩
  | 109 => ⟨S2097152x4x1x2, .f32⟩
  | 110 => ⟨S2097152x4x2, .f32⟩
  | 111 => ⟨S2097152x4x2, .f32⟩
  | 112 => ⟨S2097152x4x1x2, .f32⟩
  | 113 => ⟨S2097152x4x4x2, .f32⟩
  | 114 => ⟨S2097152x32, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_10 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_v47 : Ref sig .tc := ⟨.hbm, 65, rfl⟩
abbrev main_c_14 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_15 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_c_17 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_18 : Ref sig .tc := ⟨.hbm, 82, rfl⟩
abbrev main_v60 : Ref sig .tc := ⟨.hbm, 83, rfl⟩
abbrev main_v61 : Ref sig .tc := ⟨.hbm, 84, rfl⟩
abbrev main_c_19 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_20 : Ref sig .tc := ⟨.hbm, 89, rfl⟩
abbrev main_v65 : Ref sig .tc := ⟨.hbm, 90, rfl⟩
abbrev main_v66 : Ref sig .tc := ⟨.hbm, 91, rfl⟩
abbrev main_c_21 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_22 : Ref sig .tc := ⟨.hbm, 96, rfl⟩
abbrev main_v70 : Ref sig .tc := ⟨.hbm, 97, rfl⟩
abbrev main_v71 : Ref sig .tc := ⟨.hbm, 98, rfl⟩
abbrev main_c_23 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_24 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_25 : Ref sig .tc := ⟨.hbm, 118, rfl⟩
abbrev main_v89 : Ref sig .tc := ⟨.hbm, 119, rfl⟩
abbrev main_v90 : Ref sig .tc := ⟨.hbm, 120, rfl⟩
abbrev main_c_26 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_27 : Ref sig .tc := ⟨.hbm, 125, rfl⟩
abbrev main_v94 : Ref sig .tc := ⟨.hbm, 126, rfl⟩
abbrev main_v95 : Ref sig .tc := ⟨.hbm, 127, rfl⟩
abbrev main_c_28 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_29 : Ref sig .tc := ⟨.hbm, 132, rfl⟩
abbrev main_v99 : Ref sig .tc := ⟨.hbm, 133, rfl⟩
abbrev main_v100 : Ref sig .tc := ⟨.hbm, 134, rfl⟩
abbrev main_c_30 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_31 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_c_32 : Ref sig .tc := ⟨.hbm, 154, rfl⟩
abbrev main_v118 : Ref sig .tc := ⟨.hbm, 155, rfl⟩
abbrev main_v119 : Ref sig .tc := ⟨.hbm, 156, rfl⟩
abbrev main_cst_33 : Ref sig .tc := ⟨.hbm, 157, rfl⟩
abbrev main_v120 : Ref sig .tc := ⟨.hbm, 158, rfl⟩
abbrev main_v121 : Ref sig .tc := ⟨.hbm, 159, rfl⟩
abbrev main_c_34 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_35 : Ref sig .tc := ⟨.hbm, 165, rfl⟩
abbrev main_v126 : Ref sig .tc := ⟨.hbm, 166, rfl⟩
abbrev main_v127 : Ref sig .tc := ⟨.hbm, 167, rfl⟩
abbrev main_c_36 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_c_37 : Ref sig .tc := ⟨.hbm, 172, rfl⟩
abbrev main_v131 : Ref sig .tc := ⟨.hbm, 173, rfl⟩
abbrev main_v132 : Ref sig .tc := ⟨.hbm, 174, rfl⟩
abbrev main_c_38 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_39 : Ref sig .tc := ⟨.hbm, 179, rfl⟩
abbrev main_v136 : Ref sig .tc := ⟨.hbm, 180, rfl⟩
abbrev main_v137 : Ref sig .tc := ⟨.hbm, 181, rfl⟩
abbrev main_c_40 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_41 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_c_42 : Ref sig .tc := ⟨.hbm, 201, rfl⟩
abbrev main_v155 : Ref sig .tc := ⟨.hbm, 202, rfl⟩
abbrev main_v156 : Ref sig .tc := ⟨.hbm, 203, rfl⟩
abbrev main_c_43 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_c_44 : Ref sig .tc := ⟨.hbm, 208, rfl⟩
abbrev main_v160 : Ref sig .tc := ⟨.hbm, 209, rfl⟩
abbrev main_v161 : Ref sig .tc := ⟨.hbm, 210, rfl⟩
abbrev main_c_45 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_c_46 : Ref sig .tc := ⟨.hbm, 215, rfl⟩
abbrev main_v165 : Ref sig .tc := ⟨.hbm, 216, rfl⟩
abbrev main_v166 : Ref sig .tc := ⟨.hbm, 217, rfl⟩
abbrev main_c_47 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩

abbrev nD : Nat := 1
abbrev τ : Topo := Topo.v7x

variable {F : FTy → Type} [FloatOps F]

class Facts₀ : Prop where
  bcast_S2097152x3_S2097152x1x3_0_2 : S2097152x3.BroadcastsInDim S2097152x1x3 (![0, 2] : Fin 2 → Fin S2097152x1x3.rank)
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S2097152x1x3_S2097152x4x3_0_1_2 : S2097152x1x3.BroadcastsInDim S2097152x4x3 (![0, 1, 2] : Fin 3 → Fin S2097152x4x3.rank)
  bcast_S1x4x1_S2097152x4x3_0_1_2 : S1x4x1.BroadcastsInDim S2097152x4x3 (![0, 1, 2] : Fin 3 → Fin S2097152x4x3.rank)
  bcast_S_S2097152x4x3 : S_.BroadcastsInDim S2097152x4x3 (![] : Fin 0 → Fin S2097152x4x3.rank)
  bcast_S_S3 : S_.BroadcastsInDim S3 (![] : Fin 0 → Fin S3.rank)
  bcast_S3_S3x1_0 : S3.BroadcastsInDim S3x1 (![0] : Fin 1 → Fin S3x1.rank)
  shapeCasts_S6291456_S3x1048576x2 : S6291456.ShapeCasts S3x1048576x2
  bcast_S3_S1x1x3_2 : S3.BroadcastsInDim S1x1x3 (![2] : Fin 1 → Fin S1x1x3.rank)
  bcast_S_S2097152x4x3x2 : S_.BroadcastsInDim S2097152x4x3x2 (![] : Fin 0 → Fin S2097152x4x3x2.rank)
  bcast_S_S1x1x3 : S_.BroadcastsInDim S1x1x3 (![] : Fin 0 → Fin S1x1x3.rank)
  bcast_S1x1x3_S2097152x4x3_0_1_2 : S1x1x3.BroadcastsInDim S2097152x4x3 (![0, 1, 2] : Fin 3 → Fin S2097152x4x3.rank)
  bcast_S2097152x4x3_S2097152x4x3x1_0_1_2 : S2097152x4x3.BroadcastsInDim S2097152x4x3x1 (![0, 1, 2] : Fin 3 → Fin S2097152x4x3x1.rank)
  concatenates_S2097152x4x3x1_S2097152x4x3x1_S2097152x4x3x2_d3 : Shape.Concatenates [S2097152x4x3x1, S2097152x4x3x1] S2097152x4x3x2 3
  bcast_S2097152x4x3x1_S2097152x4x3x2_0_1_2_3 : S2097152x4x3x1.BroadcastsInDim S2097152x4x3x2 (![0, 1, 2, 3] : Fin 4 → Fin S2097152x4x3x2.rank)
  slices_S2097152x4x3x2_S2097152x4x1x2_0_0_0_0 : S2097152x4x3x2.Slices ![0, 0, 0, 0] S2097152x4x1x2
  shapeCasts_S2097152x4x1x2_S2097152x4x2 : S2097152x4x1x2.ShapeCasts S2097152x4x2
  slices_S2097152x4x3x2_S2097152x4x1x2_0_0_1_0 : S2097152x4x3x2.Slices ![0, 0, 1, 0] S2097152x4x1x2
  slices_S2097152x4x3x2_S2097152x4x1x2_0_0_2_0 : S2097152x4x3x2.Slices ![0, 0, 2, 0] S2097152x4x1x2
  bcast_S2097152x4x2_S2097152x4x1x2_0_1_3 : S2097152x4x2.BroadcastsInDim S2097152x4x1x2 (![0, 1, 3] : Fin 3 → Fin S2097152x4x1x2.rank)
  concatenates_S2097152x4x3x2_S2097152x4x1x2_S2097152x4x4x2_d2 : Shape.Concatenates [S2097152x4x3x2, S2097152x4x1x2] S2097152x4x4x2 2
  shapeCasts_S2097152x4x4x2_S2097152x32 : S2097152x4x4x2.ShapeCasts S2097152x32
  gather_S2097152x4x3_S3x1_S2097152x4x3_01_2_n_n_2_1_209715241_wf : GatherDims.WF S2097152x4x3 S3x1 S2097152x4x3 [0, 1] [2] [] [2] [] 1 ![2097152, 4, 1]
  gather_S3x1048576x2_S2097152x4x3x2_S2097152x4x3x2_3_01_n_n_01_3_112_wf : GatherDims.WF S3x1048576x2 S2097152x4x3x2 S2097152x4x3x2 [3] [0, 1] [] [0, 1] [] 3 ![1, 1, 2]

variable [Facts₀]

def gather_S2097152x4x3_S3x1_S2097152x4x3_01_2_n_n_2_1_209715241 : GatherDims S2097152x4x3 S3x1 S2097152x4x3 where
  offsetDims := [0, 1]
  collapsedSliceDims := [2]
  operandBatchingDims := []
  startIndicesBatchingDims := []
  startIndexMap := [2]
  indexVectorDim := 1
  sliceSizes := ![2097152, 4, 1]
  wf := gather_S2097152x4x3_S3x1_S2097152x4x3_01_2_n_n_2_1_209715241_wf
def gather_S3x1048576x2_S2097152x4x3x2_S2097152x4x3x2_3_01_n_n_01_3_112 : GatherDims S3x1048576x2 S2097152x4x3x2 S2097152x4x3x2 where
  offsetDims := [3]
  collapsedSliceDims := [0, 1]
  operandBatchingDims := []
  startIndicesBatchingDims := []
  startIndexMap := [0, 1]
  indexVectorDim := 3
  sliceSizes := ![1, 1, 2]
  wf := gather_S3x1048576x2_S2097152x4x3x2_S2097152x4x3x2_3_01_n_n_01_3_112_wf

class Facts : Prop extends Facts₀ where

variable [Facts]
-- ==== Proof.Spec.lean ====
/-
  The blend of four gathered feature arrays by four weight arrays, and the product over the three planes.

  For a point b, a level l, a plane p and a feature j the blend is
      f0[b,l,p,j] · w0[b,l,p] + f1[b,l,p,j] · w1[b,l,p] + f2[b,l,p,j] · w2[b,l,p] + f3[b,l,p,j] · w3[b,l,p]
  on the extended reals, summed from the left. The result array [B, 4, 4, 2] holds at plane slots 0, 1, 2 the blend of
  that plane, and at slot 3 the product of the three planes' blends, multiplied from the left. Stated for any number B
  of points, so that the same function describes one block of points and the whole array.
-/
import Idealize.ShloMosaic.PureOps.Ideal
import Idealize.ShloMosaic.Lib.ValueIdx

noncomputable section

namespace TriPlane

open Idealize.ShloMosaic Idealize.ShloMosaic.ValueIdx

/-- The gathered features of B points: four levels, three planes, two features. -/
abbrev FeatS (B : Nat) : Shape := ⟨4, ![B, 4, 3, 2]⟩
/-- The bilinear weights of B points: four levels, three planes. -/
abbrev WgtS (B : Nat) : Shape := ⟨3, ![B, 4, 3]⟩
/-- The result of B points: four levels, three planes and their product, two features. -/
abbrev OutS (B : Nat) : Shape := ⟨4, ![B, 4, 4, 2]⟩

variable {B : Nat}

/-- The blend at point b, level l, plane p, feature j. -/
def blend (f0 f1 f2 f3 : FVec Ideal (FeatS B) .f32) (w0 w1 w2 w3 : FVec Ideal (WgtS B) .f32)
    (b : Fin B) (l : Fin 4) (p : Fin 3) (j : Fin 2) : EReal :=
  f0 (ix4 b l p j) * w0 (ix3 b l p) + f1 (ix4 b l p j) * w1 (ix3 b l p) + f2 (ix4 b l p j) * w2 (ix3 b l p)
    + f3 (ix4 b l p j) * w3 (ix3 b l p)

/-- The product of the three planes' blends at point b, level l, feature j. -/
def planeProd (f0 f1 f2 f3 : FVec Ideal (FeatS B) .f32) (w0 w1 w2 w3 : FVec Ideal (WgtS B) .f32)
    (b : Fin B) (l : Fin 4) (j : Fin 2) : EReal :=
  blend f0 f1 f2 f3 w0 w1 w2 w3 b l 0 j * blend f0 f1 f2 f3 w0 w1 w2 w3 b l 1 j * blend f0 f1 f2 f3 w0 w1 w2 w3 b l 2 j

/-- The result array: slots 0, 1, 2 of the third axis the planes' blends, slot 3 their product. -/
def combine (f0 f1 f2 f3 : FVec Ideal (FeatS B) .f32) (w0 w1 w2 w3 : FVec Ideal (WgtS B) .f32) :
    FVec Ideal (OutS B) .f32 := fun i =>
  if h : (i 2).val < 3 then blend f0 f1 f2 f3 w0 w1 w2 w3 (i 0) (i 1) ⟨(i 2).val, h⟩ (i 3)
  else planeProd f0 f1 f2 f3 w0 w1 w2 w3 (i 0) (i 1) (i 3)

/-- At a plane slot the result is that plane's blend. -/
theorem combine_plane (f0 f1 f2 f3 : FVec Ideal (FeatS B) .f32) (w0 w1 w2 w3 : FVec Ideal (WgtS B) .f32)
    (b : Fin B) (l : Fin 4) (p : Fin 3) (j : Fin 2) :
    combine f0 f1 f2 f3 w0 w1 w2 w3 (ix4 b l (⟨p.val, by omega⟩ : Fin 4) j) = blend f0 f1 f2 f3 w0 w1 w2 w3 b l p j := by
  unfold combine
  rw [dif_pos (show ((ix4 b l (⟨p.val, by omega⟩ : Fin 4) j : (OutS B).Idx) 2).val < 3 from p.isLt)]
  rfl

/-- At slot 3 the result is the product of the planes' blends. -/
theorem combine_prod (f0 f1 f2 f3 : FVec Ideal (FeatS B) .f32) (w0 w1 w2 w3 : FVec Ideal (WgtS B) .f32)
    (b : Fin B) (l : Fin 4) (j : Fin 2) :
    combine f0 f1 f2 f3 w0 w1 w2 w3 (ix4 b l (3 : Fin 4) j) = planeProd f0 f1 f2 f3 w0 w1 w2 w3 b l j := by
  unfold combine
  rw [dif_neg (show ¬ ((ix4 b l (3 : Fin 4) j : (OutS B).Idx) 2).val < 3 from Nat.lt_irrefl 3)]
  rfl

/-- The blend reads its arrays at one point only: arrays that agree at point b' with blocks at point b have the same
    blend there. -/
theorem blend_congr {B' : Nat} (f0 f1 f2 f3 : FVec Ideal (FeatS B) .f32) (w0 w1 w2 w3 : FVec Ideal (WgtS B) .f32)
    (g0 g1 g2 g3 : FVec Ideal (FeatS B') .f32) (v0 v1 v2 v3 : FVec Ideal (WgtS B') .f32) (b : Fin B) (b' : Fin B')
    (hf0 : ∀ l p j, f0 (ix4 b l p j) = g0 (ix4 b' l p j)) (hf1 : ∀ l p j, f1 (ix4 b l p j) = g1 (ix4 b' l p j))
    (hf2 : ∀ l p j, f2 (ix4 b l p j) = g2 (ix4 b' l p j)) (hf3 : ∀ l p j, f3 (ix4 b l p j) = g3 (ix4 b' l p j))
    (hw0 : ∀ l p, w0 (ix3 b l p) = v0 (ix3 b' l p)) (hw1 : ∀ l p, w1 (ix3 b l p) = v1 (ix3 b' l p))
    (hw2 : ∀ l p, w2 (ix3 b l p) = v2 (ix3 b' l p)) (hw3 : ∀ l p, w3 (ix3 b l p) = v3 (ix3 b' l p))
    (l : Fin 4) (p : Fin 3) (j : Fin 2) :
    blend f0 f1 f2 f3 w0 w1 w2 w3 b l p j = blend g0 g1 g2 g3 v0 v1 v2 v3 b' l p j := by
  unfold blend
  rw [hf0, hf1, hf2, hf3, hw0, hw1, hw2, hw3]

end TriPlane

end
-- ==== Proof.KernelBlock.lean ====
/-
  One block of the kernel: what the body leaves in the output block, as a function of the eight input blocks.

  The body multiplies each corner's feature block [16384, 4, 3, 2] by that corner's weight block [16384, 4, 3] spread
  over the two features, adds the four products from the left, cuts the three planes out of the sum, and stores the
  planes and their product into the four slots of the third axis of the output block [16384, 4, 4, 2]. The four stores
  tile the block, so index by index the block is the specification's result of the eight blocks.

  The steps. A re-shaping that only inserts or removes an axis of extent one keeps every entry's row-major position,
  so it moves the entry at (i, j, k) to (i, j, k, 0), or the one at (i, j, 0, e) to (i, j, e), and back. Spreading
  [a, b, c, 1] over a last axis of extent d repeats the single column. With these, the left-to-right sum of the four
  corner products read at (point, level, plane, feature) is the blend there; the cut of plane p read at
  (point, level, feature) is the sum at (point, level, p, feature); and each stored rectangle [16384, 4, 1, 2], placed at
  slot o of the third axis, sends its own index (point, level, 0, feature) to (point, level, o, feature). So slot
  o < 3 holds the blend of plane o and slot 3 the product of the three blends, which is what the result array says.
-/
import proofs.«158488_j36910948941984_1_alg».proof.Proof.Spec
import proofs.«158488_j36910948941984_1_alg».proof.Proof.Gen.KernelIdeal.Frame
import Idealize.ShloMosaic.PureOps.Ideal
import Idealize.ShloMosaic.Lib.Pipeline.Value
import Idealize.ShloMosaic.Lib.ValueLayout

noncomputable section

namespace Cert.KernelIdeal.Block

open Cert.KernelIdeal Cert.KernelIdeal.Gen Idealize.ShloMosaic Idealize.ShloMosaic.TcCoe Idealize.SL.Sem
open Idealize.ShloMosaic.ValueIdx

/-! ## Axes of extent one added or removed, and one column repeated

Each re-shaping below keeps the row-major position: an axis of extent one contributes a factor 1 and a summand 0. -/

section Layout
variable {α : Type}

/-- An `[a, b, c]` array given a trailing axis of extent one reads, at `(i, j, k, u)`, the operand at `(i, j, k)`:
    both positions are `(i·b + j)·c + k`, since `u = 0`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An `[a, b, c, 1]` array spread over a last axis of extent `d` reads, at `(i, j, k, e)`, its one column at
    `(i, j, k, 0)`. On the first three axes the coordinate is kept (if the extent there is one the coordinate is zero
    anyway); on the last the operand has only the coordinate zero. -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (i : Fin a) (j : Fin b) (k : Fin c) (e : Fin d) :
    broadcastTo ⟨4, ![a, b, c, d]⟩ v h (ix4 i j k e) = v (ix4 i j k (0 : Fin 1)) := by
  refine broadcastTo_apply v h (ix4 i j k e) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, b, 1, d]` array with its axis of extent one removed reads, at `(i, j, e)`, the operand at
    `(i, j, 0, e)`: both positions are `(i·b + j)·d + e`. -/
theorem shapeCast_ab1d_abd_apply {a b d : ℕ} (x : (⟨4, ![a, b, 1, d]⟩ : Shape).Idx → α)
    (h : (⟨4, ![a, b, 1, d]⟩ : Shape).ShapeCasts ⟨3, ![a, b, d]⟩) (i : Fin a) (j : Fin b) (e : Fin d) :
    shapeCast ⟨3, ![a, b, d]⟩ x h (ix3 i j e) = x (ix4 i j (0 : Fin 1) e) :=
  shapeCast_apply x h _ _ (by
    rw [Shape.rowMajor_val_four, Shape.rowMajor_val_three]
    show ((i.val * b + j.val) * 1 + 0) * d + e.val = (i.val * b + j.val) * d + e.val
    rw [Nat.mul_one, Nat.add_zero])

/-- An `[a, b, d]` array given an axis of extent one in third place reads, at `(i, j, u, e)`, the operand at
    `(i, j, e)`: both positions are `(i·b + j)·d + e`, since `u = 0`. -/
theorem shapeCast_abd_ab1d_apply {a b d : ℕ} (x : (⟨3, ![a, b, d]⟩ : Shape).Idx → α)
    (h : (⟨3, ![a, b, d]⟩ : Shape).ShapeCasts ⟨4, ![a, b, 1, d]⟩) (i : Fin a) (j : Fin b) (u : Fin 1) (e : Fin d) :
    shapeCast ⟨4, ![a, b, 1, d]⟩ x h (ix4 i j u e) = x (ix3 i j e) :=
  shapeCast_apply x h _ _ (by
    have hu : u.val = 0 := by omega
    rw [Shape.rowMajor_val_three, Shape.rowMajor_val_four]
    show (i.val * b + j.val) * d + e.val = ((i.val * b + j.val) * 1 + u.val) * d + e.val
    rw [hu, Nat.mul_one, Nat.add_zero])

end Layout

/-! ## The sum of the four corner products is the blend -/

section Body

/-- A corner's weight block, given a trailing axis of extent one and spread over the two features, reads the weight of
    its point, level and plane, whatever the feature. -/
theorem spread_apply (w : FVec Ideal S16384x4x3 .f32) (r : Fin 16384) (l : Fin 4) (p : Fin 3) (j : Fin 2) :
    broadcastTo S16384x4x3x2 (shapeCast S16384x4x3x1 w shapeCasts_S16384x4x3_S16384x4x3x1)
        broadcasts_S16384x4x3x1_S16384x4x3x2 (ix4 r l p j) = w (ix3 r l p) :=
  (broadcastTo_abc1_abcd_apply _ _ r l p j).trans (shapeCast_abc_abc1_apply w _ r l p 0)

/-- The body's sum, read at a point, level, plane and feature, is the blend there: the re-shapings to the same shape
    change nothing, products and sums are taken entry by entry, and each spread weight is the weight of the point, level
    and plane. The four products are added from the left on both sides, so no law of the extended reals is used. -/
theorem blend_apply (x0 x1 x2 x3 : Vec Ideal S16384x4x3x2 .f32) (x4 x5 x6 x7 : Vec Ideal S16384x4x3 .f32)
    (r : Fin 16384) (l : Fin 4) (p : Fin 3) (j : Fin 2) :
    (k0_pay8 x0 x1 x2 x3 x4 x5 x6 x7 : FVec Ideal S16384x4x3x2 .f32) (ix4 r l p j)
      = TriPlane.blend (B := 16384) x0 x1 x2 x3 x4 x5 x6 x7 r l p j := by
  unfold k0_pay8 TriPlane.blend
  simp only [shapeCast_self]
  simp only [addf_apply, mulf_apply, spread_apply]

end Body

/-! ## The planes cut out of a block, and what each store holds -/

section Planes

/-- Plane 0 cut out of a block [16384, 4, 3, 2] and flattened to [16384, 4, 2] reads the block at plane 0. -/
theorem plane0_apply (A : FVec Ideal S16384x4x3x2 .f32) (r : Fin 16384) (l : Fin 4) (j : Fin 2) :
    k0_pay1 A (ix3 r l j) = A (ix4 r l (0 : Fin 3) j) := by
  unfold k0_pay1
  exact (shapeCast_ab1d_abd_apply _ _ r l j).trans (slice4_axis2_apply 0 A _ r l (0 : Fin 1) j (0 : Fin 3) rfl)

/-- Plane 1 likewise: the cut starts at offset 1 of the third axis. -/
theorem plane1_apply (A : FVec Ideal S16384x4x3x2 .f32) (r : Fin 16384) (l : Fin 4) (j : Fin 2) :
    k0_pay2 A (ix3 r l j) = A (ix4 r l (1 : Fin 3) j) := by
  unfold k0_pay2
  exact (shapeCast_ab1d_abd_apply _ _ r l j).trans (slice4_axis2_apply 1 A _ r l (0 : Fin 1) j (1 : Fin 3) rfl)

/-- Plane 2 likewise: the cut starts at offset 2 of the third axis. -/
theorem plane2_apply (A : FVec Ideal S16384x4x3x2 .f32) (r : Fin 16384) (l : Fin 4) (j : Fin 2) :
    k0_pay3 A (ix3 r l j) = A (ix4 r l (2 : Fin 3) j) := by
  unfold k0_pay3
  exact (shapeCast_ab1d_abd_apply _ _ r l j).trans (slice4_axis2_apply 2 A _ r l (0 : Fin 1) j (2 : Fin 3) rfl)

/-- The first store's value, plane 0 shaped back to [16384, 4, 1, 2], reads the block at plane 0. -/
theorem store0_apply (A : FVec Ideal S16384x4x3x2 .f32) (r : Fin 16384) (l : Fin 4) (u : Fin 1) (j : Fin 2) :
    k0_pay4 A (ix4 r l u j) = A (ix4 r l (0 : Fin 3) j) := by
  unfold k0_pay4
  exact (shapeCast_abd_ab1d_apply _ _ r l u j).trans (plane0_apply A r l j)

/-- The second store's value reads the block at plane 1. -/
theorem store1_apply (A : FVec Ideal S16384x4x3x2 .f32) (r : Fin 16384) (l : Fin 4) (u : Fin 1) (j : Fin 2) :
    k0_pay5 A (ix4 r l u j) = A (ix4 r l (1 : Fin 3) j) := by
  unfold k0_pay5
  exact (shapeCast_abd_ab1d_apply _ _ r l u j).trans (plane1_apply A r l j)

/-- The third store's value reads the block at plane 2. -/
theorem store2_apply (A : FVec Ideal S16384x4x3x2 .f32) (r : Fin 16384) (l : Fin 4) (u : Fin 1) (j : Fin 2) :
    k0_pay6 A (ix4 r l u j) = A (ix4 r l (2 : Fin 3) j) := by
  unfold k0_pay6
  exact (shapeCast_abd_ab1d_apply _ _ r l u j).trans (plane2_apply A r l j)

/-- The fourth store's value is the product of the three planes, plane 0 times plane 1 first, then times plane 2. -/
theorem store3_apply (A : FVec Ideal S16384x4x3x2 .f32) (r : Fin 16384) (l : Fin 4) (u : Fin 1) (j : Fin 2) :
    k0_pay7 A (ix4 r l u j)
      = A (ix4 r l (0 : Fin 3) j) * A (ix4 r l (1 : Fin 3) j) * A (ix4 r l (2 : Fin 3) j) := by
  unfold k0_pay7
  refine (shapeCast_abd_ab1d_apply _ _ r l u j).trans ?_
  show k0_pay1 A (ix3 r l j) * k0_pay2 A (ix3 r l j) * k0_pay3 A (ix3 r l j) = _
  rw [plane0_apply, plane1_apply, plane2_apply]

end Planes

/-! ## Each store is the result array on its rectangle -/

section Stores

/-- The rectangle [16384, 4, 1, 2] at slot `o` of the output block's third axis puts its own index
    `(r, l, 0, j)` at `(r, l, o, j)`: the offset is zero on the other three axes. -/
theorem slot_emb (o : Nat) (ho : o < 4)
    (inb : ∀ a, (![0, 0, o, 0] : Fin 4 → Nat) a + S16384x4x1x2.size a ≤ S16384x4x4x2.size a)
    (r : Fin 16384) (l : Fin 4) (u : Fin 1) (j : Fin 2) :
    (Rect.unit (s := S16384x4x4x2) ![0, 0, o, 0] S16384x4x1x2.size inb).emb (ix4 r l u j)
      = ix4 r l (⟨o, ho⟩ : Fin 4) j := by
  funext a
  refine Fin.ext ?_
  match a with
  | ⟨0, _⟩ => show 0 + 1 * r.val = r.val; omega
  | ⟨1, _⟩ => show 0 + 1 * l.val = l.val; omega
  | ⟨2, _⟩ => show o + 1 * u.val = o; omega
  | ⟨3, _⟩ => show 0 + 1 * j.val = j.val; omega

variable (x0 x1 x2 x3 : Vec Ideal S16384x4x3x2 .f32) (x4 x5 x6 x7 : Vec Ideal S16384x4x3 .f32)

/-- The store into slot 0 holds the result array there: the blend of plane 0. -/
theorem piece0 (x : S16384x4x1x2.Idx) :
    k0_pay4 (k0_pay8 x0 x1 x2 x3 x4 x5 x6 x7) x
      = TriPlane.combine (B := 16384) x0 x1 x2 x3 x4 x5 x6 x7 (r0_2.emb x) := by
  obtain ⟨r, l, u, j, rfl⟩ : ∃ (r : Fin 16384) (l : Fin 4) (u : Fin 1) (j : Fin 2), x = ix4 r l u j :=
    ⟨x 0, x 1, x 2, x 3, eq_ix4 x⟩
  rw [store0_apply, blend_apply, slot_emb 0 (by omega)]
  exact (TriPlane.combine_plane x0 x1 x2 x3 x4 x5 x6 x7 r l (0 : Fin 3) j).symm

/-- The store into slot 1 holds the blend of plane 1. -/
theorem piece1 (x : S16384x4x1x2.Idx) :
    k0_pay5 (k0_pay8 x0 x1 x2 x3 x4 x5 x6 x7) x
      = TriPlane.combine (B := 16384) x0 x1 x2 x3 x4 x5 x6 x7 (r0_3.emb x) := by
  obtain ⟨r, l, u, j, rfl⟩ : ∃ (r : Fin 16384) (l : Fin 4) (u : Fin 1) (j : Fin 2), x = ix4 r l u j :=
    ⟨x 0, x 1, x 2, x 3, eq_ix4 x⟩
  rw [store1_apply, blend_apply, slot_emb 1 (by omega)]
  exact (TriPlane.combine_plane x0 x1 x2 x3 x4 x5 x6 x7 r l (1 : Fin 3) j).symm

/-- The store into slot 2 holds the blend of plane 2. -/
theorem piece2 (x : S16384x4x1x2.Idx) :
    k0_pay6 (k0_pay8 x0 x1 x2 x3 x4 x5 x6 x7) x
      = TriPlane.combine (B := 16384) x0 x1 x2 x3 x4 x5 x6 x7 (r0_4.emb x) := by
  obtain ⟨r, l, u, j, rfl⟩ : ∃ (r : Fin 16384) (l : Fin 4) (u : Fin 1) (j : Fin 2), x = ix4 r l u j :=
    ⟨x 0, x 1, x 2, x 3, eq_ix4 x⟩
  rw [store2_apply, blend_apply, slot_emb 2 (by omega)]
  exact (TriPlane.combine_plane x0 x1 x2 x3 x4 x5 x6 x7 r l (2 : Fin 3) j).symm

/-- The store into slot 3 holds the product of the three planes' blends, multiplied from the left as the result array
    multiplies them. -/
theorem piece3 (x : S16384x4x1x2.Idx) :
    k0_pay7 (k0_pay8 x0 x1 x2 x3 x4 x5 x6 x7) x
      = TriPlane.combine (B := 16384) x0 x1 x2 x3 x4 x5 x6 x7 (r0_5.emb x) := by
  obtain ⟨r, l, u, j, rfl⟩ : ∃ (r : Fin 16384) (l : Fin 4) (u : Fin 1) (j : Fin 2), x = ix4 r l u j :=
    ⟨x 0, x 1, x 2, x 3, eq_ix4 x⟩
  rw [store3_apply, blend_apply, blend_apply, blend_apply, slot_emb 3 (by omega)]
  exact (TriPlane.combine_prod x0 x1 x2 x3 x4 x5 x6 x7 r l j).symm

end Stores

/-- The output block after the body is the specification's result of the eight input blocks. The loads read the whole
    input blocks; each of the four stores is the result array restricted to its rectangle, and the four rectangles
    cover the block, so the block is the result array at every index, whatever the order of the stores. -/
theorem out_eq (x0 x1 x2 x3 : Vec Ideal S16384x4x3x2 .f32) (x4 x5 x6 x7 : Vec Ideal S16384x4x3 .f32) :
    (out0_8 x0 x1 x2 x3 x4 x5 x6 x7 : FVec Ideal S16384x4x4x2 .f32)
      = TriPlane.combine (B := 16384) x0 x1 x2 x3 x4 x5 x6 x7 := by
  have hz4 : (![0, 0, 0, 0] : Fin 4 → Nat) = fun _ => 0 := by
    funext a
    match a with
    | ⟨0, _⟩ => rfl
    | ⟨1, _⟩ => rfl
    | ⟨2, _⟩ => rfl
    | ⟨3, _⟩ => rfl
  have hz3 : (![0, 0, 0] : Fin 3 → Nat) = fun _ => 0 := by
    funext a
    match a with
    | ⟨0, _⟩ => rfl
    | ⟨1, _⟩ => rfl
    | ⟨2, _⟩ => rfl
  funext y
  unfold out0_8
  simp only [View.ld_unit_zero (S := S16384x4x3x2) hz4, View.ld_unit_zero (S := S16384x4x3) hz3]
  refine View.canon_apply_of_pieces (Val := Elt Ideal) (S := S16384x4x4x2) (e := .f32)
    (TriPlane.combine (B := 16384) x0 x1 x2 x3 x4 x5 x6 x7) _ ?_ y (cover0_8 _ _ _ _ y)
  intro p hp x
  simp only [List.mem_cons, List.not_mem_nil, or_false] at hp
  rcases hp with rfl | rfl | rfl | rfl
  · exact piece3 x0 x1 x2 x3 x4 x5 x6 x7 x
  · exact piece2 x0 x1 x2 x3 x4 x5 x6 x7 x
  · exact piece1 x0 x1 x2 x3 x4 x5 x6 x7 x
  · exact piece0 x0 x1 x2 x3 x4 x5 x6 x7 x

end Cert.KernelIdeal.Block

end
-- ==== Proof.KernelOut.lean ====
/-
  What the kernel program leaves in its result buffer, at the extended reals.

  The region reads eight arrays that the host operations before it computed: four gathered feature arrays
  [B, 4, 3, 2] and four weight arrays [B, 4, 3], B = 2097152 points, in blocks of 16384 points. For its block of
  points the body forms the blend of the four corners and the product of the three planes and stores them into the four
  slots of the output block; the 128 blocks tile the output array, so the array ends as the specification's result of
  the eight whole arrays. The one host operation after the region lays it out as [B, 32].
-/
import proofs.«158488_j36910948941984_1_alg».proof.Proof.Spec
import proofs.«158488_j36910948941984_1_alg».proof.Proof.Gen.KernelIdeal.Frame
import proofs.«158488_j36910948941984_1_alg».proof.Proof.KernelBlock
import Idealize.ShloMosaic.PureOps.Ideal
import Idealize.ShloMosaic.Lib.Pipeline.Value
import Idealize.ShloMosaic.Lib.ValueLayout

noncomputable section

namespace Cert.KernelIdeal.Out

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The four gathered feature arrays as the region finds them, corner by corner. -/
abbrev feat0 (c : Dev nD) : FVec Ideal S2097152x4x3x2 .f32 := V m c main_v78
abbrev feat1 (c : Dev nD) : FVec Ideal S2097152x4x3x2 .f32 := V m c main_v103
abbrev feat2 (c : Dev nD) : FVec Ideal S2097152x4x3x2 .f32 := V m c main_v136
abbrev feat3 (c : Dev nD) : FVec Ideal S2097152x4x3x2 .f32 := V m c main_v161
/-- The four weight arrays as the region finds them, corner by corner. -/
abbrev wgt0 (c : Dev nD) : FVec Ideal S2097152x4x3 .f32 := V m c main_v79
abbrev wgt1 (c : Dev nD) : FVec Ideal S2097152x4x3 .f32 := V m c main_v104
abbrev wgt2 (c : Dev nD) : FVec Ideal S2097152x4x3 .f32 := V m c main_v137
abbrev wgt3 (c : Dev nD) : FVec Ideal S2097152x4x3 .f32 := V m c main_v162

/-! ## The index maps: every window's block at grid point t starts at point t · 16384 of axis 0 and at 0 on the other axes -/

/-- The block of the first corner's features at grid point t has block index (t, 0, 0, 0). -/
theorem index0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
/-- The block of the second corner's features at grid point t has block index (t, 0, 0, 0). -/
theorem index1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)
/-- The block of the third corner's features at grid point t has block index (t, 0, 0, 0). -/
theorem index2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)
/-- The block of the fourth corner's features at grid point t has block index (t, 0, 0, 0). -/
theorem index3 : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)
/-- The block of the first corner's weights at grid point t has block index (t, 0, 0). -/
theorem index4 : ∀ t : Fin cfg0.N, win0_4.index t (0 : Fin 3) = t.val ∧ win0_4.index t (1 : Fin 3) = 0
    ∧ win0_4.index t (2 : Fin 3) = 0 :=
  (by decide +kernel : ∀ t : Fin grid0.N, _)
/-- The block of the second corner's weights at grid point t has block index (t, 0, 0). -/
theorem index5 : ∀ t : Fin cfg0.N, win0_5.index t (0 : Fin 3) = t.val ∧ win0_5.index t (1 : Fin 3) = 0
    ∧ win0_5.index t (2 : Fin 3) = 0 :=
  (by decide +kernel : ∀ t : Fin grid0.N, _)
/-- The block of the third corner's weights at grid point t has block index (t, 0, 0). -/
theorem index6 : ∀ t : Fin cfg0.N, win0_6.index t (0 : Fin 3) = t.val ∧ win0_6.index t (1 : Fin 3) = 0
    ∧ win0_6.index t (2 : Fin 3) = 0 :=
  (by decide +kernel : ∀ t : Fin grid0.N, _)
/-- The block of the fourth corner's weights at grid point t has block index (t, 0, 0). -/
theorem index7 : ∀ t : Fin cfg0.N, win0_7.index t (0 : Fin 3) = t.val ∧ win0_7.index t (1 : Fin 3) = 0
    ∧ win0_7.index t (2 : Fin 3) = 0 :=
  (by decide +kernel : ∀ t : Fin grid0.N, _)
/-- The block of the output at grid point t has block index (t, 0, 0, 0). -/
theorem index8 : ∀ t : Fin cfg0.N, win0_8.index t (0 : Fin 4) = t.val ∧ win0_8.index t (1 : Fin 4) = 0
    ∧ win0_8.index t (2 : Fin 4) = 0 ∧ win0_8.index t (3 : Fin 4) = 0 :=
  (by decide +kernel : ∀ t : Fin grid0.N, _)

/-! ## The blocks the body reads, as parts of the arrays -/

/-- Point b of the first corner's feature block at grid point t is point t · 16384 + b of that corner's feature
    array, level, plane and feature unchanged. -/
theorem feat0_blk (c : Dev nD) (t : Fin cfg0.N) (b : Fin 16384) (b' : Fin 2097152) (hb : b'.val = t.val * 16384 + b.val)
    (l : Fin 4) (p : Fin 3) (j : Fin 2) :
    (iblk m c 0 t : Vec Ideal S16384x4x3x2 .f32) (ix4 b l p j) = feat0 m c (ix4 b' l p j) := by
  obtain ⟨e0, e1, e2, e3⟩ := index0 t
  show V m c main_v78 (((cfg0.win 0).blk t).view.emb (ix4 b l p j)) = V m c main_v78 (ix4 b' l p j)
  refine congrArg (V m c main_v78) ?_
  funext a; apply Fin.ext
  match a with
  | ⟨0, _⟩ => show win0_0.index t (0 : Fin 4) * 16384 + 1 * b.val = b'.val; omega
  | ⟨1, _⟩ => show win0_0.index t (1 : Fin 4) * 4 + 1 * l.val = l.val; omega
  | ⟨2, _⟩ => show win0_0.index t (2 : Fin 4) * 3 + 1 * p.val = p.val; omega
  | ⟨3, _⟩ => show win0_0.index t (3 : Fin 4) * 2 + 1 * j.val = j.val; omega

/-- Point b of the second corner's feature block at grid point t is point t · 16384 + b of that corner's feature
    array, level, plane and feature unchanged. -/
theorem feat1_blk (c : Dev nD) (t : Fin cfg0.N) (b : Fin 16384) (b' : Fin 2097152) (hb : b'.val = t.val * 16384 + b.val)
    (l : Fin 4) (p : Fin 3) (j : Fin 2) :
    (iblk m c 1 t : Vec Ideal S16384x4x3x2 .f32) (ix4 b l p j) = feat1 m c (ix4 b' l p j) := by
  obtain ⟨e0, e1, e2, e3⟩ := index1 t
  show V m c main_v103 (((cfg0.win 1).blk t).view.emb (ix4 b l p j)) = V m c main_v103 (ix4 b' l p j)
  refine congrArg (V m c main_v103) ?_
  funext a; apply Fin.ext
  match a with
  | ⟨0, _⟩ => show win0_1.index t (0 : Fin 4) * 16384 + 1 * b.val = b'.val; omega
  | ⟨1, _⟩ => show win0_1.index t (1 : Fin 4) * 4 + 1 * l.val = l.val; omega
  | ⟨2, _⟩ => show win0_1.index t (2 : Fin 4) * 3 + 1 * p.val = p.val; omega
  | ⟨3, _⟩ => show win0_1.index t (3 : Fin 4) * 2 + 1 * j.val = j.val; omega

/-- Point b of the third corner's feature block at grid point t is point t · 16384 + b of that corner's feature
    array, level, plane and feature unchanged. -/
theorem feat2_blk (c : Dev nD) (t : Fin cfg0.N) (b : Fin 16384) (b' : Fin 2097152) (hb : b'.val = t.val * 16384 + b.val)
    (l : Fin 4) (p : Fin 3) (j : Fin 2) :
    (iblk m c 2 t : Vec Ideal S16384x4x3x2 .f32) (ix4 b l p j) = feat2 m c (ix4 b' l p j) := by
  obtain ⟨e0, e1, e2, e3⟩ := index2 t
  show V m c main_v136 (((cfg0.win 2).blk t).view.emb (ix4 b l p j)) = V m c main_v136 (ix4 b' l p j)
  refine congrArg (V m c main_v136) ?_
  funext a; apply Fin.ext
  match a with
  | ⟨0, _⟩ => show win0_2.index t (0 : Fin 4) * 16384 + 1 * b.val = b'.val; omega
  | ⟨1, _⟩ => show win0_2.index t (1 : Fin 4) * 4 + 1 * l.val = l.val; omega
  | ⟨2, _⟩ => show win0_2.index t (2 : Fin 4) * 3 + 1 * p.val = p.val; omega
  | ⟨3, _⟩ => show win0_2.index t (3 : Fin 4) * 2 + 1 * j.val = j.val; omega

/-- Point b of the fourth corner's feature block at grid point t is point t · 16384 + b of that corner's feature
    array, level, plane and feature unchanged. -/
theorem feat3_blk (c : Dev nD) (t : Fin cfg0.N) (b : Fin 16384) (b' : Fin 2097152) (hb : b'.val = t.val * 16384 + b.val)
    (l : Fin 4) (p : Fin 3) (j : Fin 2) :
    (iblk m c 3 t : Vec Ideal S16384x4x3x2 .f32) (ix4 b l p j) = feat3 m c (ix4 b' l p j) := by
  obtain ⟨e0, e1, e2, e3⟩ := index3 t
  show V m c main_v161 (((cfg0.win 3).blk t).view.emb (ix4 b l p j)) = V m c main_v161 (ix4 b' l p j)
  refine congrArg (V m c main_v161) ?_
  funext a; apply Fin.ext
  match a with
  | ⟨0, _⟩ => show win0_3.index t (0 : Fin 4) * 16384 + 1 * b.val = b'.val; omega
  | ⟨1, _⟩ => show win0_3.index t (1 : Fin 4) * 4 + 1 * l.val = l.val; omega
  | ⟨2, _⟩ => show win0_3.index t (2 : Fin 4) * 3 + 1 * p.val = p.val; omega
  | ⟨3, _⟩ => show win0_3.index t (3 : Fin 4) * 2 + 1 * j.val = j.val; omega

/-- Point b of the first corner's weight block at grid point t is point t · 16384 + b of that corner's weight
    array, level and plane unchanged. -/
theorem wgt0_blk (c : Dev nD) (t : Fin cfg0.N) (b : Fin 16384) (b' : Fin 2097152) (hb : b'.val = t.val * 16384 + b.val)
    (l : Fin 4) (p : Fin 3) :
    (iblk m c 4 t : Vec Ideal S16384x4x3 .f32) (ix3 b l p) = wgt0 m c (ix3 b' l p) := by
  obtain ⟨e0, e1, e2⟩ := index4 t
  show V m c main_v79 (((cfg0.win 4).blk t).view.emb (ix3 b l p)) = V m c main_v79 (ix3 b' l p)
  refine congrArg (V m c main_v79) ?_
  funext a; apply Fin.ext
  match a with
  | ⟨0, _⟩ => show win0_4.index t (0 : Fin 3) * 16384 + 1 * b.val = b'.val; omega
  | ⟨1, _⟩ => show win0_4.index t (1 : Fin 3) * 4 + 1 * l.val = l.val; omega
  | ⟨2, _⟩ => show win0_4.index t (2 : Fin 3) * 3 + 1 * p.val = p.val; omega

/-- Point b of the second corner's weight block at grid point t is point t · 16384 + b of that corner's weight
    array, level and plane unchanged. -/
theorem wgt1_blk (c : Dev nD) (t : Fin cfg0.N) (b : Fin 16384) (b' : Fin 2097152) (hb : b'.val = t.val * 16384 + b.val)
    (l : Fin 4) (p : Fin 3) :
    (iblk m c 5 t : Vec Ideal S16384x4x3 .f32) (ix3 b l p) = wgt1 m c (ix3 b' l p) := by
  obtain ⟨e0, e1, e2⟩ := index5 t
  show V m c main_v104 (((cfg0.win 5).blk t).view.emb (ix3 b l p)) = V m c main_v104 (ix3 b' l p)
  refine congrArg (V m c main_v104) ?_
  funext a; apply Fin.ext
  match a with
  | ⟨0, _⟩ => show win0_5.index t (0 : Fin 3) * 16384 + 1 * b.val = b'.val; omega
  | ⟨1, _⟩ => show win0_5.index t (1 : Fin 3) * 4 + 1 * l.val = l.val; omega
  | ⟨2, _⟩ => show win0_5.index t (2 : Fin 3) * 3 + 1 * p.val = p.val; omega

/-- Point b of the third corner's weight block at grid point t is point t · 16384 + b of that corner's weight
    array, level and plane unchanged. -/
theorem wgt2_blk (c : Dev nD) (t : Fin cfg0.N) (b : Fin 16384) (b' : Fin 2097152) (hb : b'.val = t.val * 16384 + b.val)
    (l : Fin 4) (p : Fin 3) :
    (iblk m c 6 t : Vec Ideal S16384x4x3 .f32) (ix3 b l p) = wgt2 m c (ix3 b' l p) := by
  obtain ⟨e0, e1, e2⟩ := index6 t
  show V m c main_v137 (((cfg0.win 6).blk t).view.emb (ix3 b l p)) = V m c main_v137 (ix3 b' l p)
  refine congrArg (V m c main_v137) ?_
  funext a; apply Fin.ext
  match a with
  | ⟨0, _⟩ => show win0_6.index t (0 : Fin 3) * 16384 + 1 * b.val = b'.val; omega
  | ⟨1, _⟩ => show win0_6.index t (1 : Fin 3) * 4 + 1 * l.val = l.val; omega
  | ⟨2, _⟩ => show win0_6.index t (2 : Fin 3) * 3 + 1 * p.val = p.val; omega

/-- Point b of the fourth corner's weight block at grid point t is point t · 16384 + b of that corner's weight
    array, level and plane unchanged. -/
theorem wgt3_blk (c : Dev nD) (t : Fin cfg0.N) (b : Fin 16384) (b' : Fin 2097152) (hb : b'.val = t.val * 16384 + b.val)
    (l : Fin 4) (p : Fin 3) :
    (iblk m c 7 t : Vec Ideal S16384x4x3 .f32) (ix3 b l p) = wgt3 m c (ix3 b' l p) := by
  obtain ⟨e0, e1, e2⟩ := index7 t
  show V m c main_v162 (((cfg0.win 7).blk t).view.emb (ix3 b l p)) = V m c main_v162 (ix3 b' l p)
  refine congrArg (V m c main_v162) ?_
  funext a; apply Fin.ext
  match a with
  | ⟨0, _⟩ => show win0_7.index t (0 : Fin 3) * 16384 + 1 * b.val = b'.val; omega
  | ⟨1, _⟩ => show win0_7.index t (1 : Fin 3) * 4 + 1 * l.val = l.val; omega
  | ⟨2, _⟩ => show win0_7.index t (2 : Fin 3) * 3 + 1 * p.val = p.val; omega

/-! ## The specification reads its arrays at one point only -/

/-- The product of the planes of blocks that agree with arrays at a point is the arrays' product there. -/
theorem planeProd_congr {B B' : Nat} (f0 f1 f2 f3 : FVec Ideal (TriPlane.FeatS B) .f32) (w0 w1 w2 w3 : FVec Ideal (TriPlane.WgtS B) .f32)
    (g0 g1 g2 g3 : FVec Ideal (TriPlane.FeatS B') .f32) (v0 v1 v2 v3 : FVec Ideal (TriPlane.WgtS B') .f32) (b : Fin B) (b' : Fin B')
    (hf0 : ∀ l p j, f0 (ix4 b l p j) = g0 (ix4 b' l p j)) (hf1 : ∀ l p j, f1 (ix4 b l p j) = g1 (ix4 b' l p j))
    (hf2 : ∀ l p j, f2 (ix4 b l p j) = g2 (ix4 b' l p j)) (hf3 : ∀ l p j, f3 (ix4 b l p j) = g3 (ix4 b' l p j))
    (hw0 : ∀ l p, w0 (ix3 b l p) = v0 (ix3 b' l p)) (hw1 : ∀ l p, w1 (ix3 b l p) = v1 (ix3 b' l p))
    (hw2 : ∀ l p, w2 (ix3 b l p) = v2 (ix3 b' l p)) (hw3 : ∀ l p, w3 (ix3 b l p) = v3 (ix3 b' l p))
    (l : Fin 4) (j : Fin 2) :
    TriPlane.planeProd f0 f1 f2 f3 w0 w1 w2 w3 b l j = TriPlane.planeProd g0 g1 g2 g3 v0 v1 v2 v3 b' l j := by
  unfold TriPlane.planeProd
  rw [TriPlane.blend_congr f0 f1 f2 f3 w0 w1 w2 w3 g0 g1 g2 g3 v0 v1 v2 v3 b b' hf0 hf1 hf2 hf3 hw0 hw1 hw2 hw3 l 0 j,
    TriPlane.blend_congr f0 f1 f2 f3 w0 w1 w2 w3 g0 g1 g2 g3 v0 v1 v2 v3 b b' hf0 hf1 hf2 hf3 hw0 hw1 hw2 hw3 l 1 j,
    TriPlane.blend_congr f0 f1 f2 f3 w0 w1 w2 w3 g0 g1 g2 g3 v0 v1 v2 v3 b b' hf0 hf1 hf2 hf3 hw0 hw1 hw2 hw3 l 2 j]

/-- The result of blocks at a point of the block is the result of the arrays at the array's point, when the blocks
    agree with the arrays there: a plane slot by the blend, the last slot by the product. -/
theorem combine_congr {B B' : Nat} (f0 f1 f2 f3 : FVec Ideal (TriPlane.FeatS B) .f32) (w0 w1 w2 w3 : FVec Ideal (TriPlane.WgtS B) .f32)
    (g0 g1 g2 g3 : FVec Ideal (TriPlane.FeatS B') .f32) (v0 v1 v2 v3 : FVec Ideal (TriPlane.WgtS B') .f32) (b : Fin B) (b' : Fin B')
    (hf0 : ∀ l p j, f0 (ix4 b l p j) = g0 (ix4 b' l p j)) (hf1 : ∀ l p j, f1 (ix4 b l p j) = g1 (ix4 b' l p j))
    (hf2 : ∀ l p j, f2 (ix4 b l p j) = g2 (ix4 b' l p j)) (hf3 : ∀ l p j, f3 (ix4 b l p j) = g3 (ix4 b' l p j))
    (hw0 : ∀ l p, w0 (ix3 b l p) = v0 (ix3 b' l p)) (hw1 : ∀ l p, w1 (ix3 b l p) = v1 (ix3 b' l p))
    (hw2 : ∀ l p, w2 (ix3 b l p) = v2 (ix3 b' l p)) (hw3 : ∀ l p, w3 (ix3 b l p) = v3 (ix3 b' l p))
    (l : Fin 4) (s : Fin 4) (j : Fin 2) :
    TriPlane.combine f0 f1 f2 f3 w0 w1 w2 w3 (ix4 b l s j) = TriPlane.combine g0 g1 g2 g3 v0 v1 v2 v3 (ix4 b' l s j) := by
  unfold TriPlane.combine
  by_cases hs : s.val < 3
  · rw [dif_pos (show ((ix4 b l s j : (TriPlane.OutS B).Idx) 2).val < 3 from hs),
      dif_pos (show ((ix4 b' l s j : (TriPlane.OutS B').Idx) 2).val < 3 from hs)]
    exact TriPlane.blend_congr f0 f1 f2 f3 w0 w1 w2 w3 g0 g1 g2 g3 v0 v1 v2 v3 b b' hf0 hf1 hf2 hf3 hw0 hw1 hw2 hw3 l ⟨s.val, hs⟩ j
  · rw [dif_neg (show ¬ ((ix4 b l s j : (TriPlane.OutS B).Idx) 2).val < 3 from hs),
      dif_neg (show ¬ ((ix4 b' l s j : (TriPlane.OutS B').Idx) 2).val < 3 from hs)]
    exact planeProd_congr f0 f1 f2 f3 w0 w1 w2 w3 g0 g1 g2 g3 v0 v1 v2 v3 b b' hf0 hf1 hf2 hf3 hw0 hw1 hw2 hw3 l j

/-- The same over whole indices: an index of the block and an index of the array with the same coordinates but for the
    array's point being the block's first point plus the point inside the block. -/
theorem combine_at (f0 f1 f2 f3 : FVec Ideal S16384x4x3x2 .f32) (w0 w1 w2 w3 : FVec Ideal S16384x4x3 .f32)
    (g0 g1 g2 g3 : FVec Ideal S2097152x4x3x2 .f32) (v0 v1 v2 v3 : FVec Ideal S2097152x4x3 .f32) (n : Nat)
    (hf0 : ∀ (b : Fin 16384) (b' : Fin 2097152), b'.val = n * 16384 + b.val → ∀ l p j, f0 (ix4 b l p j) = g0 (ix4 b' l p j))
    (hf1 : ∀ (b : Fin 16384) (b' : Fin 2097152), b'.val = n * 16384 + b.val → ∀ l p j, f1 (ix4 b l p j) = g1 (ix4 b' l p j))
    (hf2 : ∀ (b : Fin 16384) (b' : Fin 2097152), b'.val = n * 16384 + b.val → ∀ l p j, f2 (ix4 b l p j) = g2 (ix4 b' l p j))
    (hf3 : ∀ (b : Fin 16384) (b' : Fin 2097152), b'.val = n * 16384 + b.val → ∀ l p j, f3 (ix4 b l p j) = g3 (ix4 b' l p j))
    (hw0 : ∀ (b : Fin 16384) (b' : Fin 2097152), b'.val = n * 16384 + b.val → ∀ l p, w0 (ix3 b l p) = v0 (ix3 b' l p))
    (hw1 : ∀ (b : Fin 16384) (b' : Fin 2097152), b'.val = n * 16384 + b.val → ∀ l p, w1 (ix3 b l p) = v1 (ix3 b' l p))
    (hw2 : ∀ (b : Fin 16384) (b' : Fin 2097152), b'.val = n * 16384 + b.val → ∀ l p, w2 (ix3 b l p) = v2 (ix3 b' l p))
    (hw3 : ∀ (b : Fin 16384) (b' : Fin 2097152), b'.val = n * 16384 + b.val → ∀ l p, w3 (ix3 b l p) = v3 (ix3 b' l p))
    (y : S16384x4x4x2.Idx) (i : S2097152x4x4x2.Idx) (h0 : (i 0).val = n * 16384 + (y 0).val) (h1 : (i 1).val = (y 1).val)
    (h2 : (i 2).val = (y 2).val) (h3 : (i 3).val = (y 3).val) :
    TriPlane.combine (B := 16384) f0 f1 f2 f3 w0 w1 w2 w3 y = TriPlane.combine (B := 2097152) g0 g1 g2 g3 v0 v1 v2 v3 i := by
  obtain ⟨b, l, s, j, rfl⟩ : ∃ (b : Fin 16384) (l : Fin 4) (s : Fin 4) (j : Fin 2), y = ix4 b l s j :=
    ⟨y 0, y 1, y 2, y 3, eq_ix4 y⟩
  obtain ⟨b', l', s', j', rfl⟩ : ∃ (b' : Fin 2097152) (l' : Fin 4) (s' : Fin 4) (j' : Fin 2), i = ix4 b' l' s' j' :=
    ⟨i 0, i 1, i 2, i 3, eq_ix4 i⟩
  obtain rfl : l' = l := Fin.ext h1
  obtain rfl : s' = s := Fin.ext h2
  obtain rfl : j' = j := Fin.ext h3
  exact combine_congr f0 f1 f2 f3 w0 w1 w2 w3 g0 g1 g2 g3 v0 v1 v2 v3 b b' (hf0 b b' h0) (hf1 b b' h0) (hf2 b b' h0)
    (hf3 b b' h0) (hw0 b b' h0) (hw1 b b' h0) (hw2 b b' h0) (hw3 b b' h0) l' s' j'

/-! ## What a point writes back, the cover, and the array after the region -/

/-- The array after the region, as one function of the eight arrays the region reads. -/
abbrev combined (c : Dev nD) : FVec Ideal S2097152x4x4x2 .f32 :=
  TriPlane.combine (feat0 m c) (feat1 m c) (feat2 m c) (feat3 m c) (wgt0 m c) (wgt1 m c) (wgt2 m c) (wgt3 m c)

/-- What point t writes back is block t of the specification's result of the whole arrays: by the block lemma it is
    the result of the eight blocks, and a block's point b is the arrays' point t · 16384 + b. -/
theorem flushed_eq (c : Dev nD) (t : Fin cfg0.N) :
    (dats m 0 c).flushed 8 t = ((cfg0.win 8).blk t).view.read (Elt Ideal) (combined m c) := by
  show (cfg0.win 8).cut (grid0.coords t) ((dats m 0 c).after 8 t) = _
  rw [after0_8, Block.out_eq (iblk m c 0 t) (iblk m c 1 t) (iblk m c 2 t) (iblk m c 3 t) (iblk m c 4 t) (iblk m c 5 t) (iblk m c 6 t) (iblk m c 7 t)]
  obtain ⟨e0, e1, e2, e3⟩ := index8 t
  funext y
  show TriPlane.combine (B := 16384) (iblk m c 0 t) (iblk m c 1 t) (iblk m c 2 t) (iblk m c 3 t) (iblk m c 4 t) (iblk m c 5 t) (iblk m c 6 t) (iblk m c 7 t) y = combined m c (((cfg0.win 8).blk t).view.emb y)
  refine combine_at (iblk m c 0 t) (iblk m c 1 t) (iblk m c 2 t) (iblk m c 3 t) (iblk m c 4 t) (iblk m c 5 t) (iblk m c 6 t) (iblk m c 7 t)
    (feat0 m c) (feat1 m c) (feat2 m c) (feat3 m c) (wgt0 m c) (wgt1 m c) (wgt2 m c) (wgt3 m c) t.val
    (feat0_blk m c t) (feat1_blk m c t) (feat2_blk m c t) (feat3_blk m c t)
    (wgt0_blk m c t) (wgt1_blk m c t) (wgt2_blk m c t) (wgt3_blk m c t) y (((cfg0.win 8).blk t).view.emb y) ?_ ?_ ?_ ?_
  · show win0_8.index t (0 : Fin 4) * 16384 + 1 * (y 0).val = t.val * 16384 + (y 0).val; omega
  · show win0_8.index t (1 : Fin 4) * 4 + 1 * (y 1).val = (y 1).val; omega
  · show win0_8.index t (2 : Fin 4) * 4 + 1 * (y 2).val = (y 2).val; omega
  · show win0_8.index t (3 : Fin 4) * 2 + 1 * (y 3).val = (y 3).val; omega

/-- An index of the output array lies in point t's block iff each coordinate lies in the block's range on its axis. -/
theorem mem_blk (t : Fin cfg0.N) (i : S2097152x4x4x2.Idx) :
    i ∈ ((cfg0.win 8).blk t).view.set ↔ ∀ a : Fin 4, win0_8.index t a * S16384x4x4x2.size a ≤ (i a).val
      ∧ (i a).val < win0_8.index t a * S16384x4x4x2.size a + S16384x4x4x2.size a := by
  show i ∈ ((View.whole main_v163).slice (win0_8.rect t)).set ↔ _
  rw [View.set_slice_whole, Rect.mem_set_unit]
  exact Iff.rfl

/-- The 128 blocks tile the output array: the index (r, l, s, j) lies in the block of point r / 16384. -/
theorem cover (i : S2097152x4x4x2.Idx) :
    ∃ t : Fin cfg0.N, (cfg0.win 8).flush t = true ∧ i ∈ ((cfg0.win 8).blk t).view.set := by
  have hi0 : (i 0).val < 2097152 := (i 0).isLt
  have hi1 : (i 1).val < 4 := (i 1).isLt
  have hi2 : (i 2).val < 4 := (i 2).isLt
  have hi3 : (i 3).val < 2 := (i 3).isLt
  have hN : cfg0.N = 128 := N_0
  have ht : (i 0).val / 16384 < cfg0.N := by rw [hN]; omega
  obtain ⟨e0, e1, e2, e3⟩ := index8 ⟨(i 0).val / 16384, ht⟩
  have e0' : win0_8.index ⟨(i 0).val / 16384, ht⟩ (0 : Fin 4) = (i 0).val / 16384 := e0
  refine ⟨⟨(i 0).val / 16384, ht⟩, flush0_8 _, ?_⟩
  rw [mem_blk]
  intro a
  match a with
  | ⟨0, _⟩ =>
    show win0_8.index ⟨(i 0).val / 16384, ht⟩ (0 : Fin 4) * 16384 ≤ (i 0).val
      ∧ (i 0).val < win0_8.index ⟨(i 0).val / 16384, ht⟩ (0 : Fin 4) * 16384 + 16384
    omega
  | ⟨1, _⟩ =>
    show win0_8.index ⟨(i 0).val / 16384, ht⟩ (1 : Fin 4) * 4 ≤ (i 1).val
      ∧ (i 1).val < win0_8.index ⟨(i 0).val / 16384, ht⟩ (1 : Fin 4) * 4 + 4
    omega
  | ⟨2, _⟩ =>
    show win0_8.index ⟨(i 0).val / 16384, ht⟩ (2 : Fin 4) * 4 ≤ (i 2).val
      ∧ (i 2).val < win0_8.index ⟨(i 0).val / 16384, ht⟩ (2 : Fin 4) * 4 + 4
    omega
  | ⟨3, _⟩ =>
    show win0_8.index ⟨(i 0).val / 16384, ht⟩ (3 : Fin 4) * 2 ≤ (i 3).val
      ∧ (i 3).val < win0_8.index ⟨(i 0).val / 16384, ht⟩ (3 : Fin 4) * 2 + 2
    omega

/-- So the output array ends holding the specification's result of the eight whole arrays. -/
theorem final (c : Dev nD) : (dats m 0 c).arrAt 8 cfg0.N = combined m c :=
  (dats m 0 c).arrAt_eq_of_cover 8 (combined m c) (fun t _ => flushed_eq m c t) cover

/-! ## The operation after the region, and the run -/

/-- The one operation after the region reads the output array, which no other operation touches, and lays it out as
    [B, 32]; the element type does not change. -/
theorem result_eq (c : Dev nD) :
    Pipeline.afterTail₀ cfgs (dats m) 0 (V0 m) [hostOps1] c main_v164
      = shapeCast S2097152x32 (combined m c) shapeCasts_S2097152x4x4x2_S2097152x32 := by
  have hw : Pipeline.withArrays (cfgs 0).spec c (V0 m c) (fun w => (dats m 0 c).arrAt w (cfgs 0).N)
      (Proc.devRef .tc main_v163) = combined m c :=
    (Pipeline.withArrays_arr spec0 launch0.win.arr_inj c (V0 m c) (fun w => (dats m 0 c).arrAt w cfg0.N) 8).trans (final m c)
  unfold Pipeline.afterTail₀
  show StableHlo.after hostOps1 _ (Proc.devRef .tc main_v164) = _
  after_results
  funext i
  show shapeCast S2097152x32 (Pipeline.withArrays (cfgs 0).spec c (V0 m c) (fun w => (dats m 0 c).arrAt w (cfgs 0).N)
      (Proc.devRef .tc main_v163)) shapeCasts_S2097152x4x4x2_S2097152x32 i = _
  rw [hw]

/-- Every weakly fair execution of the kernel program terminates with its result buffer at the specification's result
    of the eight arrays, laid out as [B, 32], and its arguments unchanged. -/
theorem run : θ_run (defs (F := Ideal)) (onTc (τ := τ) (main (F := Ideal))) ⟨m, fun _ => 0, ρ⟩ (fun r => ∀ c : Dev nD,
    r.2.mem ((c.tc : Thread nD τ).loc main_v164)
      = shapeCast S2097152x32
          (TriPlane.combine (feat0 m c) (feat1 m c) (feat2 m c) (feat3 m c) (wgt0 m c) (wgt1 m c) (wgt2 m c) (wgt3 m c))
          shapeCasts_S2097152x4x4x2_S2097152x32
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨((h c).2 main_v164 (Pipeline.mem_restRefs_of main_v164 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Out

end
-- ==== Proof.RefTail.lean ====
/-
  The reference's last operations, as one function of the four gathered feature arrays and the four weight arrays.

  Starting from the zero array the reference adds, corner by corner, the corner's weights (spread over the two
  features) times the corner's features; it then cuts the three planes out of that sum, multiplies them, puts the
  product behind the three planes as a fourth slot, and lays the [B, 4, 4, 2] array out as [B, 32].
  Index by index this is the blend and the plane product of the specification: adding to zero changes nothing and the
  product of two extended reals does not depend on their order.
-/
import proofs.«158488_j36910948941984_1_alg».proof.Proof.Spec
import proofs.«158488_j36910948941984_1_alg».proof.Proof.Gen.ReferenceIdeal
import Idealize.ShloMosaic.Lib.Pipeline.Value
import Idealize.ShloMosaic.Lib.ValueLayout
import Idealize.ShloMosaic.PureOps.Ideal.Laws

noncomputable section

namespace Cert.ReferenceIdeal.Tail

open Cert.ReferenceIdeal Cert.ReferenceIdeal.Gen Idealize.ShloMosaic Idealize.ShloMosaic.ValueIdx

/-- One corner's term: the weights, given a unit feature axis and spread over both features, times the features. -/
def corner (w : FVec Ideal S2097152x4x3 .f32) (f : FVec Ideal S2097152x4x3x2 .f32) : FVec Ideal S2097152x4x3x2 .f32 :=
  mulf (broadcastInDim S2097152x4x3x2 ![0, 1, 2, 3] bcast_S2097152x4x3x1_S2097152x4x3x2_0_1_2_3
    (broadcastInDim S2097152x4x3x1 ![0, 1, 2] bcast_S2097152x4x3_S2097152x4x3x1_0_1_2 w)) f

/-- The four corners added to the zero array, in order. -/
def acc (f0 f1 f2 f3 : FVec Ideal S2097152x4x3x2 .f32) (w0 w1 w2 w3 : FVec Ideal S2097152x4x3 .f32) :
    FVec Ideal S2097152x4x3x2 .f32 :=
  addf (addf (addf (addf (broadcastInDim S2097152x4x3x2 ![] bcast_S_S2097152x4x3x2 (constant S_ .f32 0x00000000#32))
    (corner w0 f0)) (corner w1 f1)) (corner w2 f2)) (corner w3 f3)

/-- The result: the three planes and, behind them, their product, laid out as [B, 32]. -/
def out (f0 f1 f2 f3 : FVec Ideal S2097152x4x3x2 .f32) (w0 w1 w2 w3 : FVec Ideal S2097152x4x3 .f32) :
    FVec Ideal S2097152x32 .f32 :=
  shapeCast S2097152x32
    (concatenate S2097152x4x4x2 2
      [⟨S2097152x4x3x2, acc f0 f1 f2 f3 w0 w1 w2 w3⟩,
       ⟨S2097152x4x1x2, broadcastInDim S2097152x4x1x2 ![0, 1, 3] bcast_S2097152x4x2_S2097152x4x1x2_0_1_3
          (mulf (mulf
            (shapeCast S2097152x4x2 (extractStridedSlice S2097152x4x1x2 ![0, 0, 0, 0] (acc f0 f1 f2 f3 w0 w1 w2 w3) slices_S2097152x4x3x2_S2097152x4x1x2_0_0_0_0) shapeCasts_S2097152x4x1x2_S2097152x4x2)
            (shapeCast S2097152x4x2 (extractStridedSlice S2097152x4x1x2 ![0, 0, 1, 0] (acc f0 f1 f2 f3 w0 w1 w2 w3) slices_S2097152x4x3x2_S2097152x4x1x2_0_0_1_0) shapeCasts_S2097152x4x1x2_S2097152x4x2))
            (shapeCast S2097152x4x2 (extractStridedSlice S2097152x4x1x2 ![0, 0, 2, 0] (acc f0 f1 f2 f3 w0 w1 w2 w3) slices_S2097152x4x3x2_S2097152x4x1x2_0_0_2_0) shapeCasts_S2097152x4x1x2_S2097152x4x2))⟩]
      concatenates_S2097152x4x3x2_S2097152x4x1x2_S2097152x4x4x2_d2)
    shapeCasts_S2097152x4x4x2_S2097152x32

/-- The weights spread over the feature axis, read at point b, level l, plane p, feature j: the weight at (b, l, p). -/
theorem spread_apply (w : FVec Ideal S2097152x4x3 .f32) (b : Fin 2097152) (l : Fin 4) (p : Fin 3) (j : Fin 2) :
    broadcastInDim S2097152x4x3x2 ![0, 1, 2, 3] bcast_S2097152x4x3x1_S2097152x4x3x2_0_1_2_3
      (broadcastInDim S2097152x4x3x1 ![0, 1, 2] bcast_S2097152x4x3_S2097152x4x3x1_0_1_2 w) (ix4 b l p j)
      = w (ix3 b l p) := by
  refine (broadcastInDim_apply _ _ _ (ix4 b l p j) (ix4 b l p (0 : Fin 1)) (fun a => ?_)).trans ?_
  · match a with
    | ⟨0, _⟩ => rfl
    | ⟨1, _⟩ => rfl
    | ⟨2, _⟩ => rfl
    | ⟨3, _⟩ => rfl
  · refine broadcastInDim_apply _ _ _ (ix4 b l p (0 : Fin 1)) (ix3 b l p) (fun a => ?_)
    match a with
    | ⟨0, _⟩ => rfl
    | ⟨1, _⟩ => rfl
    | ⟨2, _⟩ => rfl

/-- One corner's term at an index: weight times feature. -/
theorem corner_apply (w : FVec Ideal S2097152x4x3 .f32) (f : FVec Ideal S2097152x4x3x2 .f32)
    (b : Fin 2097152) (l : Fin 4) (p : Fin 3) (j : Fin 2) :
    corner w f (ix4 b l p j) = w (ix3 b l p) * f (ix4 b l p j) := by
  unfold corner
  rw [mulf_apply, spread_apply]

/-- The zero array at an index. -/
theorem zero_apply (i : S2097152x4x3x2.Idx) :
    broadcastInDim S2097152x4x3x2 ![] bcast_S_S2097152x4x3x2 (constant (F := Ideal) S_ .f32 0x00000000#32) i = (0 : EReal) := by
  refine (broadcastInDim_apply _ _ _ i ix0 (fun a => a.elim0)).trans ?_
  rw [constant_apply]
  exact Ideal.ofBits_zero_f32

/-- The sum of the four corners at an index is the blend there: the leading zero drops out and each product is turned round. -/
theorem acc_apply (f0 f1 f2 f3 : FVec Ideal S2097152x4x3x2 .f32) (w0 w1 w2 w3 : FVec Ideal S2097152x4x3 .f32)
    (b : Fin 2097152) (l : Fin 4) (p : Fin 3) (j : Fin 2) :
    acc f0 f1 f2 f3 w0 w1 w2 w3 (ix4 b l p j) = TriPlane.blend f0 f1 f2 f3 w0 w1 w2 w3 b l p j := by
  unfold acc TriPlane.blend
  rw [addf_apply, addf_apply, addf_apply, addf_apply, zero_apply, corner_apply, corner_apply, corner_apply, corner_apply,
    zero_add, mul_comm (w0 _), mul_comm (w1 _), mul_comm (w2 _), mul_comm (w3 _)]

/-- Plane q cut out of a [B, 4, 3, 2] array and viewed as [B, 4, 2], at (b, l, j): the array at (b, l, q, j). -/
theorem plane_apply {α : Type} (X : S2097152x4x3x2.Idx → α) (o : Nat) (h : S2097152x4x3x2.Slices ![0, 0, o, 0] S2097152x4x1x2)
    (q : Fin 3) (hq : q.val = o) (b : Fin 2097152) (l : Fin 4) (j : Fin 2) :
    shapeCast S2097152x4x2 (extractStridedSlice S2097152x4x1x2 ![0, 0, o, 0] X h) shapeCasts_S2097152x4x1x2_S2097152x4x2 (ix3 b l j)
      = X (ix4 b l q j) := by
  refine (shapeCast_apply _ _ (ix3 b l j) (ix4 b l (0 : Fin 1) j) ?_).trans ?_
  · rw [Shape.rowMajor_val_four, Shape.rowMajor_val_three]
    show ((b.val * 4 + l.val) * 1 + 0) * 2 + j.val = (b.val * 4 + l.val) * 2 + j.val
    omega
  · exact slice4_axis2_apply o X h b l (0 : Fin 1) j q (by rw [hq]; rfl)

/-- A [B, 4, 2] array given a unit plane axis, at (b, l, 0, j): the array at (b, l, j). -/
theorem unitPlane_apply {α : Type} (X : S2097152x4x2.Idx → α) (b : Fin 2097152) (l : Fin 4) (j : Fin 2) :
    broadcastInDim S2097152x4x1x2 ![0, 1, 3] bcast_S2097152x4x2_S2097152x4x1x2_0_1_3 X (ix4 b l (0 : Fin 1) j) = X (ix3 b l j) := by
  refine broadcastInDim_apply _ _ _ (ix4 b l (0 : Fin 1) j) (ix3 b l j) (fun a => ?_)
  match a with
  | ⟨0, _⟩ => rfl
  | ⟨1, _⟩ => rfl
  | ⟨2, _⟩ => rfl

/-- The [B, 4, 4, 2] array under the final layout change is the specification's result. -/
theorem out_eq (f0 f1 f2 f3 : FVec Ideal S2097152x4x3x2 .f32) (w0 w1 w2 w3 : FVec Ideal S2097152x4x3 .f32) :
    out f0 f1 f2 f3 w0 w1 w2 w3
      = shapeCast S2097152x32 (TriPlane.combine f0 f1 f2 f3 w0 w1 w2 w3) shapeCasts_S2097152x4x4x2_S2097152x32 := by
  unfold out
  refine congrArg (fun v => shapeCast S2097152x32 v shapeCasts_S2097152x4x4x2_S2097152x32) ?_
  funext i
  obtain ⟨b, l, p, j, rfl⟩ : ∃ (b : Fin 2097152) (l : Fin 4) (p : Fin 4) (j : Fin 2), i = ix4 b l p j :=
    ⟨i 0, i 1, i 2, i 3, eq_ix4 i⟩
  by_cases hp : p.val < 3
  · -- a plane slot: the first piece, the sum of the corners
    obtain ⟨q, rfl⟩ : ∃ q : Fin 3, p = ⟨q.val, Nat.lt_succ_of_lt q.isLt⟩ := ⟨⟨p.val, hp⟩, rfl⟩
    rw [TriPlane.combine_plane]
    refine (concatenate_pair_apply_left (t := S2097152x4x4x2) (s₁ := S2097152x4x3x2) (s₂ := S2097152x4x1x2) (2 : Fin 4) _ _ _
      (ix4 b l (⟨q.val, Nat.lt_succ_of_lt q.isLt⟩ : Fin 4) j) rfl (ix4 b l q j) (fun a => ?_)).trans
      (acc_apply f0 f1 f2 f3 w0 w1 w2 w3 b l q j)
    match a with
    | ⟨0, _⟩ => rfl
    | ⟨1, _⟩ => rfl
    | ⟨2, _⟩ => rfl
    | ⟨3, _⟩ => rfl
  · -- the last slot: the second piece, the product of the three planes
    obtain rfl : p = (3 : Fin 4) := Fin.ext (by have := p.isLt; omega)
    rw [TriPlane.combine_prod]
    refine (concatenate_pair_apply_right (t := S2097152x4x4x2) (s₁ := S2097152x4x3x2) (s₂ := S2097152x4x1x2) (2 : Fin 4) _ _ _
      (ix4 b l (3 : Fin 4) j) rfl rfl (ix4 b l (0 : Fin 1) j) (fun a ha => ?_) rfl).trans ?_
    · match a with
      | ⟨0, _⟩ => rfl
      | ⟨1, _⟩ => rfl
      | ⟨2, _⟩ => exact absurd rfl ha
      | ⟨3, _⟩ => rfl
    · rw [unitPlane_apply, mulf_apply, mulf_apply,
        plane_apply _ 0 _ (0 : Fin 3) rfl, plane_apply _ 1 _ (1 : Fin 3) rfl, plane_apply _ 2 _ (2 : Fin 3) rfl,
        acc_apply, acc_apply, acc_apply]
      rfl

end Cert.ReferenceIdeal.Tail

end
-- ==== Proof.RefOps.lean ====
/-
  The host operations of the reference program, in the order the printed program runs them, one list per
  window of sixty statements, and beside each list the statement that each of its operations reads and
  writes TensorCore references only. A table: each entry is the operation of one printed line.
-/
import proofs.«158488_j36910948941984_1_alg».proof.Proof.Gen.ReferenceIdeal
import Idealize.ShloMosaic.Lib.StableHlo.Run

set_option maxRecDepth 8192

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60 of 241 (window main_part0). -/
abbrev ops_part0 : List (HloOp τ sig (Elt F)) :=
  [ StableHlo.nullary main_cst (fun i => FloatOps.ofBits .f32 (lit0 (S4.rowMajor i))),
    StableHlo.nullary main_c (fun i => lit1 (S4.rowMajor i)),
    StableHlo.nullary main_c_0 (fun i => lit2 (S3.rowMajor i)),
    StableHlo.nullary main_c_1 (fun i => lit3 (S3.rowMajor i)),
    StableHlo.unary main_arg0 main_v0 (broadcastInDim S2097152x1x3 ![0, 2] bcast_S2097152x3_S2097152x1x3_0_2 : (⟨S2097152x3, .f32⟩ : BufTy).Contents (Elt F) → (⟨S2097152x1x3, .f32⟩ : BufTy).Contents (Elt F)),
    StableHlo.unary main_cst main_v1 (broadcastInDim S1x4x1 ![1] bcast_S4_S1x4x1_1 : (⟨S4, .f32⟩ : BufTy).Contents (Elt F) → (⟨S1x4x1, .f32⟩ : BufTy).Contents (Elt F)),
    StableHlo.nullary main_cst_2 (constant S_ .f32 0x3F800000#32),
    StableHlo.unary main_cst_2 main_v2 (broadcastInDim S1x4x1 ![] bcast_S_S1x4x1 : (⟨S_, .f32⟩ : BufTy).Contents (Elt F) → (⟨S1x4x1, .f32⟩ : BufTy).Contents (Elt F)),
    StableHlo.binary main_v1 main_v2 main_v3 (subf : (⟨S1x4x1, .f32⟩ : BufTy).Contents (Elt F) → (⟨S1x4x1, .f32⟩ : BufTy).Contents (Elt F) → (⟨S1x4x1, .f32⟩ : BufTy).Contents (Elt F)),
    StableHlo.unary main_v0 main_v4 (broadcastInDim S2097152x4x3 ![0, 1, 2] bcast_S2097152x1x3_S2097152x4x3_0_1_2 : (⟨S2097152x1x3, .f32⟩ : BufTy).Contents (Elt F) → (⟨S2097152x4x3, .f32⟩ : BufTy).Contents (Elt F)),
    StableHlo.unary main_v3 main_v5 (broadcastInDim S2097152x4x3 ![0, 1, 2] bcast_S1x4x1_S2097152x4x3_0_1_2 : (⟨S1x4x1, .f32⟩ : BufTy).Contents (Elt F) → (⟨S2097152x4x3, .f32⟩ : BufTy).Contents (Elt F)),
    StableHlo.binary main_v4 main_v5 main_v6 (mulf : (⟨S2097152x4x3, .f32⟩ : BufTy).Contents (Elt F) → (⟨S2097152x4x3, .f32⟩ : BufTy).Contents (Elt F) → (⟨S2097152x4x3, .f32⟩ : BufTy).Contents (Elt F)),
    StableHlo.nullary main_cst_3 (constant S_ .f32 0x3F000000#32),
    StableHlo.unary main_cst_3 main_v7 (broadcastInDim S2097152x4x3 ![] bcast_S_S2097152x4x3 : (⟨S_, .f32⟩ : BufTy).Contents (Elt F) → (⟨S2097152x4x3, .f32⟩ : BufTy).Contents (Elt F)),
    StableHlo.binary main_v6 main_v7 main_v8 (addf : (⟨S2097152x4x3, .f32⟩ : BufTy).Contents (Elt F) → (⟨S2097152x4x3, .f32⟩ : BufTy).Contents (Elt F) → (⟨S2097152x4x3, .f32⟩ : BufTy).Contents (Elt F)),
    StableHlo.unary main_v8 main_v9 (Host.floor : (⟨S2097152x4x3, .f32⟩ : BufTy).Contents (Elt F) → (⟨S2097152x4x3, .f32⟩ : BufTy).Contents (Elt F)),
    StableHlo.unary main_v9 main_v10 (fptosi 32 : (⟨S2097152x4x3, .f32⟩ : BufTy).Contents (Elt F) → (⟨S2097152x4x3, .i32⟩ : BufTy).Contents (Elt F)),
    StableHlo.unary main_v10 main_v11 (sitofp .f32 : (⟨S2097152x4x3, .i32⟩ : BufTy).Contents (Elt F) → (⟨S2097152x4x3, .f32⟩ : BufTy).Contents (Elt F)),
    StableHlo.binary main_v8 main_v11 main_v12 (subf : (⟨S2097152x4x3, .f32⟩ : BufTy).Contents (Elt F) → (⟨S2097152x4x3, .f32⟩ : BufTy).Contents (Elt F) → (⟨S2097152x4x3, .f32⟩ : BufTy).Contents (Elt F)),
    StableHlo.nullary main_c_4 (constantI S_ 32 0#32),
    StableHlo.unary main_c_4 main_v13 (broadcastInDim S3 ![] bcast_S_S3 : (⟨S_, .i32⟩ : BufTy).Contents (Elt F) → (⟨S3, .i32⟩ : BufTy).Contents (Elt F)),
    StableHlo.binary main_c_0 main_v13 main_v14 (cmpi .slt : (⟨S3, .i32⟩ : BufTy).Contents (Elt F) → (⟨S3, .i32⟩ : BufTy).Contents (Elt F) → (⟨S3, .i1⟩ : BufTy).Contents (Elt F)),
    StableHlo.nullary main_c_5 (constantI S_ 32 3#32),
    StableHlo.unary main_c_5 main_v15 (broadcastInDim S3 ![] bcast_S_S3 : (⟨S_, .i32⟩ : BufTy).Contents (Elt F) → (⟨S3, .i32⟩ : BufTy).Contents (Elt F)),
    StableHlo.binary main_c_0 main_v15 main_v16 (addi : (⟨S3, .i32⟩ : BufTy).Contents (Elt F) → (⟨S3, .i32⟩ : BufTy).Contents (Elt F) → (⟨S3, .i32⟩ : BufTy).Contents (Elt F)),
    StableHlo.ternary main_v14 main_v16 main_c_0 main_v17 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v17 main_v18 (broadcastInDim S3x1 ![0] bcast_S3_S3x1_0 : (⟨S3, .i32⟩ : BufTy).Contents (Elt F) → (⟨S3x1, .i32⟩ : BufTy).Contents (Elt F)),
    StableHlo.binary main_v12 main_v18 main_v19 ((fun x i => Host.gather gather_S2097152x4x3_S3x1_S2097152x4x3_01_2_n_n_2_1_209715241 x i) : (⟨S2097152x4x3, .f32⟩ : BufTy).Contents (Elt F) → (⟨S3x1, .i32⟩ : BufTy).Contents (Elt F) → (⟨S2097152x4x3, .f32⟩ : BufTy).Contents (Elt F)),
    StableHlo.nullary main_c_6 (constantI S_ 32 0#32),
    StableHlo.unary main_c_6 main_v20 (broadcastInDim S3 ![] bcast_S_S3 : (⟨S_, .i32⟩ : BufTy).Contents (Elt F) → (⟨S3, .i32⟩ : BufTy).Contents (Elt F)),
    StableHlo.binary main_c_1 main_v20 main_v21 (cmpi .slt : (⟨S3, .i32⟩ : BufTy).Contents (Elt F) → (⟨S3, .i32⟩ : BufTy).Contents (Elt F) → (⟨S3, .i1⟩ : BufTy).Contents (Elt F)),
    StableHlo.nullary main_c_7 (constantI S_ 32 3#32),
    StableHlo.unary main_c_7 main_v22 (broadcastInDim S3 ![] bcast_S_S3 : (⟨S_, .i32⟩ : BufTy).Contents (Elt F) → (⟨S3, .i32⟩ : BufTy).Contents (Elt F)),
    StableHlo.binary main_c_1 main_v22 main_v23 (addi : (⟨S3, .i32⟩ : BufTy).Contents (Elt F) → (⟨S3, .i32⟩ : BufTy).Contents (Elt F) → (⟨S3, .i32⟩ : BufTy).Contents (Elt F)),
    StableHlo.ternary main_v21 main_v23 main_c_1 main_v24 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v24 main_v25 (broadcastInDim S3x1 ![0] bcast_S3_S3x1_0 : (⟨S3, .i32⟩ : BufTy).Contents (Elt F) → (⟨S3x1, .i32⟩ : BufTy).Contents (Elt F)),
    StableHlo.binary main_v12 main_v25 main_v26 ((fun x i => Host.gather gather_S2097152x4x3_S3x1_S2097152x4x3_01_2_n_n_2_1_209715241 x i) : (⟨S2097152x4x3, .f32⟩ : BufTy).Contents (Elt F) → (⟨S3x1, .i32⟩ : BufTy).Contents (Elt F) → (⟨S2097152x4x3, .f32⟩ : BufTy).Contents (Elt F)),
    StableHlo.nullary main_c_8 (constantI S_ 32 0#32),
    StableHlo.unary main_c_8 main_v27 (broadcastInDim S3 ![] bcast_S_S3 : (⟨S_, .i32⟩ : BufTy).Contents (Elt F) → (⟨S3, .i32⟩ : BufTy).Contents (Elt F)),
    StableHlo.binary main_c_0 main_v27 main_v28 (cmpi .slt : (⟨S3, .i32⟩ : BufTy).Contents (Elt F) → (⟨S3, .i32⟩ : BufTy).Contents (Elt F) → (⟨S3, .i1⟩ : BufTy).Contents (Elt F)),
    StableHlo.nullary main_c_9 (constantI S_ 32 3#32),
    StableHlo.unary main_c_9 main_v29 (broadcastInDim S3 ![] bcast_S_S3 : (⟨S_, .i32⟩ : BufTy).Contents (Elt F) → (⟨S3, .i32⟩ : BufTy).Contents (Elt F)),
    StableHlo.binary main_c_0 main_v29 main_v30 (addi : (⟨S3, .i32⟩ : BufTy).Contents (Elt F) → (⟨S3, .i32⟩ : BufTy).Contents (Elt F) → (⟨S3, .i32⟩ : BufTy).Contents (Elt F)),
    StableHlo.ternary main_v28 main_v30 main_c_0 main_v31 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v31 main_v32 (broadcastInDim S3x1 ![0] bcast_S3_S3x1_0 : (⟨S3, .i32⟩ : BufTy).Contents (Elt F) → (⟨S3x1, .i32⟩ : BufTy).Contents (Elt F)),
    StableHlo.binary main_v10 main_v32 main_v33 ((fun x i => Host.gather gather_S2097152x4x3_S3x1_S2097152x4x3_01_2_n_n_2_1_209715241 x i) : (⟨S2097152x4x3, .i32⟩ : BufTy).Contents (Elt F) → (⟨S3x1, .i32⟩ : BufTy).Contents (Elt F) → (⟨S2097152x4x3, .i32⟩ : BufTy).Contents (Elt F)),
    StableHlo.nullary main_c_10 (constantI S_ 32 0#32),
    StableHlo.unary main_c_10 main_v34 (broadcastInDim S3 ![] bcast_S_S3 : (⟨S_, .i32⟩ : BufTy).Contents (Elt F) → (⟨S3, .i32⟩ : BufTy).Contents (Elt F)),
    StableHlo.binary main_c_1 main_v34 main_v35 (cmpi .slt : (⟨S3, .i32⟩ : BufTy).Contents (Elt F) → (⟨S3, .i32⟩ : BufTy).Contents (Elt F) → (⟨S3, .i1⟩ : BufTy).Contents (Elt F)),
    StableHlo.nullary main_c_11 (constantI S_ 32 3#32),
    StableHlo.unary main_c_11 main_v36 (broadcastInDim S3 ![] bcast_S_S3 : (⟨S_, .i32⟩ : BufTy).Contents (Elt F) → (⟨S3, .i32⟩ : BufTy).Contents (Elt F)),
    StableHlo.binary main_c_1 main_v36 main_v37 (addi : (⟨S3, .i32⟩ : BufTy).Contents (Elt F) → (⟨S3, .i32⟩ : BufTy).Contents (Elt F) → (⟨S3, .i32⟩ : BufTy).Contents (Elt F)),
    StableHlo.ternary main_v35 main_v37 main_c_1 main_v38 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v38 main_v39 (broadcastInDim S3x1 ![0] bcast_S3_S3x1_0 : (⟨S3, .i32⟩ : BufTy).Contents (Elt F) → (⟨S3x1, .i32⟩ : BufTy).Contents (Elt F)),
    StableHlo.binary main_v10 main_v39 main_v40 ((fun x i => Host.gather gather_S2097152x4x3_S3x1_S2097152x4x3_01_2_n_n_2_1_209715241 x i) : (⟨S2097152x4x3, .i32⟩ : BufTy).Contents (Elt F) → (⟨S3x1, .i32⟩ : BufTy).Contents (Elt F) → (⟨S2097152x4x3, .i32⟩ : BufTy).Contents (Elt F)),
    StableHlo.reshape main_arg1 main_v41 rfl shapeCasts_S6291456_S3x1048576x2,
    StableHlo.nullary main_v42 (iotaInDim S3 32 0),
    StableHlo.unary main_v42 main_v43 (broadcastInDim S1x1x3 ![2] bcast_S3_S1x1x3_2 : (⟨S3, .i32⟩ : BufTy).Contents (Elt F) → (⟨S1x1x3, .i32⟩ : BufTy).Contents (Elt F)),
    StableHlo.unary main_c main_v44 (broadcastInDim S1x4x1 ![1] bcast_S4_S1x4x1_1 : (⟨S4, .i32⟩ : BufTy).Contents (Elt F) → (⟨S1x4x1, .i32⟩ : BufTy).Contents (Elt F)),
    StableHlo.nullary main_cst_12 (constant S_ .f32 0x00000000#32) ]

set_option maxHeartbeats 4000000 in
theorem ops_part0_sub : (ops_part0 : List (HloOp τ sig (Elt F))).Forall fun op => op.bufs ⊆ tcRefs τ sig :=
  ⟨nullary_bufs_sub .., nullary_bufs_sub .., nullary_bufs_sub .., nullary_bufs_sub .., unary_bufs_sub .., unary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., unary_bufs_sub .., nullary_bufs_sub ..⟩

/-- Operations 61 … 120 of 241 (window main_part1). -/
abbrev ops_part1 : List (HloOp τ sig (Elt F)) :=
  [ StableHlo.unary main_cst_12 main_v45 (broadcastInDim S2097152x4x3x2 ![] bcast_S_S2097152x4x3x2 : (⟨S_, .f32⟩ : BufTy).Contents (Elt F) → (⟨S2097152x4x3x2, .f32⟩ : BufTy).Contents (Elt F)),
    StableHlo.nullary main_cst_13 (constant S_ .f32 0x3F800000#32),
    StableHlo.unary main_cst_13 main_v46 (broadcastInDim S2097152x4x3 ![] bcast_S_S2097152x4x3 : (⟨S_, .f32⟩ : BufTy).Contents (Elt F) → (⟨S2097152x4x3, .f32⟩ : BufTy).Contents (Elt F)),
    StableHlo.binary main_v46 main_v19 main_v47 (subf : (⟨S2097152x4x3, .f32⟩ : BufTy).Contents (Elt F) → (⟨S2097152x4x3, .f32⟩ : BufTy).Contents (Elt F) → (⟨S2097152x4x3, .f32⟩ : BufTy).Contents (Elt F)),
    StableHlo.nullary main_c_14 (constantI S_ 32 0#32),
    StableHlo.unary main_c_14 main_v48 (broadcastInDim S2097152x4x3 ![] bcast_S_S2097152x4x3 : (⟨S_, .i32⟩ : BufTy).Contents (Elt F) → (⟨S2097152x4x3, .i32⟩ : BufTy).Contents (Elt F)),
    StableHlo.binary main_v33 main_v48 main_v49 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v50 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v49 main_v50 main_v51 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_15 (constantI S_ 32 1023#32),
    StableHlo.unary main_c_15 main_v52 (broadcastInDim S2097152x4x3 ![] bcast_S_S2097152x4x3 : (⟨S_, .i32⟩ : BufTy).Contents (Elt F) → (⟨S2097152x4x3, .i32⟩ : BufTy).Contents (Elt F)),
    StableHlo.binary main_v51 main_v52 main_v53 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_cst_16 (constant S_ .f32 0x3F800000#32),
    StableHlo.unary main_cst_16 main_v54 (broadcastInDim S2097152x4x3 ![] bcast_S_S2097152x4x3 : (⟨S_, .f32⟩ : BufTy).Contents (Elt F) → (⟨S2097152x4x3, .f32⟩ : BufTy).Contents (Elt F)),
    StableHlo.binary main_v54 main_v26 main_v55 (subf : (⟨S2097152x4x3, .f32⟩ : BufTy).Contents (Elt F) → (⟨S2097152x4x3, .f32⟩ : BufTy).Contents (Elt F) → (⟨S2097152x4x3, .f32⟩ : BufTy).Contents (Elt F)),
    StableHlo.nullary main_c_17 (constantI S_ 32 0#32),
    StableHlo.unary main_c_17 main_v56 (broadcastInDim S2097152x4x3 ![] bcast_S_S2097152x4x3 : (⟨S_, .i32⟩ : BufTy).Contents (Elt F) → (⟨S2097152x4x3, .i32⟩ : BufTy).Contents (Elt F)),
    StableHlo.binary main_v40 main_v56 main_v57 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v58 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v57 main_v58 main_v59 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_18 (constantI S_ 32 1023#32),
    StableHlo.unary main_c_18 main_v60 (broadcastInDim S2097152x4x3 ![] bcast_S_S2097152x4x3 : (⟨S_, .i32⟩ : BufTy).Contents (Elt F) → (⟨S2097152x4x3, .i32⟩ : BufTy).Contents (Elt F)),
    StableHlo.binary main_v59 main_v60 main_v61 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_19 (constantI S_ 32 1024#32),
    StableHlo.unary main_c_19 main_v62 (broadcastInDim S2097152x4x3 ![] bcast_S_S2097152x4x3 : (⟨S_, .i32⟩ : BufTy).Contents (Elt F) → (⟨S2097152x4x3, .i32⟩ : BufTy).Contents (Elt F)),
    StableHlo.binary main_v61 main_v62 main_v63 (muli : (⟨S2097152x4x3, .i32⟩ : BufTy).Contents (Elt F) → (⟨S2097152x4x3, .i32⟩ : BufTy).Contents (Elt F) → (⟨S2097152x4x3, .i32⟩ : BufTy).Contents (Elt F)),
    StableHlo.binary main_v53 main_v63 main_v64 (addi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_20 (constantI S_ 32 0#32),
    StableHlo.unary main_c_20 main_v65 (broadcastInDim S1x1x3 ![] bcast_S_S1x1x3 : (⟨S_, .i32⟩ : BufTy).Contents (Elt F) → (⟨S1x1x3, .i32⟩ : BufTy).Contents (Elt F)),
    StableHlo.binary main_v43 main_v65 main_v66 (cmpi .slt : (⟨S1x1x3, .i32⟩ : BufTy).Contents (Elt F) → (⟨S1x1x3, .i32⟩ : BufTy).Contents (Elt F) → (⟨S1x1x3, .i1⟩ : BufTy).Contents (Elt F)),
    StableHlo.nullary main_c_21 (constantI S_ 32 3#32),
    StableHlo.unary main_c_21 main_v67 (broadcastInDim S1x1x3 ![] bcast_S_S1x1x3 : (⟨S_, .i32⟩ : BufTy).Contents (Elt F) → (⟨S1x1x3, .i32⟩ : BufTy).Contents (Elt F)),
    StableHlo.binary main_v43 main_v67 main_v68 (addi : (⟨S1x1x3, .i32⟩ : BufTy).Contents (Elt F) → (⟨S1x1x3, .i32⟩ : BufTy).Contents (Elt F) → (⟨S1x1x3, .i32⟩ : BufTy).Contents (Elt F)),
    StableHlo.ternary main_v66 main_v68 main_v43 main_v69 (select : (⟨S1x1x3, .i1⟩ : BufTy).Contents (Elt F) → (⟨S1x1x3, .i32⟩ : BufTy).Contents (Elt F) → (⟨S1x1x3, .i32⟩ : BufTy).Contents (Elt F) → (⟨S1x1x3, .i32⟩ : BufTy).Contents (Elt F)),
    StableHlo.nullary main_c_22 (constantI S_ 32 0#32),
    StableHlo.unary main_c_22 main_v70 (broadcastInDim S2097152x4x3 ![] bcast_S_S2097152x4x3 : (⟨S_, .i32⟩ : BufTy).Contents (Elt F) → (⟨S2097152x4x3, .i32⟩ : BufTy).Contents (Elt F)),
    StableHlo.binary main_v64 main_v70 main_v71 (cmpi .slt : (⟨S2097152x4x3, .i32⟩ : BufTy).Contents (Elt F) → (⟨S2097152x4x3, .i32⟩ : BufTy).Contents (Elt F) → (⟨S2097152x4x3, .i1⟩ : BufTy).Contents (Elt F)),
    StableHlo.nullary main_c_23 (constantI S_ 32 1048576#32),
    StableHlo.unary main_c_23 main_v72 (broadcastInDim S2097152x4x3 ![] bcast_S_S2097152x4x3 : (⟨S_, .i32⟩ : BufTy).Contents (Elt F) → (⟨S2097152x4x3, .i32⟩ : BufTy).Contents (Elt F)),
    StableHlo.binary main_v64 main_v72 main_v73 (addi : (⟨S2097152x4x3, .i32⟩ : BufTy).Contents (Elt F) → (⟨S2097152x4x3, .i32⟩ : BufTy).Contents (Elt F) → (⟨S2097152x4x3, .i32⟩ : BufTy).Contents (Elt F)),
    StableHlo.ternary main_v71 main_v73 main_v64 main_v74 (select : (⟨S2097152x4x3, .i1⟩ : BufTy).Contents (Elt F) → (⟨S2097152x4x3, .i32⟩ : BufTy).Contents (Elt F) → (⟨S2097152x4x3, .i32⟩ : BufTy).Contents (Elt F) → (⟨S2097152x4x3, .i32⟩ : BufTy).Contents (Elt F)),
    StableHlo.unary main_v69 main_v75 (broadcastInDim S2097152x4x3 ![0, 1, 2] bcast_S1x1x3_S2097152x4x3_0_1_2 : (⟨S1x1x3, .i32⟩ : BufTy).Contents (Elt F) → (⟨S2097152x4x3, .i32⟩ : BufTy).Contents (Elt F)),
    StableHlo.unary main_v75 main_v76 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.unary main_v74 main_v77 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.binary main_v76 main_v77 main_v78 ((fun a b => concatenate S2097152x4x3x2 3 [⟨S2097152x4x3x1, a⟩, ⟨S2097152x4x3x1, b⟩] concatenates_S2097152x4x3x1_S2097152x4x3x1_S2097152x4x3x2_d3) : (⟨S2097152x4x3x1, .i32⟩ : BufTy).Contents (Elt F) → (⟨S2097152x4x3x1, .i32⟩ : BufTy).Contents (Elt F) → (⟨S2097152x4x3x2, .i32⟩ : BufTy).Contents (Elt F)),
    StableHlo.binary main_v41 main_v78 main_v79 ((fun x i => Host.gather gather_S3x1048576x2_S2097152x4x3x2_S2097152x4x3x2_3_01_n_n_01_3_112 x i) : (⟨S3x1048576x2, .f32⟩ : BufTy).Contents (Elt F) → (⟨S2097152x4x3x2, .i32⟩ : BufTy).Contents (Elt F) → (⟨S2097152x4x3x2, .f32⟩ : BufTy).Contents (Elt F)),
    StableHlo.binary main_v47 main_v55 main_v80 (mulf : (⟨S2097152x4x3, .f32⟩ : BufTy).Contents (Elt F) → (⟨S2097152x4x3, .f32⟩ : BufTy).Contents (Elt F) → (⟨S2097152x4x3, .f32⟩ : BufTy).Contents (Elt F)),
    StableHlo.unary main_v80 main_v81 (broadcastInDim S2097152x4x3x1 ![0, 1, 2] bcast_S2097152x4x3_S2097152x4x3x1_0_1_2 : (⟨S2097152x4x3, .f32⟩ : BufTy).Contents (Elt F) → (⟨S2097152x4x3x1, .f32⟩ : BufTy).Contents (Elt F)),
    StableHlo.unary main_v81 main_v82 (broadcastInDim S2097152x4x3x2 ![0, 1, 2, 3] bcast_S2097152x4x3x1_S2097152x4x3x2_0_1_2_3 : (⟨S2097152x4x3x1, .f32⟩ : BufTy).Contents (Elt F) → (⟨S2097152x4x3x2, .f32⟩ : BufTy).Contents (Elt F)),
    StableHlo.binary main_v82 main_v79 main_v83 (mulf : (⟨S2097152x4x3x2, .f32⟩ : BufTy).Contents (Elt F) → (⟨S2097152x4x3x2, .f32⟩ : BufTy).Contents (Elt F) → (⟨S2097152x4x3x2, .f32⟩ : BufTy).Contents (Elt F)),
    StableHlo.binary main_v45 main_v83 main_v84 (addf : (⟨S2097152x4x3x2, .f32⟩ : BufTy).Contents (Elt F) → (⟨S2097152x4x3x2, .f32⟩ : BufTy).Contents (Elt F) → (⟨S2097152x4x3x2, .f32⟩ : BufTy).Contents (Elt F)),
    StableHlo.nullary main_c_24 (constantI S_ 32 1#32),
    StableHlo.unary main_c_24 main_v85 (broadcastInDim S2097152x4x3 ![] bcast_S_S2097152x4x3 : (⟨S_, .i32⟩ : BufTy).Contents (Elt F) → (⟨S2097152x4x3, .i32⟩ : BufTy).Contents (Elt F)),
    StableHlo.binary main_v40 main_v85 main_v86 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v87 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v86 main_v87 main_v88 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_25 (constantI S_ 32 1023#32),
    StableHlo.unary main_c_25 main_v89 (broadcastInDim S2097152x4x3 ![] bcast_S_S2097152x4x3 : (⟨S_, .i32⟩ : BufTy).Contents (Elt F) → (⟨S2097152x4x3, .i32⟩ : BufTy).Contents (Elt F)),
    StableHlo.binary main_v88 main_v89 main_v90 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_26 (constantI S_ 32 1024#32) ]

set_option maxHeartbeats 4000000 in
theorem ops_part1_sub : (ops_part1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub ..⟩

/-- Operations 121 … 180 of 241 (window main_part2). -/
abbrev ops_part2 : List (HloOp τ sig (Elt F)) :=
  [ StableHlo.unary main_c_26 main_v91 (broadcastInDim S2097152x4x3 ![] bcast_S_S2097152x4x3 : (⟨S_, .i32⟩ : BufTy).Contents (Elt F) → (⟨S2097152x4x3, .i32⟩ : BufTy).Contents (Elt F)),
    StableHlo.binary main_v90 main_v91 main_v92 (muli : (⟨S2097152x4x3, .i32⟩ : BufTy).Contents (Elt F) → (⟨S2097152x4x3, .i32⟩ : BufTy).Contents (Elt F) → (⟨S2097152x4x3, .i32⟩ : BufTy).Contents (Elt F)),
    StableHlo.binary main_v53 main_v92 main_v93 (addi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_27 (constantI S_ 32 0#32),
    StableHlo.unary main_c_27 main_v94 (broadcastInDim S1x1x3 ![] bcast_S_S1x1x3 : (⟨S_, .i32⟩ : BufTy).Contents (Elt F) → (⟨S1x1x3, .i32⟩ : BufTy).Contents (Elt F)),
    StableHlo.binary main_v43 main_v94 main_v95 (cmpi .slt : (⟨S1x1x3, .i32⟩ : BufTy).Contents (Elt F) → (⟨S1x1x3, .i32⟩ : BufTy).Contents (Elt F) → (⟨S1x1x3, .i1⟩ : BufTy).Contents (Elt F)),
    StableHlo.nullary main_c_28 (constantI S_ 32 3#32),
    StableHlo.unary main_c_28 main_v96 (broadcastInDim S1x1x3 ![] bcast_S_S1x1x3 : (⟨S_, .i32⟩ : BufTy).Contents (Elt F) → (⟨S1x1x3, .i32⟩ : BufTy).Contents (Elt F)),
    StableHlo.binary main_v43 main_v96 main_v97 (addi : (⟨S1x1x3, .i32⟩ : BufTy).Contents (Elt F) → (⟨S1x1x3, .i32⟩ : BufTy).Contents (Elt F) → (⟨S1x1x3, .i32⟩ : BufTy).Contents (Elt F)),
    StableHlo.ternary main_v95 main_v97 main_v43 main_v98 (select : (⟨S1x1x3, .i1⟩ : BufTy).Contents (Elt F) → (⟨S1x1x3, .i32⟩ : BufTy).Contents (Elt F) → (⟨S1x1x3, .i32⟩ : BufTy).Contents (Elt F) → (⟨S1x1x3, .i32⟩ : BufTy).Contents (Elt F)),
    StableHlo.nullary main_c_29 (constantI S_ 32 0#32),
    StableHlo.unary main_c_29 main_v99 (broadcastInDim S2097152x4x3 ![] bcast_S_S2097152x4x3 : (⟨S_, .i32⟩ : BufTy).Contents (Elt F) → (⟨S2097152x4x3, .i32⟩ : BufTy).Contents (Elt F)),
    StableHlo.binary main_v93 main_v99 main_v100 (cmpi .slt : (⟨S2097152x4x3, .i32⟩ : BufTy).Contents (Elt F) → (⟨S2097152x4x3, .i32⟩ : BufTy).Contents (Elt F) → (⟨S2097152x4x3, .i1⟩ : BufTy).Contents (Elt F)),
    StableHlo.nullary main_c_30 (constantI S_ 32 1048576#32),
    StableHlo.unary main_c_30 main_v101 (broadcastInDim S2097152x4x3 ![] bcast_S_S2097152x4x3 : (⟨S_, .i32⟩ : BufTy).Contents (Elt F) → (⟨S2097152x4x3, .i32⟩ : BufTy).Contents (Elt F)),
    StableHlo.binary main_v93 main_v101 main_v102 (addi : (⟨S2097152x4x3, .i32⟩ : BufTy).Contents (Elt F) → (⟨S2097152x4x3, .i32⟩ : BufTy).Contents (Elt F) → (⟨S2097152x4x3, .i32⟩ : BufTy).Contents (Elt F)),
    StableHlo.ternary main_v100 main_v102 main_v93 main_v103 (select : (⟨S2097152x4x3, .i1⟩ : BufTy).Contents (Elt F) → (⟨S2097152x4x3, .i32⟩ : BufTy).Contents (Elt F) → (⟨S2097152x4x3, .i32⟩ : BufTy).Contents (Elt F) → (⟨S2097152x4x3, .i32⟩ : BufTy).Contents (Elt F)),
    StableHlo.unary main_v98 main_v104 (broadcastInDim S2097152x4x3 ![0, 1, 2] bcast_S1x1x3_S2097152x4x3_0_1_2 : (⟨S1x1x3, .i32⟩ : BufTy).Contents (Elt F) → (⟨S2097152x4x3, .i32⟩ : BufTy).Contents (Elt F)),
    StableHlo.unary main_v104 main_v105 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.unary main_v103 main_v106 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.binary main_v105 main_v106 main_v107 ((fun a b => concatenate S2097152x4x3x2 3 [⟨S2097152x4x3x1, a⟩, ⟨S2097152x4x3x1, b⟩] concatenates_S2097152x4x3x1_S2097152x4x3x1_S2097152x4x3x2_d3) : (⟨S2097152x4x3x1, .i32⟩ : BufTy).Contents (Elt F) → (⟨S2097152x4x3x1, .i32⟩ : BufTy).Contents (Elt F) → (⟨S2097152x4x3x2, .i32⟩ : BufTy).Contents (Elt F)),
    StableHlo.binary main_v41 main_v107 main_v108 ((fun x i => Host.gather gather_S3x1048576x2_S2097152x4x3x2_S2097152x4x3x2_3_01_n_n_01_3_112 x i) : (⟨S3x1048576x2, .f32⟩ : BufTy).Contents (Elt F) → (⟨S2097152x4x3x2, .i32⟩ : BufTy).Contents (Elt F) → (⟨S2097152x4x3x2, .f32⟩ : BufTy).Contents (Elt F)),
    StableHlo.binary main_v47 main_v26 main_v109 (mulf : (⟨S2097152x4x3, .f32⟩ : BufTy).Contents (Elt F) → (⟨S2097152x4x3, .f32⟩ : BufTy).Contents (Elt F) → (⟨S2097152x4x3, .f32⟩ : BufTy).Contents (Elt F)),
    StableHlo.unary main_v109 main_v110 (broadcastInDim S2097152x4x3x1 ![0, 1, 2] bcast_S2097152x4x3_S2097152x4x3x1_0_1_2 : (⟨S2097152x4x3, .f32⟩ : BufTy).Contents (Elt F) → (⟨S2097152x4x3x1, .f32⟩ : BufTy).Contents (Elt F)),
    StableHlo.unary main_v110 main_v111 (broadcastInDim S2097152x4x3x2 ![0, 1, 2, 3] bcast_S2097152x4x3x1_S2097152x4x3x2_0_1_2_3 : (⟨S2097152x4x3x1, .f32⟩ : BufTy).Contents (Elt F) → (⟨S2097152x4x3x2, .f32⟩ : BufTy).Contents (Elt F)),
    StableHlo.binary main_v111 main_v108 main_v112 (mulf : (⟨S2097152x4x3x2, .f32⟩ : BufTy).Contents (Elt F) → (⟨S2097152x4x3x2, .f32⟩ : BufTy).Contents (Elt F) → (⟨S2097152x4x3x2, .f32⟩ : BufTy).Contents (Elt F)),
    StableHlo.binary main_v84 main_v112 main_v113 (addf : (⟨S2097152x4x3x2, .f32⟩ : BufTy).Contents (Elt F) → (⟨S2097152x4x3x2, .f32⟩ : BufTy).Contents (Elt F) → (⟨S2097152x4x3x2, .f32⟩ : BufTy).Contents (Elt F)),
    StableHlo.nullary main_c_31 (constantI S_ 32 1#32),
    StableHlo.unary main_c_31 main_v114 (broadcastInDim S2097152x4x3 ![] bcast_S_S2097152x4x3 : (⟨S_, .i32⟩ : BufTy).Contents (Elt F) → (⟨S2097152x4x3, .i32⟩ : BufTy).Contents (Elt F)),
    StableHlo.binary main_v33 main_v114 main_v115 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v116 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v115 main_v116 main_v117 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_32 (constantI S_ 32 1023#32),
    StableHlo.unary main_c_32 main_v118 (broadcastInDim S2097152x4x3 ![] bcast_S_S2097152x4x3 : (⟨S_, .i32⟩ : BufTy).Contents (Elt F) → (⟨S2097152x4x3, .i32⟩ : BufTy).Contents (Elt F)),
    StableHlo.binary main_v117 main_v118 main_v119 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_cst_33 (constant S_ .f32 0x3F800000#32),
    StableHlo.unary main_cst_33 main_v120 (broadcastInDim S2097152x4x3 ![] bcast_S_S2097152x4x3 : (⟨S_, .f32⟩ : BufTy).Contents (Elt F) → (⟨S2097152x4x3, .f32⟩ : BufTy).Contents (Elt F)),
    StableHlo.binary main_v120 main_v26 main_v121 (subf : (⟨S2097152x4x3, .f32⟩ : BufTy).Contents (Elt F) → (⟨S2097152x4x3, .f32⟩ : BufTy).Contents (Elt F) → (⟨S2097152x4x3, .f32⟩ : BufTy).Contents (Elt F)),
    StableHlo.nullary main_c_34 (constantI S_ 32 0#32),
    StableHlo.unary main_c_34 main_v122 (broadcastInDim S2097152x4x3 ![] bcast_S_S2097152x4x3 : (⟨S_, .i32⟩ : BufTy).Contents (Elt F) → (⟨S2097152x4x3, .i32⟩ : BufTy).Contents (Elt F)),
    StableHlo.binary main_v40 main_v122 main_v123 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v124 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v123 main_v124 main_v125 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_35 (constantI S_ 32 1023#32),
    StableHlo.unary main_c_35 main_v126 (broadcastInDim S2097152x4x3 ![] bcast_S_S2097152x4x3 : (⟨S_, .i32⟩ : BufTy).Contents (Elt F) → (⟨S2097152x4x3, .i32⟩ : BufTy).Contents (Elt F)),
    StableHlo.binary main_v125 main_v126 main_v127 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_36 (constantI S_ 32 1024#32),
    StableHlo.unary main_c_36 main_v128 (broadcastInDim S2097152x4x3 ![] bcast_S_S2097152x4x3 : (⟨S_, .i32⟩ : BufTy).Contents (Elt F) → (⟨S2097152x4x3, .i32⟩ : BufTy).Contents (Elt F)),
    StableHlo.binary main_v127 main_v128 main_v129 (muli : (⟨S2097152x4x3, .i32⟩ : BufTy).Contents (Elt F) → (⟨S2097152x4x3, .i32⟩ : BufTy).Contents (Elt F) → (⟨S2097152x4x3, .i32⟩ : BufTy).Contents (Elt F)),
    StableHlo.binary main_v119 main_v129 main_v130 (addi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_37 (constantI S_ 32 0#32),
    StableHlo.unary main_c_37 main_v131 (broadcastInDim S1x1x3 ![] bcast_S_S1x1x3 : (⟨S_, .i32⟩ : BufTy).Contents (Elt F) → (⟨S1x1x3, .i32⟩ : BufTy).Contents (Elt F)),
    StableHlo.binary main_v43 main_v131 main_v132 (cmpi .slt : (⟨S1x1x3, .i32⟩ : BufTy).Contents (Elt F) → (⟨S1x1x3, .i32⟩ : BufTy).Contents (Elt F) → (⟨S1x1x3, .i1⟩ : BufTy).Contents (Elt F)),
    StableHlo.nullary main_c_38 (constantI S_ 32 3#32),
    StableHlo.unary main_c_38 main_v133 (broadcastInDim S1x1x3 ![] bcast_S_S1x1x3 : (⟨S_, .i32⟩ : BufTy).Contents (Elt F) → (⟨S1x1x3, .i32⟩ : BufTy).Contents (Elt F)),
    StableHlo.binary main_v43 main_v133 main_v134 (addi : (⟨S1x1x3, .i32⟩ : BufTy).Contents (Elt F) → (⟨S1x1x3, .i32⟩ : BufTy).Contents (Elt F) → (⟨S1x1x3, .i32⟩ : BufTy).Contents (Elt F)),
    StableHlo.ternary main_v132 main_v134 main_v43 main_v135 (select : (⟨S1x1x3, .i1⟩ : BufTy).Contents (Elt F) → (⟨S1x1x3, .i32⟩ : BufTy).Contents (Elt F) → (⟨S1x1x3, .i32⟩ : BufTy).Contents (Elt F) → (⟨S1x1x3, .i32⟩ : BufTy).Contents (Elt F)),
    StableHlo.nullary main_c_39 (constantI S_ 32 0#32),
    StableHlo.unary main_c_39 main_v136 (broadcastInDim S2097152x4x3 ![] bcast_S_S2097152x4x3 : (⟨S_, .i32⟩ : BufTy).Contents (Elt F) → (⟨S2097152x4x3, .i32⟩ : BufTy).Contents (Elt F)),
    StableHlo.binary main_v130 main_v136 main_v137 (cmpi .slt : (⟨S2097152x4x3, .i32⟩ : BufTy).Contents (Elt F) → (⟨S2097152x4x3, .i32⟩ : BufTy).Contents (Elt F) → (⟨S2097152x4x3, .i1⟩ : BufTy).Contents (Elt F)) ]

set_option maxHeartbeats 4000000 in
theorem ops_part2_sub : (ops_part2 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

/-- Operations 181 … 240 of 241 (window main_part3). -/
abbrev ops_part3 : List (HloOp τ sig (Elt F)) :=
  [ StableHlo.nullary main_c_40 (constantI S_ 32 1048576#32),
    StableHlo.unary main_c_40 main_v138 (broadcastInDim S2097152x4x3 ![] bcast_S_S2097152x4x3 : (⟨S_, .i32⟩ : BufTy).Contents (Elt F) → (⟨S2097152x4x3, .i32⟩ : BufTy).Contents (Elt F)),
    StableHlo.binary main_v130 main_v138 main_v139 (addi : (⟨S2097152x4x3, .i32⟩ : BufTy).Contents (Elt F) → (⟨S2097152x4x3, .i32⟩ : BufTy).Contents (Elt F) → (⟨S2097152x4x3, .i32⟩ : BufTy).Contents (Elt F)),
    StableHlo.ternary main_v137 main_v139 main_v130 main_v140 (select : (⟨S2097152x4x3, .i1⟩ : BufTy).Contents (Elt F) → (⟨S2097152x4x3, .i32⟩ : BufTy).Contents (Elt F) → (⟨S2097152x4x3, .i32⟩ : BufTy).Contents (Elt F) → (⟨S2097152x4x3, .i32⟩ : BufTy).Contents (Elt F)),
    StableHlo.unary main_v135 main_v141 (broadcastInDim S2097152x4x3 ![0, 1, 2] bcast_S1x1x3_S2097152x4x3_0_1_2 : (⟨S1x1x3, .i32⟩ : BufTy).Contents (Elt F) → (⟨S2097152x4x3, .i32⟩ : BufTy).Contents (Elt F)),
    StableHlo.unary main_v141 main_v142 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.unary main_v140 main_v143 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.binary main_v142 main_v143 main_v144 ((fun a b => concatenate S2097152x4x3x2 3 [⟨S2097152x4x3x1, a⟩, ⟨S2097152x4x3x1, b⟩] concatenates_S2097152x4x3x1_S2097152x4x3x1_S2097152x4x3x2_d3) : (⟨S2097152x4x3x1, .i32⟩ : BufTy).Contents (Elt F) → (⟨S2097152x4x3x1, .i32⟩ : BufTy).Contents (Elt F) → (⟨S2097152x4x3x2, .i32⟩ : BufTy).Contents (Elt F)),
    StableHlo.binary main_v41 main_v144 main_v145 ((fun x i => Host.gather gather_S3x1048576x2_S2097152x4x3x2_S2097152x4x3x2_3_01_n_n_01_3_112 x i) : (⟨S3x1048576x2, .f32⟩ : BufTy).Contents (Elt F) → (⟨S2097152x4x3x2, .i32⟩ : BufTy).Contents (Elt F) → (⟨S2097152x4x3x2, .f32⟩ : BufTy).Contents (Elt F)),
    StableHlo.binary main_v19 main_v121 main_v146 (mulf : (⟨S2097152x4x3, .f32⟩ : BufTy).Contents (Elt F) → (⟨S2097152x4x3, .f32⟩ : BufTy).Contents (Elt F) → (⟨S2097152x4x3, .f32⟩ : BufTy).Contents (Elt F)),
    StableHlo.unary main_v146 main_v147 (broadcastInDim S2097152x4x3x1 ![0, 1, 2] bcast_S2097152x4x3_S2097152x4x3x1_0_1_2 : (⟨S2097152x4x3, .f32⟩ : BufTy).Contents (Elt F) → (⟨S2097152x4x3x1, .f32⟩ : BufTy).Contents (Elt F)),
    StableHlo.unary main_v147 main_v148 (broadcastInDim S2097152x4x3x2 ![0, 1, 2, 3] bcast_S2097152x4x3x1_S2097152x4x3x2_0_1_2_3 : (⟨S2097152x4x3x1, .f32⟩ : BufTy).Contents (Elt F) → (⟨S2097152x4x3x2, .f32⟩ : BufTy).Contents (Elt F)),
    StableHlo.binary main_v148 main_v145 main_v149 (mulf : (⟨S2097152x4x3x2, .f32⟩ : BufTy).Contents (Elt F) → (⟨S2097152x4x3x2, .f32⟩ : BufTy).Contents (Elt F) → (⟨S2097152x4x3x2, .f32⟩ : BufTy).Contents (Elt F)),
    StableHlo.binary main_v113 main_v149 main_v150 (addf : (⟨S2097152x4x3x2, .f32⟩ : BufTy).Contents (Elt F) → (⟨S2097152x4x3x2, .f32⟩ : BufTy).Contents (Elt F) → (⟨S2097152x4x3x2, .f32⟩ : BufTy).Contents (Elt F)),
    StableHlo.nullary main_c_41 (constantI S_ 32 1#32),
    StableHlo.unary main_c_41 main_v151 (broadcastInDim S2097152x4x3 ![] bcast_S_S2097152x4x3 : (⟨S_, .i32⟩ : BufTy).Contents (Elt F) → (⟨S2097152x4x3, .i32⟩ : BufTy).Contents (Elt F)),
    StableHlo.binary main_v40 main_v151 main_v152 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v153 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v152 main_v153 main_v154 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_42 (constantI S_ 32 1023#32),
    StableHlo.unary main_c_42 main_v155 (broadcastInDim S2097152x4x3 ![] bcast_S_S2097152x4x3 : (⟨S_, .i32⟩ : BufTy).Contents (Elt F) → (⟨S2097152x4x3, .i32⟩ : BufTy).Contents (Elt F)),
    StableHlo.binary main_v154 main_v155 main_v156 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_43 (constantI S_ 32 1024#32),
    StableHlo.unary main_c_43 main_v157 (broadcastInDim S2097152x4x3 ![] bcast_S_S2097152x4x3 : (⟨S_, .i32⟩ : BufTy).Contents (Elt F) → (⟨S2097152x4x3, .i32⟩ : BufTy).Contents (Elt F)),
    StableHlo.binary main_v156 main_v157 main_v158 (muli : (⟨S2097152x4x3, .i32⟩ : BufTy).Contents (Elt F) → (⟨S2097152x4x3, .i32⟩ : BufTy).Contents (Elt F) → (⟨S2097152x4x3, .i32⟩ : BufTy).Contents (Elt F)),
    StableHlo.binary main_v119 main_v158 main_v159 (addi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_44 (constantI S_ 32 0#32),
    StableHlo.unary main_c_44 main_v160 (broadcastInDim S1x1x3 ![] bcast_S_S1x1x3 : (⟨S_, .i32⟩ : BufTy).Contents (Elt F) → (⟨S1x1x3, .i32⟩ : BufTy).Contents (Elt F)),
    StableHlo.binary main_v43 main_v160 main_v161 (cmpi .slt : (⟨S1x1x3, .i32⟩ : BufTy).Contents (Elt F) → (⟨S1x1x3, .i32⟩ : BufTy).Contents (Elt F) → (⟨S1x1x3, .i1⟩ : BufTy).Contents (Elt F)),
    StableHlo.nullary main_c_45 (constantI S_ 32 3#32),
    StableHlo.unary main_c_45 main_v162 (broadcastInDim S1x1x3 ![] bcast_S_S1x1x3 : (⟨S_, .i32⟩ : BufTy).Contents (Elt F) → (⟨S1x1x3, .i32⟩ : BufTy).Contents (Elt F)),
    StableHlo.binary main_v43 main_v162 main_v163 (addi : (⟨S1x1x3, .i32⟩ : BufTy).Contents (Elt F) → (⟨S1x1x3, .i32⟩ : BufTy).Contents (Elt F) → (⟨S1x1x3, .i32⟩ : BufTy).Contents (Elt F)),
    StableHlo.ternary main_v161 main_v163 main_v43 main_v164 (select : (⟨S1x1x3, .i1⟩ : BufTy).Contents (Elt F) → (⟨S1x1x3, .i32⟩ : BufTy).Contents (Elt F) → (⟨S1x1x3, .i32⟩ : BufTy).Contents (Elt F) → (⟨S1x1x3, .i32⟩ : BufTy).Contents (Elt F)),
    StableHlo.nullary main_c_46 (constantI S_ 32 0#32),
    StableHlo.unary main_c_46 main_v165 (broadcastInDim S2097152x4x3 ![] bcast_S_S2097152x4x3 : (⟨S_, .i32⟩ : BufTy).Contents (Elt F) → (⟨S2097152x4x3, .i32⟩ : BufTy).Contents (Elt F)),
    StableHlo.binary main_v159 main_v165 main_v166 (cmpi .slt : (⟨S2097152x4x3, .i32⟩ : BufTy).Contents (Elt F) → (⟨S2097152x4x3, .i32⟩ : BufTy).Contents (Elt F) → (⟨S2097152x4x3, .i1⟩ : BufTy).Contents (Elt F)),
    StableHlo.nullary main_c_47 (constantI S_ 32 1048576#32),
    StableHlo.unary main_c_47 main_v167 (broadcastInDim S2097152x4x3 ![] bcast_S_S2097152x4x3 : (⟨S_, .i32⟩ : BufTy).Contents (Elt F) → (⟨S2097152x4x3, .i32⟩ : BufTy).Contents (Elt F)),
    StableHlo.binary main_v159 main_v167 main_v168 (addi : (⟨S2097152x4x3, .i32⟩ : BufTy).Contents (Elt F) → (⟨S2097152x4x3, .i32⟩ : BufTy).Contents (Elt F) → (⟨S2097152x4x3, .i32⟩ : BufTy).Contents (Elt F)),
    StableHlo.ternary main_v166 main_v168 main_v159 main_v169 (select : (⟨S2097152x4x3, .i1⟩ : BufTy).Contents (Elt F) → (⟨S2097152x4x3, .i32⟩ : BufTy).Contents (Elt F) → (⟨S2097152x4x3, .i32⟩ : BufTy).Contents (Elt F) → (⟨S2097152x4x3, .i32⟩ : BufTy).Contents (Elt F)),
    StableHlo.unary main_v164 main_v170 (broadcastInDim S2097152x4x3 ![0, 1, 2] bcast_S1x1x3_S2097152x4x3_0_1_2 : (⟨S1x1x3, .i32⟩ : BufTy).Contents (Elt F) → (⟨S2097152x4x3, .i32⟩ : BufTy).Contents (Elt F)),
    StableHlo.unary main_v170 main_v171 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.unary main_v169 main_v172 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.binary main_v171 main_v172 main_v173 ((fun a b => concatenate S2097152x4x3x2 3 [⟨S2097152x4x3x1, a⟩, ⟨S2097152x4x3x1, b⟩] concatenates_S2097152x4x3x1_S2097152x4x3x1_S2097152x4x3x2_d3) : (⟨S2097152x4x3x1, .i32⟩ : BufTy).Contents (Elt F) → (⟨S2097152x4x3x1, .i32⟩ : BufTy).Contents (Elt F) → (⟨S2097152x4x3x2, .i32⟩ : BufTy).Contents (Elt F)),
    StableHlo.binary main_v41 main_v173 main_v174 ((fun x i => Host.gather gather_S3x1048576x2_S2097152x4x3x2_S2097152x4x3x2_3_01_n_n_01_3_112 x i) : (⟨S3x1048576x2, .f32⟩ : BufTy).Contents (Elt F) → (⟨S2097152x4x3x2, .i32⟩ : BufTy).Contents (Elt F) → (⟨S2097152x4x3x2, .f32⟩ : BufTy).Contents (Elt F)),
    StableHlo.binary main_v19 main_v26 main_v175 (mulf : (⟨S2097152x4x3, .f32⟩ : BufTy).Contents (Elt F) → (⟨S2097152x4x3, .f32⟩ : BufTy).Contents (Elt F) → (⟨S2097152x4x3, .f32⟩ : BufTy).Contents (Elt F)),
    StableHlo.unary main_v175 main_v176 (broadcastInDim S2097152x4x3x1 ![0, 1, 2] bcast_S2097152x4x3_S2097152x4x3x1_0_1_2 : (⟨S2097152x4x3, .f32⟩ : BufTy).Contents (Elt F) → (⟨S2097152x4x3x1, .f32⟩ : BufTy).Contents (Elt F)),
    StableHlo.unary main_v176 main_v177 (broadcastInDim S2097152x4x3x2 ![0, 1, 2, 3] bcast_S2097152x4x3x1_S2097152x4x3x2_0_1_2_3 : (⟨S2097152x4x3x1, .f32⟩ : BufTy).Contents (Elt F) → (⟨S2097152x4x3x2, .f32⟩ : BufTy).Contents (Elt F)),
    StableHlo.binary main_v177 main_v174 main_v178 (mulf : (⟨S2097152x4x3x2, .f32⟩ : BufTy).Contents (Elt F) → (⟨S2097152x4x3x2, .f32⟩ : BufTy).Contents (Elt F) → (⟨S2097152x4x3x2, .f32⟩ : BufTy).Contents (Elt F)),
    StableHlo.binary main_v150 main_v178 main_v179 (addf : (⟨S2097152x4x3x2, .f32⟩ : BufTy).Contents (Elt F) → (⟨S2097152x4x3x2, .f32⟩ : BufTy).Contents (Elt F) → (⟨S2097152x4x3x2, .f32⟩ : BufTy).Contents (Elt F)),
    StableHlo.unary main_v179 main_v180 ((extractStridedSlice S2097152x4x1x2 ![0, 0, 0, 0] · slices_S2097152x4x3x2_S2097152x4x1x2_0_0_0_0) : (⟨S2097152x4x3x2, .f32⟩ : BufTy).Contents (Elt F) → (⟨S2097152x4x1x2, .f32⟩ : BufTy).Contents (Elt F)),
    StableHlo.reshape main_v180 main_v181 rfl shapeCasts_S2097152x4x1x2_S2097152x4x2,
    StableHlo.unary main_v179 main_v182 ((extractStridedSlice S2097152x4x1x2 ![0, 0, 1, 0] · slices_S2097152x4x3x2_S2097152x4x1x2_0_0_1_0) : (⟨S2097152x4x3x2, .f32⟩ : BufTy).Contents (Elt F) → (⟨S2097152x4x1x2, .f32⟩ : BufTy).Contents (Elt F)),
    StableHlo.reshape main_v182 main_v183 rfl shapeCasts_S2097152x4x1x2_S2097152x4x2,
    StableHlo.binary main_v181 main_v183 main_v184 (mulf : (⟨S2097152x4x2, .f32⟩ : BufTy).Contents (Elt F) → (⟨S2097152x4x2, .f32⟩ : BufTy).Contents (Elt F) → (⟨S2097152x4x2, .f32⟩ : BufTy).Contents (Elt F)),
    StableHlo.unary main_v179 main_v185 ((extractStridedSlice S2097152x4x1x2 ![0, 0, 2, 0] · slices_S2097152x4x3x2_S2097152x4x1x2_0_0_2_0) : (⟨S2097152x4x3x2, .f32⟩ : BufTy).Contents (Elt F) → (⟨S2097152x4x1x2, .f32⟩ : BufTy).Contents (Elt F)),
    StableHlo.reshape main_v185 main_v186 rfl shapeCasts_S2097152x4x1x2_S2097152x4x2,
    StableHlo.binary main_v184 main_v186 main_v187 (mulf : (⟨S2097152x4x2, .f32⟩ : BufTy).Contents (Elt F) → (⟨S2097152x4x2, .f32⟩ : BufTy).Contents (Elt F) → (⟨S2097152x4x2, .f32⟩ : BufTy).Contents (Elt F)),
    StableHlo.unary main_v187 main_v188 (broadcastInDim S2097152x4x1x2 ![0, 1, 3] bcast_S2097152x4x2_S2097152x4x1x2_0_1_3 : (⟨S2097152x4x2, .f32⟩ : BufTy).Contents (Elt F) → (⟨S2097152x4x1x2, .f32⟩ : BufTy).Contents (Elt F)),
    StableHlo.binary main_v179 main_v188 main_v189 ((fun a b => concatenate S2097152x4x4x2 2 [⟨S2097152x4x3x2, a⟩, ⟨S2097152x4x1x2, b⟩] concatenates_S2097152x4x3x2_S2097152x4x1x2_S2097152x4x4x2_d2) : (⟨S2097152x4x3x2, .f32⟩ : BufTy).Contents (Elt F) → (⟨S2097152x4x1x2, .f32⟩ : BufTy).Contents (Elt F) → (⟨S2097152x4x4x2, .f32⟩ : BufTy).Contents (Elt F)) ]

set_option maxHeartbeats 4000000 in
theorem ops_part3_sub : (ops_part3 : List (HloOp τ sig (Elt F))).Forall fun op => op.bufs ⊆ tcRefs τ sig :=
  ⟨nullary_bufs_sub .., unary_bufs_sub .., binary_bufs_sub .., ternary_bufs_sub .., unary_bufs_sub .., unary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., binary_bufs_sub .., unary_bufs_sub .., binary_bufs_sub ..⟩

/-- Operations 241 … 241 of 241 (window main_part4). -/
abbrev ops_part4 : List (HloOp τ sig (Elt F)) :=
  [ StableHlo.reshape main_v189 main_v190 rfl shapeCasts_S2097152x4x4x2_S2097152x32 ]

set_option maxHeartbeats 4000000 in
theorem ops_part4_sub : (ops_part4 : List (HloOp τ sig (Elt F))).Forall fun op => op.bufs ⊆ tcRefs τ sig :=
  reshape_bufs_sub ..

end Cert.ReferenceIdeal.HostRun

end
-- ==== Proof.RefRun.lean ====
/-
  The reference program is a straight line of 241 host operations. Its run: every weakly fair execution
  terminates, and every TensorCore buffer ends at the fold of the operations' results, in order, over the
  buffer contents at launch. The program is printed in five windows; each window is the sequence of its own
  operations, and the whole is their concatenation run as one.
-/
import proofs.«158488_j36910948941984_1_alg».proof.Proof.RefOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- All the operations, in order: the five windows one after the other. -/
abbrev ops : List (HloOp τ sig (Elt F)) :=
  ops_part0 ++ (ops_part1 ++ (ops_part2 ++ (ops_part3 ++ ops_part4)))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl

/-- The program is the sequence of all its operations: window by window, sequences concatenating. -/
theorem main_eq (c : Dev nD) : main (F := F) c = seq ops := by
  simp only [ops, seq_append, ← main_part0_eq c, ← main_part1_eq c, ← main_part2_eq c, ← main_part3_eq c,
    ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h]

/-- No operation allocates: each determines its results. -/
theorem ops_part0_fresh : (ops_part0 : List (HloOp τ sig (Elt F))).Forall fun op => op.fresh = ∅ := by
  simp only [List.Forall]; repeat' constructor
theorem ops_part1_fresh : (ops_part1 : List (HloOp τ sig (Elt F))).Forall fun op => op.fresh = ∅ := by
  simp only [List.Forall]; repeat' constructor
theorem ops_part2_fresh : (ops_part2 : List (HloOp τ sig (Elt F))).Forall fun op => op.fresh = ∅ := by
  simp only [List.Forall]; repeat' constructor
theorem ops_part3_fresh : (ops_part3 : List (HloOp τ sig (Elt F))).Forall fun op => op.fresh = ∅ := by
  simp only [List.Forall]; repeat' constructor
theorem ops_part4_fresh : (ops_part4 : List (HloOp τ sig (Elt F))).Forall fun op => op.fresh = ∅ := by
  simp only [List.Forall]; rfl

theorem ops_fresh : ∀ op ∈ (ops : List (HloOp τ sig (Elt F))), op.fresh = ∅ := by
  intro op h
  simp only [ops, List.mem_append] at h
  rcases h with h | h | h | h | h
  exacts [List.forall_iff_forall_mem.mp ops_part0_fresh op h, List.forall_iff_forall_mem.mp ops_part1_fresh op h,
    List.forall_iff_forall_mem.mp ops_part2_fresh op h, List.forall_iff_forall_mem.mp ops_part3_fresh op h,
    List.forall_iff_forall_mem.mp ops_part4_fresh op h]

/-- On every device, from any memory with zero counters: every weakly fair execution of the reference terminates with
    each TensorCore buffer at the operations' fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => ops_fresh)

end Cert.ReferenceIdeal.HostRun

end
-- ==== Proof.BridgeTail.lean ====
/-
  The reference's result, read off its run in two steps.

  Its result buffer holds the reference's last operations applied to eight buffers the reference computed on the way:
  the four gathered feature arrays and the four weight arrays, corner by corner. (Both sides are the same composition of
  the program's operations over the launch contents.) And no operation writes an argument buffer, so the arguments end
  as launched.
-/
import proofs.«158488_j36910948941984_1_alg».proof.Proof.RefRun
import proofs.«158488_j36910948941984_1_alg».proof.Proof.RefTail
import Idealize.ShloMosaic.Lib.Pipeline.Frame
import Idealize.ShloMosaic.PureOps.Ideal

noncomputable section

namespace Cert.ReferenceIdeal.HostRun

open Cert.ReferenceIdeal Cert.ReferenceIdeal.Gen Idealize.ShloMosaic Idealize.ShloMosaic.TcCoe Idealize.SL.Sem Idealize.ShloMosaic.StableHlo

set_option maxRecDepth 16384 in
set_option maxHeartbeats 40000000 in
/-- From any buffer contents, the result buffer after all the operations is the tail function of the eight
    intermediate buffers after all the operations. -/
theorem result_eq_tail (V' : Valuation τ sig (Elt Ideal)) :
    (StableHlo.after (ops (F := Ideal)) V' (Proc.devRef .tc main_v190) : FVec Ideal S2097152x32 .f32)
      = Tail.out
          (StableHlo.after (ops (F := Ideal)) V' (Proc.devRef .tc main_v79))
          (StableHlo.after (ops (F := Ideal)) V' (Proc.devRef .tc main_v108))
          (StableHlo.after (ops (F := Ideal)) V' (Proc.devRef .tc main_v145))
          (StableHlo.after (ops (F := Ideal)) V' (Proc.devRef .tc main_v174))
          (StableHlo.after (ops (F := Ideal)) V' (Proc.devRef .tc main_v80))
          (StableHlo.after (ops (F := Ideal)) V' (Proc.devRef .tc main_v109))
          (StableHlo.after (ops (F := Ideal)) V' (Proc.devRef .tc main_v146))
          (StableHlo.after (ops (F := Ideal)) V' (Proc.devRef .tc main_v175)) := by
  unfold Tail.out Tail.acc Tail.corner
  simp only [ops, StableHlo.after_append]
  simp only [ops_part0, ops_part1, ops_part2, ops_part3, ops_part4]
  after_results_simp
  rfl

variable {F : FTy → Type} [FloatOps F]

set_option maxRecDepth 16384 in
set_option maxHeartbeats 40000000 in
/-- No operation writes the first argument. -/
theorem kept_arg0 (m : (ℓ : Loc nD τ sig) → Buf (Elt F) ℓ) (c : Dev nD) :
    StableHlo.after (ops (F := F)) (launchContents m c) (Proc.devRef .tc main_arg0) = m ((c.tc : Thread nD τ).loc main_arg0) := by
  simp only [ops, StableHlo.after_append]
  simp only [ops_part0, ops_part1, ops_part2, ops_part3, ops_part4]
  after_results_simp

set_option maxRecDepth 16384 in
set_option maxHeartbeats 40000000 in
/-- No operation writes the second argument. -/
theorem kept_arg1 (m : (ℓ : Loc nD τ sig) → Buf (Elt F) ℓ) (c : Dev nD) :
    StableHlo.after (ops (F := F)) (launchContents m c) (Proc.devRef .tc main_arg1) = m ((c.tc : Thread nD τ).loc main_arg1) := by
  simp only [ops, StableHlo.after_append]
  simp only [ops_part0, ops_part1, ops_part2, ops_part3, ops_part4]
  after_results_simp

end Cert.ReferenceIdeal.HostRun

end
-- ==== Proof.BridgeWgt.lean ====
/-
  The four weight arrays are the same in both programs.

  Both programs compute, from the positions, the scaled positions, their floors and fractional parts, pick the
  coordinate pairs of the three planes, and multiply the two one-dimensional weights of each corner. Operation by
  operation and constant by constant the two computations are the same composition, so from memories that agree on the
  positions the reference's four weight buffers hold what the kernel's region finds in its four weight arrays.
-/
import proofs.«158488_j36910948941984_1_alg».proof.Proof.RefRun
import proofs.«158488_j36910948941984_1_alg».proof.Proof.Gen.KernelIdeal.Frame
import Idealize.ShloMosaic.Lib.Pipeline.Frame
import Idealize.ShloMosaic.PureOps.Ideal

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxRecDepth 16384 in
set_option maxHeartbeats 40000000 in
/-- Corner (0,0): (1 − fx)·(1 − fy). -/
theorem wgt0_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.ReferenceIdeal.HostRun.ops (F := Ideal)) (launchContents m' c) (Proc.devRef .tc Cert.ReferenceIdeal.main_v80) : FVec Ideal ⟨3, ![2097152, 4, 3]⟩ .f32)
      = (Cert.KernelIdeal.Gen.V m c Cert.KernelIdeal.main_v79 : FVec Ideal ⟨3, ![2097152, 4, 3]⟩ .f32) := by
  show _ = StableHlo.after (List.flatten [Cert.KernelIdeal.Gen.hostOps0 (F := Ideal)]) (launchContents m c) (Proc.devRef .tc Cert.KernelIdeal.main_v79)
  simp only [List.flatten_cons, List.flatten_nil, List.append_nil, Cert.ReferenceIdeal.HostRun.ops, StableHlo.after_append]
  simp only [Cert.ReferenceIdeal.HostRun.ops_part0, Cert.ReferenceIdeal.HostRun.ops_part1, Cert.ReferenceIdeal.HostRun.ops_part2,
    Cert.ReferenceIdeal.HostRun.ops_part3, Cert.ReferenceIdeal.HostRun.ops_part4, Cert.KernelIdeal.Gen.hostOps0]
  after_results_simp
  have e0 : launchContents m' c (Proc.devRef .tc Cert.ReferenceIdeal.main_arg0) = launchContents m c (Proc.devRef .tc Cert.KernelIdeal.main_arg0) := h0
  have e1 : launchContents m' c (Proc.devRef .tc Cert.ReferenceIdeal.main_arg1) = launchContents m c (Proc.devRef .tc Cert.KernelIdeal.main_arg1) := h1
  rw [e0]
  rfl

set_option maxRecDepth 16384 in
set_option maxHeartbeats 40000000 in
/-- Corner (0,1): (1 − fx)·fy. -/
theorem wgt1_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.ReferenceIdeal.HostRun.ops (F := Ideal)) (launchContents m' c) (Proc.devRef .tc Cert.ReferenceIdeal.main_v109) : FVec Ideal ⟨3, ![2097152, 4, 3]⟩ .f32)
      = (Cert.KernelIdeal.Gen.V m c Cert.KernelIdeal.main_v104 : FVec Ideal ⟨3, ![2097152, 4, 3]⟩ .f32) := by
  show _ = StableHlo.after (List.flatten [Cert.KernelIdeal.Gen.hostOps0 (F := Ideal)]) (launchContents m c) (Proc.devRef .tc Cert.KernelIdeal.main_v104)
  simp only [List.flatten_cons, List.flatten_nil, List.append_nil, Cert.ReferenceIdeal.HostRun.ops, StableHlo.after_append]
  simp only [Cert.ReferenceIdeal.HostRun.ops_part0, Cert.ReferenceIdeal.HostRun.ops_part1, Cert.ReferenceIdeal.HostRun.ops_part2,
    Cert.ReferenceIdeal.HostRun.ops_part3, Cert.ReferenceIdeal.HostRun.ops_part4, Cert.KernelIdeal.Gen.hostOps0]
  after_results_simp
  have e0 : launchContents m' c (Proc.devRef .tc Cert.ReferenceIdeal.main_arg0) = launchContents m c (Proc.devRef .tc Cert.KernelIdeal.main_arg0) := h0
  have e1 : launchContents m' c (Proc.devRef .tc Cert.ReferenceIdeal.main_arg1) = launchContents m c (Proc.devRef .tc Cert.KernelIdeal.main_arg1) := h1
  rw [e0]
  rfl

set_option maxRecDepth 16384 in
set_option maxHeartbeats 40000000 in
/-- Corner (1,0): fx·(1 − fy). -/
theorem wgt2_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.ReferenceIdeal.HostRun.ops (F := Ideal)) (launchContents m' c) (Proc.devRef .tc Cert.ReferenceIdeal.main_v146) : FVec Ideal ⟨3, ![2097152, 4, 3]⟩ .f32)
      = (Cert.KernelIdeal.Gen.V m c Cert.KernelIdeal.main_v137 : FVec Ideal ⟨3, ![2097152, 4, 3]⟩ .f32) := by
  show _ = StableHlo.after (List.flatten [Cert.KernelIdeal.Gen.hostOps0 (F := Ideal)]) (launchContents m c) (Proc.devRef .tc Cert.KernelIdeal.main_v137)
  simp only [List.flatten_cons, List.flatten_nil, List.append_nil, Cert.ReferenceIdeal.HostRun.ops, StableHlo.after_append]
  simp only [Cert.ReferenceIdeal.HostRun.ops_part0, Cert.ReferenceIdeal.HostRun.ops_part1, Cert.ReferenceIdeal.HostRun.ops_part2,
    Cert.ReferenceIdeal.HostRun.ops_part3, Cert.ReferenceIdeal.HostRun.ops_part4, Cert.KernelIdeal.Gen.hostOps0]
  after_results_simp
  have e0 : launchContents m' c (Proc.devRef .tc Cert.ReferenceIdeal.main_arg0) = launchContents m c (Proc.devRef .tc Cert.KernelIdeal.main_arg0) := h0
  have e1 : launchContents m' c (Proc.devRef .tc Cert.ReferenceIdeal.main_arg1) = launchContents m c (Proc.devRef .tc Cert.KernelIdeal.main_arg1) := h1
  rw [e0]
  rfl

set_option maxRecDepth 16384 in
set_option maxHeartbeats 40000000 in
/-- Corner (1,1): fx·fy. -/
theorem wgt3_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.ReferenceIdeal.HostRun.ops (F := Ideal)) (launchContents m' c) (Proc.devRef .tc Cert.ReferenceIdeal.main_v175) : FVec Ideal ⟨3, ![2097152, 4, 3]⟩ .f32)
      = (Cert.KernelIdeal.Gen.V m c Cert.KernelIdeal.main_v162 : FVec Ideal ⟨3, ![2097152, 4, 3]⟩ .f32) := by
  show _ = StableHlo.after (List.flatten [Cert.KernelIdeal.Gen.hostOps0 (F := Ideal)]) (launchContents m c) (Proc.devRef .tc Cert.KernelIdeal.main_v162)
  simp only [List.flatten_cons, List.flatten_nil, List.append_nil, Cert.ReferenceIdeal.HostRun.ops, StableHlo.after_append]
  simp only [Cert.ReferenceIdeal.HostRun.ops_part0, Cert.ReferenceIdeal.HostRun.ops_part1, Cert.ReferenceIdeal.HostRun.ops_part2,
    Cert.ReferenceIdeal.HostRun.ops_part3, Cert.ReferenceIdeal.HostRun.ops_part4, Cert.KernelIdeal.Gen.hostOps0]
  after_results_simp
  have e0 : launchContents m' c (Proc.devRef .tc Cert.ReferenceIdeal.main_arg0) = launchContents m c (Proc.devRef .tc Cert.KernelIdeal.main_arg0) := h0
  have e1 : launchContents m' c (Proc.devRef .tc Cert.ReferenceIdeal.main_arg1) = launchContents m c (Proc.devRef .tc Cert.KernelIdeal.main_arg1) := h1
  rw [e0]
  rfl

end Cert.Bridge

end
-- ==== Proof.LibConcatPair.lean ====
/-
  A concatenation of TWO arrays along an axis, as a function of the two arrays.

  The concatenation of a list of arrays takes its pieces as a list of pairs (shape, array over that shape's indices):
  an array inside the list sits in a dependent pair, where a rewriting pass does not reach it. For two pieces the same
  array is written here as a function taking the two arrays as plain arguments; the two forms are equal by definition.
  Rewriting a composed host term with this equation first lets a pass that reads a straight line of host operations
  back to its inputs continue into the operands of a two-piece concatenation (the index array of a gather built by
  joining two computed index arrays, for instance).
-/
import Idealize.ShloMosaic.Lib.StableHlo.Run

noncomputable section

namespace Idealize.ShloMosaic

/-- The concatenation of two arrays x₁ over s₁ and x₂ over s₂ along axis a of the result shape t. -/
def concatPair {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- The list form of a two-piece concatenation is the two-argument form. -/
theorem concatenate_pair_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concatPair t a s₁ s₂ x₁ x₂ h := rfl

namespace StableHlo

/-- Reads the buffer contents after a literal line of host operations back to the contents before it, in one pass,
    entering the operands of two-piece concatenations on the way: each operation's result at its own buffer is its
    function of its operands' contents, and at any other buffer what was there. -/
macro "after_results_pairs" : tactic =>
  `(tactic| (simp (disch := decide) only [↓concatenate_pair_eq, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end StableHlo

end Idealize.ShloMosaic

end
-- ==== Proof.BridgeFeat.lean ====
/-
  The four gathered feature arrays are the same in both programs.

  Both programs turn the floors of the scaled positions into clamped cell indices of the three planes, one index array
  per corner, and gather the corner's features from the embedding table laid out as [3, 1048576, 2]. Operation by
  operation and constant by constant the two computations are the same composition, so from memories that agree on the
  positions and on the table the reference's four feature buffers hold what the kernel's region finds in its four
  feature arrays.
-/
import proofs.«158488_j36910948941984_1_alg».proof.Proof.RefRun
import proofs.«158488_j36910948941984_1_alg».proof.Proof.Gen.KernelIdeal.Frame
import proofs.«158488_j36910948941984_1_alg».proof.Proof.LibConcatPair
import Idealize.ShloMosaic.Lib.Pipeline.Frame
import Idealize.ShloMosaic.PureOps.Ideal

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxRecDepth 16384 in
set_option maxHeartbeats 40000000 in
/-- Corner (0,0): the table at cell (gx, gy). -/
theorem feat0_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.ReferenceIdeal.HostRun.ops (F := Ideal)) (launchContents m' c) (Proc.devRef .tc Cert.ReferenceIdeal.main_v79) : FVec Ideal ⟨4, ![2097152, 4, 3, 2]⟩ .f32)
      = (Cert.KernelIdeal.Gen.V m c Cert.KernelIdeal.main_v78 : FVec Ideal ⟨4, ![2097152, 4, 3, 2]⟩ .f32) := by
  show _ = StableHlo.after (List.flatten [Cert.KernelIdeal.Gen.hostOps0 (F := Ideal)]) (launchContents m c) (Proc.devRef .tc Cert.KernelIdeal.main_v78)
  simp only [List.flatten_cons, List.flatten_nil, List.append_nil, Cert.ReferenceIdeal.HostRun.ops, StableHlo.after_append]
  simp only [Cert.ReferenceIdeal.HostRun.ops_part0, Cert.ReferenceIdeal.HostRun.ops_part1, Cert.ReferenceIdeal.HostRun.ops_part2,
    Cert.ReferenceIdeal.HostRun.ops_part3, Cert.ReferenceIdeal.HostRun.ops_part4, Cert.KernelIdeal.Gen.hostOps0]
  after_results_pairs
  have e0 : launchContents m' c (Proc.devRef .tc Cert.ReferenceIdeal.main_arg0) = launchContents m c (Proc.devRef .tc Cert.KernelIdeal.main_arg0) := h0
  have e1 : launchContents m' c (Proc.devRef .tc Cert.ReferenceIdeal.main_arg1) = launchContents m c (Proc.devRef .tc Cert.KernelIdeal.main_arg1) := h1
  rw [e0, e1]
  rfl

set_option maxRecDepth 16384 in
set_option maxHeartbeats 40000000 in
/-- Corner (0,1): the table at cell (gx, gy + 1). -/
theorem feat1_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.ReferenceIdeal.HostRun.ops (F := Ideal)) (launchContents m' c) (Proc.devRef .tc Cert.ReferenceIdeal.main_v108) : FVec Ideal ⟨4, ![2097152, 4, 3, 2]⟩ .f32)
      = (Cert.KernelIdeal.Gen.V m c Cert.KernelIdeal.main_v103 : FVec Ideal ⟨4, ![2097152, 4, 3, 2]⟩ .f32) := by
  show _ = StableHlo.after (List.flatten [Cert.KernelIdeal.Gen.hostOps0 (F := Ideal)]) (launchContents m c) (Proc.devRef .tc Cert.KernelIdeal.main_v103)
  simp only [List.flatten_cons, List.flatten_nil, List.append_nil, Cert.ReferenceIdeal.HostRun.ops, StableHlo.after_append]
  simp only [Cert.ReferenceIdeal.HostRun.ops_part0, Cert.ReferenceIdeal.HostRun.ops_part1, Cert.ReferenceIdeal.HostRun.ops_part2,
    Cert.ReferenceIdeal.HostRun.ops_part3, Cert.ReferenceIdeal.HostRun.ops_part4, Cert.KernelIdeal.Gen.hostOps0]
  after_results_pairs
  have e0 : launchContents m' c (Proc.devRef .tc Cert.ReferenceIdeal.main_arg0) = launchContents m c (Proc.devRef .tc Cert.KernelIdeal.main_arg0) := h0
  have e1 : launchContents m' c (Proc.devRef .tc Cert.ReferenceIdeal.main_arg1) = launchContents m c (Proc.devRef .tc Cert.KernelIdeal.main_arg1) := h1
  rw [e0, e1]
  rfl

set_option maxRecDepth 16384 in
set_option maxHeartbeats 40000000 in
/-- Corner (1,0): the table at cell (gx + 1, gy). -/
theorem feat2_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.ReferenceIdeal.HostRun.ops (F := Ideal)) (launchContents m' c) (Proc.devRef .tc Cert.ReferenceIdeal.main_v145) : FVec Ideal ⟨4, ![2097152, 4, 3, 2]⟩ .f32)
      = (Cert.KernelIdeal.Gen.V m c Cert.KernelIdeal.main_v136 : FVec Ideal ⟨4, ![2097152, 4, 3, 2]⟩ .f32) := by
  show _ = StableHlo.after (List.flatten [Cert.KernelIdeal.Gen.hostOps0 (F := Ideal)]) (launchContents m c) (Proc.devRef .tc Cert.KernelIdeal.main_v136)
  simp only [List.flatten_cons, List.flatten_nil, List.append_nil, Cert.ReferenceIdeal.HostRun.ops, StableHlo.after_append]
  simp only [Cert.ReferenceIdeal.HostRun.ops_part0, Cert.ReferenceIdeal.HostRun.ops_part1, Cert.ReferenceIdeal.HostRun.ops_part2,
    Cert.ReferenceIdeal.HostRun.ops_part3, Cert.ReferenceIdeal.HostRun.ops_part4, Cert.KernelIdeal.Gen.hostOps0]
  after_results_pairs
  have e0 : launchContents m' c (Proc.devRef .tc Cert.ReferenceIdeal.main_arg0) = launchContents m c (Proc.devRef .tc Cert.KernelIdeal.main_arg0) := h0
  have e1 : launchContents m' c (Proc.devRef .tc Cert.ReferenceIdeal.main_arg1) = launchContents m c (Proc.devRef .tc Cert.KernelIdeal.main_arg1) := h1
  rw [e0, e1]
  rfl

set_option maxRecDepth 16384 in
set_option maxHeartbeats 40000000 in
/-- Corner (1,1): the table at cell (gx + 1, gy + 1). -/
theorem feat3_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.ReferenceIdeal.HostRun.ops (F := Ideal)) (launchContents m' c) (Proc.devRef .tc Cert.ReferenceIdeal.main_v174) : FVec Ideal ⟨4, ![2097152, 4, 3, 2]⟩ .f32)
      = (Cert.KernelIdeal.Gen.V m c Cert.KernelIdeal.main_v161 : FVec Ideal ⟨4, ![2097152, 4, 3, 2]⟩ .f32) := by
  show _ = StableHlo.after (List.flatten [Cert.KernelIdeal.Gen.hostOps0 (F := Ideal)]) (launchContents m c) (Proc.devRef .tc Cert.KernelIdeal.main_v161)
  simp only [List.flatten_cons, List.flatten_nil, List.append_nil, Cert.ReferenceIdeal.HostRun.ops, StableHlo.after_append]
  simp only [Cert.ReferenceIdeal.HostRun.ops_part0, Cert.ReferenceIdeal.HostRun.ops_part1, Cert.ReferenceIdeal.HostRun.ops_part2,
    Cert.ReferenceIdeal.HostRun.ops_part3, Cert.ReferenceIdeal.HostRun.ops_part4, Cert.KernelIdeal.Gen.hostOps0]
  after_results_pairs
  have e0 : launchContents m' c (Proc.devRef .tc Cert.ReferenceIdeal.main_arg0) = launchContents m c (Proc.devRef .tc Cert.KernelIdeal.main_arg0) := h0
  have e1 : launchContents m' c (Proc.devRef .tc Cert.ReferenceIdeal.main_arg1) = launchContents m c (Proc.devRef .tc Cert.KernelIdeal.main_arg1) := h1
  rw [e0, e1]
  rfl

end Cert.Bridge

end
-- ==== Proof.lean ====
/-
  A tri-plane feature encoder: for each of 2097152 points and four resolution levels, the point's scaled coordinates
  select a cell in each of three planes of a 1024 × 1024 feature table; the four corners of the cell are gathered and
  blended with the bilinear weights of the coordinates' fractional parts; the three planes' blends and their product
  are the result. The kernel program does the index arithmetic, the gathers and the weights with host operations and
  leaves the blend and the product to a Pallas kernel over blocks of 16384 points; the reference does everything
  with host operations, adding the four weighted corners to a zero array.

  Why the two agree over the extended reals. The eight arrays the kernel's region reads (four gathered feature arrays,
  four weight arrays) are computed by the same composition of operations, with the same constants, as eight buffers of
  the reference; so from memories that agree on the arguments they are equal. On them the kernel forms, per point, level,
  plane and feature,  ((f0·w0 + f1·w1) + f2·w2) + f3·w3  and the reference  (((0 + w0·f0) + w1·f1) + w2·f2) + w3·f3 :
  equal because zero is neutral for + and · is commutative on the extended reals (no finiteness is used). Both then take
  the product of the three planes from the left and place it behind them, and both lay the [B, 4, 4, 2] array out as
  [B, 32].

  The kernel programs' frames are the generated frame certificates. The reference is a straight line of host operations:
  it terminates with every buffer at the fold of the operations, and no operation writes an argument. The idealization
  rewrote nothing, so there is nothing to preserve.
-/
import proofs.«158488_j36910948941984_1_alg».proof.Defs
import proofs.«158488_j36910948941984_1_alg».proof.Proof.Gen.Kernel
import proofs.«158488_j36910948941984_1_alg».proof.Proof.Gen.Kernel.Skeleton
import proofs.«158488_j36910948941984_1_alg».proof.Proof.Gen.Kernel.Launch
import proofs.«158488_j36910948941984_1_alg».proof.Proof.Gen.Kernel.Points
import proofs.«158488_j36910948941984_1_alg».proof.Proof.Gen.Kernel.Frame
import proofs.«158488_j36910948941984_1_alg».proof.Proof.Gen.KernelIdeal
import proofs.«158488_j36910948941984_1_alg».proof.Proof.Gen.KernelIdeal.Skeleton
import proofs.«158488_j36910948941984_1_alg».proof.Proof.Gen.KernelIdeal.Launch
import proofs.«158488_j36910948941984_1_alg».proof.Proof.Gen.KernelIdeal.Points
import proofs.«158488_j36910948941984_1_alg».proof.Proof.Gen.KernelIdeal.Frame
import proofs.«158488_j36910948941984_1_alg».proof.Proof.Gen.ReferenceIdeal
import proofs.«158488_j36910948941984_1_alg».proof.Proof.Gen.Pre_finite_inputs
import proofs.«158488_j36910948941984_1_alg».proof.Proof.KernelOut
import proofs.«158488_j36910948941984_1_alg».proof.Proof.RefTail
import proofs.«158488_j36910948941984_1_alg».proof.Proof.BridgeTail
import proofs.«158488_j36910948941984_1_alg».proof.Proof.BridgeWgt
import proofs.«158488_j36910948941984_1_alg».proof.Proof.BridgeFeat
import Idealize.ShloMosaic.Adequacy
import Idealize.ShloMosaic.Init

noncomputable section

namespace Cert.Proof

open Idealize.ShloMosaic Idealize.SL.Sem Idealize.ShloMosaic.StableHlo

/-- The kernel program as printed: its generated frame. -/
theorem frame_kernel : Cert.frame_Kernel := fun m ρ _ => Cert.Kernel.Gen.frame m ρ

/-- The kernel program read at the extended reals: its generated frame. -/
theorem frame_kernelIdeal : Cert.frame_KernelIdeal := fun m ρ _ => Cert.KernelIdeal.Gen.frame m ρ

/-- The reference: its run, read at the two argument buffers, which no operation writes. -/
theorem frame_reference : Cert.frame_ReferenceIdeal := fun m ρ _ =>
  (θ_run Cert.ReferenceIdeal.defs _ _).mono
    (fun _ h c => ⟨(h c Cert.ReferenceIdeal.main_arg0).trans (Cert.ReferenceIdeal.HostRun.kept_arg0 m c),
      (h c Cert.ReferenceIdeal.main_arg1).trans (Cert.ReferenceIdeal.HostRun.kept_arg1 m c)⟩)
    (Cert.ReferenceIdeal.HostRun.run (F := Ideal) m ρ)

/-- Both programs end with the specification's result of the eight arrays the kernel's region reads: the kernel by its
    value through the region, the reference because its eight intermediate buffers are those arrays and its last
    operations compute the specification's result of them. -/
theorem algebraic : Cert.algebraic_KernelIdeal_ReferenceIdeal := by
  intro m ρ m' ρ' _ hagree
  refine ⟨fun c => shapeCast Cert.KernelIdeal.S2097152x32
      (TriPlane.combine (Cert.KernelIdeal.Out.feat0 m c) (Cert.KernelIdeal.Out.feat1 m c) (Cert.KernelIdeal.Out.feat2 m c)
        (Cert.KernelIdeal.Out.feat3 m c) (Cert.KernelIdeal.Out.wgt0 m c) (Cert.KernelIdeal.Out.wgt1 m c)
        (Cert.KernelIdeal.Out.wgt2 m c) (Cert.KernelIdeal.Out.wgt3 m c))
      Cert.KernelIdeal.Gen.shapeCasts_S2097152x4x4x2_S2097152x32, Cert.KernelIdeal.Out.run m ρ, ?_⟩
  refine (θ_run Cert.ReferenceIdeal.defs _ _).mono
    (fun _ h c => ⟨?_, (h c Cert.ReferenceIdeal.main_arg0).trans (Cert.ReferenceIdeal.HostRun.kept_arg0 m' c),
      (h c Cert.ReferenceIdeal.main_arg1).trans (Cert.ReferenceIdeal.HostRun.kept_arg1 m' c)⟩)
    (Cert.ReferenceIdeal.HostRun.run (F := Ideal) m' ρ')
  refine (h c Cert.ReferenceIdeal.main_v190).trans ?_
  refine (Cert.ReferenceIdeal.HostRun.result_eq_tail _).trans ?_
  rw [Cert.Bridge.feat0_eq m m' c (hagree c).1 (hagree c).2, Cert.Bridge.feat1_eq m m' c (hagree c).1 (hagree c).2,
    Cert.Bridge.feat2_eq m m' c (hagree c).1 (hagree c).2, Cert.Bridge.feat3_eq m m' c (hagree c).1 (hagree c).2,
    Cert.Bridge.wgt0_eq m m' c (hagree c).1 (hagree c).2, Cert.Bridge.wgt1_eq m m' c (hagree c).1 (hagree c).2,
    Cert.Bridge.wgt2_eq m m' c (hagree c).1 (hagree c).2, Cert.Bridge.wgt3_eq m m' c (hagree c).1 (hagree c).2]
  exact Cert.ReferenceIdeal.Tail.out_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
